-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x32000 : Shape := ⟨3, ![1, 2048, 32000]⟩
abbrev S1x2048 : Shape := ⟨2, ![1, 2048]⟩
abbrev S_ : Shape := ⟨0, ![]⟩

class Facts : Prop where
  bcast_S_S1x2048x32000 : S_.BroadcastsInDim S1x2048x32000 (![] : Fin 0 → Fin S1x2048x32000.rank)
  reducesTo_S1x2048x32000_S_d0_1_2 : S1x2048x32000.ReducesTo [0, 1, 2] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg1 : IVec S1x2048 32) (main_v12 : IVec S_ 1) (main_v15 : IVec S_ 1) : IVec S_ 1 :=
  let main_v16 : IVec S_ 1 := andi main_v12 main_v15
  let main_c_6 : IVec S_ 32 := constantI S_ 32 0#32
  let main_v17 : IVec S1x2048 32 := broadcastInDim S1x2048 ![] bcast_S_S1x2048 main_c_6
  let main_v18 : IVec S1x2048 1 := cmpi .sge main_arg1 main_v17
  let main_c_7 : IVec S_ 1 := constantI S_ 1 1#1
  let main_v19 : IVec S_ 1 := (fun x v => Host.reduce IntOp.andi x v reducesTo_S1x2048_S_d0_1 h_S_) main_v18 main_c_7
  let main_v20 : IVec S_ 1 := andi main_v16 main_v19
  let main_c_8 : IVec S_ 32 := constantI S_ 32 32000#32
  let main_v21 : IVec S1x2048 32 := broadcastInDim S1x2048 ![] bcast_S_S1x2048 main_c_8
  let main_v22 : IVec S1x2048 1 := cmpi .slt main_arg1 main_v21
  let main_c_9 : IVec S_ 1 := constantI S_ 1 1#1
  let main_v23 : IVec S_ 1 := (fun x v => Host.reduce IntOp.andi x v reducesTo_S1x2048_S_d0_1 h_S_) main_v22 main_c_9
  let main_v24 : IVec S_ 1 := andi main_v20 main_v23
  main_v24

def fn {F : FTy → Type} [FloatOps F] (main_arg0 : FVec F S1x2048x32000 .f32) (main_arg1 : IVec S1x2048 32) (main_arg2 : IVec S1x2048 32) (main_arg3 : FVec F S1x2048 .f32) : IVec S_ 1 :=
  let main_v0 : FVec F S1x2048x32000 .f32 := Host.absf main_arg0
  let main_cst : FVec F S_ .f32 := constant S_ .f32 0x7F800000#32
  let main_v1 : FVec F S1x2048x32000 .f32 := broadcastInDim S1x2048x32000 ![] bcast_S_S1x2048x32000 main_cst
  let main_v2 : IVec S1x2048x32000 1 := cmpf .olt main_v0 main_v1
  let main_c : IVec S_ 1 := constantI S_ 1 1#1
  let main_v3 : IVec S_ 1 := (fun x v => Host.reduce IntOp.andi x v reducesTo_S1x2048x32000_S_d0_1_2 h_S_) main_v2 main_c
  let main_v4 : FVec F S1x2048 .f32 := Host.absf main_arg3
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_c_2 : IVec S_ 32 := constantI S_ 32 0#32
  let main_v9 : IVec S1x2048 32 := broadcastInDim S1x2048 ![] bcast_S_S1x2048 main_c_2
  let main_v10 : IVec S1x2048 1 := cmpi .sge main_arg2 main_v9
  let main_c_3 : IVec S_ 1 := constantI S_ 1 1#1
  let main_v11 : IVec S_ 1 := (fun x v => Host.reduce IntOp.andi x v reducesTo_S1x2048_S_d0_1 h_S_) main_v10 main_c_3
  let main_v12 : IVec S_ 1 := andi main_v8 main_v11
  let main_c_4 : IVec S_ 32 := constantI S_ 32 32000#32
  let main_v13 : IVec S1x2048 32 := broadcastInDim S1x2048 ![] bcast_S_S1x2048 main_c_4
  let main_v14 : IVec S1x2048 1 := cmpi .slt main_arg2 main_v13
  let main_c_5 : IVec S_ 1 := constantI S_ 1 1#1
  let main_v15 : IVec S_ 1 := (fun x v => Host.reduce IntOp.andi x v reducesTo_S1x2048_S_d0_1 h_S_) main_v14 main_c_5
  fn_part1 (F := F) main_arg1 main_v12 main_v15
-- ==== Kernel.lean ====
abbrev S1x2048x32000 : Shape := ⟨3, ![1, 2048, 32000]⟩
abbrev S1x2048 : Shape := ⟨2, ![1, 2048]⟩
abbrev S2048x32000 : Shape := ⟨2, ![2048, 32000]⟩
abbrev S2048x1 : Shape := ⟨2, ![2048, 1]⟩
abbrev S64x32000 : Shape := ⟨2, ![64, 32000]⟩
abbrev S64x1 : Shape := ⟨2, ![64, 1]⟩
abbrev S64 : Shape := ⟨1, ![64]⟩
abbrev S_ : Shape := ⟨0, ![]⟩

abbrev nBuf : Space → Nat
  | .hbm => 88
  | .vmem => 12
  | .smem => 0
  | _ => 0

abbrev bufTy : (tb : Table) → Fin (tcTables nBuf tb) → BufTy
  | .hbm, ⟨0, _⟩ => ⟨S1x2048x32000, .f32⟩
  | .hbm, ⟨1, _⟩ => ⟨S1x2048, .i32⟩
  | .hbm, ⟨2, _⟩ => ⟨S1x2048, .i32⟩
  | .hbm, ⟨3, _⟩ => ⟨S1x2048, .f32⟩
  | .hbm, ⟨4, _⟩ => ⟨S2048x32000, .f32⟩
  | .hbm, ⟨5, _⟩ => ⟨S2048x1, .i32⟩
  | .hbm, ⟨6, _⟩ => ⟨S2048x1, .i32⟩
  | .hbm, ⟨7, _⟩ => ⟨S2048x1, .f32⟩
  | .hbm, ⟨8, _⟩ => ⟨S2048x1, .f32⟩
  | .hbm, ⟨9, _⟩ => ⟨S2048x1, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S2048x1, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S2048x1, .f32⟩
  | .hbm, ⟨52, _⟩ => ⟨S2048x1, .f32⟩
  | .hbm, ⟨53, _⟩ => ⟨S_, .f32⟩
  | .hbm, ⟨54, _⟩ => ⟨S2048x1, .f32⟩
  | .hbm, ⟨55, _⟩ => ⟨S2048x1, .f32⟩
  | .hbm, ⟨56, _⟩ => ⟨S2048x1, .i1⟩
  | .hbm, ⟨57, _⟩ => ⟨S2048x1, .f32⟩
  | .hbm, ⟨58, _⟩ => ⟨S_, .i32⟩
  | .hbm, ⟨59, _⟩ => ⟨S2048x1, .i32⟩
  | .hbm, ⟨60, _⟩ => ⟨S2048x1, .i1⟩
  | .hbm, ⟨61, _⟩ => ⟨S2048x1, .f32⟩
  | .hbm, ⟨62, _⟩ => ⟨S2048x1, .f32⟩
  | .hbm, ⟨63, _⟩ => ⟨S2048x1, .f32⟩
  | .hbm, ⟨64, _⟩ => ⟨S2048x1, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S2048x1, .f32⟩
  | .hbm, ⟨70, _⟩ => ⟨S2048x1, .f32⟩
  | .hbm, ⟨71, _⟩ => ⟨S2048x1, .f32⟩
  | .hbm, ⟨72, _⟩ => ⟨S_, .f32⟩
  | .hbm, ⟨73, _⟩ => ⟨S2048x1, .f32⟩
  | .hbm, ⟨74, _⟩ => ⟨S2048x1, .f32⟩
  | .hbm, ⟨75, _⟩ => ⟨S2048x1, .f32⟩
  | .hbm, ⟨76, _⟩ => ⟨S2048x1, .f32⟩
  | .hbm, ⟨77, _⟩ => ⟨S2048x1, .f32⟩
  | .hbm, ⟨78, _⟩ => ⟨S_, .f32⟩
  | .hbm, ⟨79, _⟩ => ⟨S2048x1, .f32⟩
  | .hbm, ⟨80, _⟩ => ⟨S2048x1, .f32⟩
  | .hbm, ⟨81, _⟩ => ⟨S2048x1, .f32⟩
  | .hbm, ⟨82, _⟩ => ⟨S_, .f32⟩
  | .hbm, ⟨83, _⟩ => ⟨S2048x1, .f32⟩
  | .hbm, ⟨84, _⟩ => ⟨S2048x1, .f32⟩
  | .hbm, ⟨85, _⟩ => ⟨S2048x1, .f32⟩
  | .hbm, ⟨86, _⟩ => ⟨S2048x1, .f32⟩
  | .hbm, ⟨87, _⟩ => ⟨S1x2048, .f32⟩
  | .local _ .vmem, ⟨0, _⟩ => ⟨S64x32000, .f32⟩
  | .local _ .vmem, ⟨1, _⟩ => ⟨S64x32000, .f32⟩
  | .local _ .vmem, ⟨2, _⟩ => ⟨S64x1, .f32⟩
  | .local _ .vmem, ⟨3, _⟩ => ⟨S64x1, .f32⟩
  | .local _ .vmem, ⟨4, _⟩ => ⟨S64x1, .i32⟩
  | .local _ .vmem, ⟨5, _⟩ => ⟨S64x1, .i32⟩
  | .local _ .vmem, ⟨6, _⟩ => ⟨S64x1, .i32⟩
  | .local _ .vmem, ⟨7, _⟩ => ⟨S64x1, .i32⟩
  | .local _ .vmem, ⟨8, _⟩ => ⟨S64x1, .f32⟩
  | .local _ .vmem, ⟨9, _⟩ => ⟨S64x1, .f32⟩
  | .local _ .vmem, ⟨10, _⟩ => ⟨S64x1, .f32⟩
  | .local _ .vmem, ⟨11, _⟩ => ⟨S64x1, .f32⟩
  | _, _ => ⟨S1x2048x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_cst_10 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_11 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_12 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_13 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_14 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x2048x32000_S2048x32000 : S1x2048x32000.ShapeCasts S2048x32000
  shapeCasts_S1x2048_S2048x1 : S1x2048.ShapeCasts S2048x1
  inb_S64x32000_S64x32000_0_0 : ∀ a, (![0, 0] : Fin 2 → Nat) a + S64x32000.size a ≤ S64x32000.size a
  h_S64x32000 : 0 < S64x32000.numel
  shapeCasts_S64x32000_S64x32000 : S64x32000.ShapeCasts S64x32000
  iota_S64x32000_d1_w32 : S64x32000.Iotas .tc 32 [1]
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x32000 : S64x1.Broadcasts S64x32000
  reduces_S64x32000_S64 : S64x32000.Reduces [1] S64
  shapeCasts_S64_S64x1 : S64.ShapeCasts S64x1
  bcast_S_S2048x1 : S_.BroadcastsInDim S2048x1 (![] : Fin 0 → Fin S2048x1.rank)
  shapeCasts_S2048x1_S1x2048 : S2048x1.ShapeCasts S1x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32000.size a ≤ S2048x32000.size a
  hwx0_0 : ∀ i : grid0.Coords, EltTy.bits .f32 = 32 ∨ (Rect.block (s := S2048x32000) S64x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S2048x1.size a
  hwx0_1 : ∀ i : grid0.Coords, EltTy.bits .f32 = 32 ∨ (Rect.block (s := S2048x1) S64x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S2048x1.size a
  hwx0_2 : ∀ i : grid0.Coords, EltTy.bits .i32 = 32 ∨ (Rect.block (s := S2048x1) S64x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S2048x1.size a
  hwx0_3 : ∀ i : grid0.Coords, EltTy.bits .i32 = 32 ∨ (Rect.block (s := S2048x1) S64x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S2048x1.size a
  hwx0_4 : ∀ i : grid0.Coords, EltTy.bits .f32 = 32 ∨ (Rect.block (s := S2048x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S2048x1.size a
  hwx0_5 : ∀ i : grid0.Coords, EltTy.bits .f32 = 32 ∨ (Rect.block (s := S2048x1) S64x1.size (cc0_transform_5 i) (hinb0_5 i)).WholeWords (EltTy.packing .f32)

variable [Facts₀]

abbrev win0_0 : Pipeline.Window sig grid0 :=
  Pipeline.Window.ofSpec (Memref.whole main_v0) S64x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S64x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S64x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x2048x32000 : Shape := ⟨3, ![1, 2048, 32000]⟩
abbrev S1x2048 : Shape := ⟨2, ![1, 2048]⟩
abbrev S_ : Shape := ⟨0, ![]⟩
abbrev S1x2048x1 : Shape := ⟨3, ![1, 2048, 1]⟩
abbrev S1x1x32000 : Shape := ⟨3, ![1, 1, 32000]⟩
abbrev S1 : Shape := ⟨1, ![1]⟩
abbrev S2048x1x1 : Shape := ⟨3, ![2048, 1, 1]⟩
abbrev S1x1x1 : Shape := ⟨3, ![1, 1, 1]⟩
abbrev S2048x1 : Shape := ⟨2, ![2048, 1]⟩

abbrev nBuf : Space → Nat
  | .hbm => 201
  | .vmem => 0
  | .smem => 0
  | _ => 0

abbrev hbmTy0_0 (i : Nat) : BufTy := match i % 128 with
  | 0 => ⟨S1x2048x32000, .f32⟩
  | 1 => ⟨S1x2048, .i32⟩
  | 2 => ⟨S1x2048, .i32⟩
  | 3 => ⟨S1x2048, .f32⟩
  | 4 => ⟨S1x2048, .f32⟩
  | 5 => ⟨S1x2048, .f32⟩
  | 6 => ⟨S_, .f32⟩
  | 7 => ⟨S1x2048, .f32⟩
  | 8 => ⟨S1x2048, .f32⟩
  | 9 => ⟨S_, .f32⟩
  | 10 => ⟨S1x2048, .f32⟩
  | 11 => ⟨S1x2048, .f32⟩
  | 12 => ⟨S1x2048, .f32⟩
  | 13 => ⟨S1x2048, .f32⟩
  | 14 => ⟨S1x2048, .f32⟩
  | 15 => ⟨S_, .f32⟩
  | 16 => ⟨S1x2048, .f32⟩
  | 17 => ⟨S1x2048, .f32⟩
  | 18 => ⟨S_, .f32⟩
  | 19 => ⟨S1x2048, .f32⟩
  | 20 => ⟨S1x2048, .f32⟩
  | 21 => ⟨S1x2048, .f32⟩
  | 22 => ⟨S_, .f32⟩
  | 23 => ⟨S_, .f32⟩
  | 24 => ⟨S_, .f32⟩
  | 25 => ⟨S1x2048, .f32⟩
  | 26 => ⟨S1x2048, .f32⟩
  | 27 => ⟨S_, .f32⟩
  | 28 => ⟨S1x2048, .f32⟩
  | 29 => ⟨S1x2048, .f32⟩
  | 30 => ⟨S_, .f32⟩
  | 31 => ⟨S_, .f32⟩
  | 32 => ⟨S_, .f32⟩
  | 33 => ⟨S1x2048, .f32⟩
  | 34 => ⟨S1x2048, .f32⟩
  | 35 => ⟨S_, .f32⟩
  | 36 => ⟨S1x2048, .f32⟩
  | 37 => ⟨S1x2048, .f32⟩
  | 38 => ⟨S1x2048x1, .i32⟩
  | 39 => ⟨S1x1x32000, .i32⟩
  | 40 => ⟨S1x2048x32000, .i32⟩
  | 41 => ⟨S1x2048x32000, .i32⟩
  | 42 => ⟨S1x2048x32000, .i1⟩
  | 43 => ⟨S1x2048x32000, .f32⟩
  | 44 => ⟨S_, .i32⟩
  | 45 => ⟨S1, .i32⟩
  | 46 => ⟨S_, .f32⟩
  | 47 => ⟨S1x2048, .f32⟩
  | 48 => ⟨S1x2048x32000, .f32⟩
  | 49 => ⟨S_, .f32⟩
  | 50 => ⟨S1x2048, .f32⟩
  | 51 => ⟨S_, .f32⟩
  | 52 => ⟨S1x2048, .f32⟩
  | 53 => ⟨S1x2048, .f32⟩
  | 54 => ⟨S1x2048x1, .f32⟩
  | 55 => ⟨S1x2048x32000, .f32⟩
  | 56 => ⟨S1x2048x32000, .f32⟩
  | 57 => ⟨S1x2048x32000, .f32⟩
  | 58 => ⟨S_, .f32⟩
  | 59 => ⟨S1x2048, .f32⟩
  | 60 => ⟨S1x2048x1, .f32⟩
  | 61 => ⟨S1x2048x32000, .f32⟩
  | 62 => ⟨S1x2048x32000, .f32⟩
  | 63 => ⟨S1x2048, .f32⟩
  | 64 => ⟨S1x2048, .f32⟩
  | 65 => ⟨S_, .f32⟩
  | 66 => ⟨S1x2048, .f32⟩
  | 67 => ⟨S1x2048, .f32⟩
  | 68 => ⟨S_, .f32⟩
  | 69 => ⟨S1x2048, .f32⟩
  | 70 => ⟨S1x2048, .f32⟩
  | 71 => ⟨S1x2048x1, .f32⟩
  | 72 => ⟨S1x2048x32000, .f32⟩
  | 73 => ⟨S1x2048x32000, .f32⟩
  | 74 => ⟨S_, .f32⟩
  | 75 => ⟨S1x2048x1, .f32⟩
  | 76 => ⟨S1x2048x1, .f32⟩
  | 77 => ⟨S_, .f32⟩
  | 78 => ⟨S1x2048x1, .f32⟩
  | 79 => ⟨S1x2048x1, .f32⟩
  | 80 => ⟨S1x2048x32000, .f32⟩
  | 81 => ⟨S1x2048x32000, .f32⟩
  | 82 => ⟨S1x2048, .f32⟩
  | 83 => ⟨S_, .f32⟩
  | 84 => ⟨S1x2048, .f32⟩
  | 85 => ⟨S1x2048, .f32⟩
  | 86 => ⟨S_, .f32⟩
  | 87 => ⟨S1x2048, .f32⟩
  | 88 => ⟨S1x2048, .f32⟩
  | 89 => ⟨S_, .i32⟩
  | 90 => ⟨S1, .i32⟩
  | 91 => ⟨S1x2048x32000, .f32⟩
  | 92 => ⟨S_, .f32⟩
  | 93 => ⟨S1x2048x32000, .f32⟩
  | 94 => ⟨S1x2048x32000, .f32⟩
  | 95 => ⟨S1x2048x32000, .f32⟩
  | 96 => ⟨S1x2048, .f32⟩
  | 97 => ⟨S1x2048, .f32⟩
  | 98 => ⟨S_, .f32⟩
  | 99 => ⟨S1x2048, .f32⟩
  | 100 => ⟨S1x2048, .f32⟩
  | 101 => ⟨S_, .f32⟩
  | 102 => ⟨S1x2048, .f32⟩
  | 103 => ⟨S1x2048, .f32⟩
  | 104 => ⟨S1x2048x1, .f32⟩
  | 105 => ⟨S1x2048x32000, .f32⟩
  | 106 => ⟨S1x2048x32000, .f32⟩
  | 107 => ⟨S_, .f32⟩
  | 108 => ⟨S1x2048x1, .f32⟩
  | 109 => ⟨S1x2048x1, .f32⟩
  | 110 => ⟨S_, .f32⟩
  | 111 => ⟨S1x2048x1, .f32⟩
  | 112 => ⟨S1x2048x1, .f32⟩
  | 113 => ⟨S1x2048x32000, .f32⟩
  | 114 => ⟨S1x2048x32000, .f32⟩
  | 115 => ⟨S1x2048, .f32⟩
  | 116 => ⟨S_, .f32⟩
  | 117 => ⟨S1x2048, .f32⟩
  | 118 => ⟨S1x2048, .f32⟩
  | 119 => ⟨S_, .f32⟩
  | 120 => ⟨S1x2048, .f32⟩
  | 121 => ⟨S1x2048, .f32⟩
  | 122 => ⟨S_, .i32⟩
  | 123 => ⟨S1, .i32⟩
  | 124 => ⟨S1x2048x32000, .f32⟩
  | 125 => ⟨S_, .f32⟩
  | 126 => ⟨S1x2048x32000, .f32⟩
  | 127 => ⟨S1x2048x32000, .f32⟩
  | _ => ⟨S1x2048x32000, .f32⟩

abbrev hbmTy0_1 (i : Nat) : BufTy := match i % 128 with
  | 0 => ⟨S1x2048x32000, .f32⟩
  | 1 => ⟨S1x2048x1, .i32⟩
  | 2 => ⟨S_, .i32⟩
  | 3 => ⟨S1x2048x1, .i32⟩
  | 4 => ⟨S1x2048x1, .i1⟩
  | 5 => ⟨S_, .i32⟩
  | 6 => ⟨S1x2048x1, .i32⟩
  | 7 => ⟨S1x2048x1, .i32⟩
  | 8 => ⟨S1x2048x1, .i32⟩
  | 9 => ⟨S2048x1x1, .i32⟩
  | 10 => ⟨S1, .i32⟩
  | 11 => ⟨S_, .i32⟩
  | 12 => ⟨S2048x1x1, .i32⟩
  | 13 => ⟨S2048x1x1, .i1⟩
  | 14 => ⟨S1x1x1, .i32⟩
  | 15 => ⟨S2048x1x1, .i32⟩
  | 16 => ⟨S2048x1x1, .i1⟩
  | 17 => ⟨S2048x1x1, .i1⟩
  | 18 => ⟨S_, .i1⟩
  | 19 => ⟨S2048x1, .i1⟩
  | 20 => ⟨S1x2048x1, .f32⟩
  | 21 => ⟨S1x2048x1, .i1⟩
  | 22 => ⟨S_, .f32⟩
  | 23 => ⟨S1x2048x1, .f32⟩
  | 24 => ⟨S1x2048x1, .f32⟩
  | 25 => ⟨S1x2048, .f32⟩
  | 26 => ⟨S1x2048x1, .i32⟩
  | 27 => ⟨S_, .i32⟩
  | 28 => ⟨S1x2048x1, .i32⟩
  | 29 => ⟨S1x2048x1, .i1⟩
  | 30 => ⟨S_, .i32⟩
  | 31 => ⟨S1x2048x1, .i32⟩
  | 32 => ⟨S1x2048x1, .i32⟩
  | 33 => ⟨S1x2048x1, .i32⟩
  | 34 => ⟨S2048x1x1, .i32⟩
  | 35 => ⟨S1, .i32⟩
  | 36 => ⟨S_, .i32⟩
  | 37 => ⟨S2048x1x1, .i32⟩
  | 38 => ⟨S2048x1x1, .i1⟩
  | 39 => ⟨S1x1x1, .i32⟩
  | 40 => ⟨S2048x1x1, .i32⟩
  | 41 => ⟨S2048x1x1, .i1⟩
  | 42 => ⟨S2048x1x1, .i1⟩
  | 43 => ⟨S_, .i1⟩
  | 44 => ⟨S2048x1, .i1⟩
  | 45 => ⟨S1x2048x1, .f32⟩
  | 46 => ⟨S1x2048x1, .i1⟩
  | 47 => ⟨S_, .f32⟩
  | 48 => ⟨S1x2048x1, .f32⟩
  | 49 => ⟨S1x2048x1, .f32⟩
  | 50 => ⟨S1x2048, .f32⟩
  | 51 => ⟨S1x2048, .f32⟩
  | 52 => ⟨S1x2048, .f32⟩
  | 53 => ⟨S_, .f32⟩
  | 54 => ⟨S1x2048, .f32⟩
  | 55 => ⟨S1x2048, .f32⟩
  | 56 => ⟨S1x2048, .f32⟩
  | 57 => ⟨S1x2048, .f32⟩
  | 58 => ⟨S1x2048, .f32⟩
  | 59 => ⟨S_, .f32⟩
  | 60 => ⟨S1x2048, .f32⟩
  | 61 => ⟨S1x2048, .f32⟩
  | 62 => ⟨S1x2048x32000, .f32⟩
  | 63 => ⟨S1x2048x32000, .f32⟩
  | 64 => ⟨S1x2048x32000, .f32⟩
  | 65 => ⟨S_, .f32⟩
  | 66 => ⟨S1x2048, .f32⟩
  | 67 => ⟨S1x2048, .f32⟩
  | 68 => ⟨S_, .f32⟩
  | 69 => ⟨S1x2048, .f32⟩
  | 70 => ⟨S1x2048, .f32⟩
  | 71 => ⟨S1x2048, .f32⟩
  | 72 => ⟨S1x2048, .f32⟩
  | _ => ⟨S1x2048x32000, .f32⟩

abbrev hbmTy (i : Nat) : BufTy := match i / 128 with
  | 0 => hbmTy0_0 i
  | 1 => hbmTy0_1 i
  | _ => ⟨S1x2048x32000, .f32⟩

abbrev bufTy : (tb : Table) → Fin (tcTables nBuf tb) → BufTy
  | .hbm, ⟨i, _⟩ => hbmTy i
  | _, _ => ⟨S1x2048x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v14 : Ref sig .tc := ⟨.hbm, 29, rfl⟩
abbrev main_cst_5 : Ref sig .tc := ⟨.hbm, 30, rfl⟩
abbrev main_cst_6 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v15 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v16 : Ref sig .tc := ⟨.hbm, 43, rfl⟩
abbrev main_c : Ref sig .tc := ⟨.hbm, 44, rfl⟩
abbrev main_v17 : Ref sig .tc := ⟨.hbm, 45, rfl⟩
abbrev main_cst_7 : Ref sig .tc := ⟨.hbm, 46, rfl⟩
abbrev main_v18 : Ref sig .tc := ⟨.hbm, 47, rfl⟩
abbrev main_v19 : Ref sig .tc := ⟨.hbm, 48, rfl⟩
abbrev main_cst_8 : Ref sig .tc := ⟨.hbm, 49, rfl⟩
abbrev main_v20 : Ref sig .tc := ⟨.hbm, 50, rfl⟩
abbrev main_cst_9 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_10 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_11 : Ref sig .tc := ⟨.hbm, 65, rfl⟩
abbrev main_v33 : Ref sig .tc := ⟨.hbm, 66, rfl⟩
abbrev main_v34 : Ref sig .tc := ⟨.hbm, 67, rfl⟩
abbrev main_cst_12 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_13 : Ref sig .tc := ⟨.hbm, 74, rfl⟩
abbrev main_v40 : Ref sig .tc := ⟨.hbm, 75, rfl⟩
abbrev main_v41 : Ref sig .tc := ⟨.hbm, 76, rfl⟩
abbrev main_cst_14 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_15 : Ref sig .tc := ⟨.hbm, 83, rfl⟩
abbrev main_v47 : Ref sig .tc := ⟨.hbm, 84, rfl⟩
abbrev main_v48 : Ref sig .tc := ⟨.hbm, 85, rfl⟩
abbrev main_cst_16 : Ref sig .tc := ⟨.hbm, 86, rfl⟩
abbrev main_v49 : Ref sig .tc := ⟨.hbm, 87, rfl⟩
abbrev main_v50 : Ref sig .tc := ⟨.hbm, 88, rfl⟩
abbrev main_c_17 : Ref sig .tc := ⟨.hbm, 89, rfl⟩
abbrev main_v51 : Ref sig .tc := ⟨.hbm, 90, rfl⟩
abbrev main_v52 : Ref sig .tc := ⟨.hbm, 91, rfl⟩
abbrev main_cst_18 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_19 : Ref sig .tc := ⟨.hbm, 98, rfl⟩
abbrev main_v58 : Ref sig .tc := ⟨.hbm, 99, rfl⟩
abbrev main_v59 : Ref sig .tc := ⟨.hbm, 100, rfl⟩
abbrev main_cst_20 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_21 : Ref sig .tc := ⟨.hbm, 107, rfl⟩
abbrev main_v65 : Ref sig .tc := ⟨.hbm, 108, rfl⟩
abbrev main_v66 : Ref sig .tc := ⟨.hbm, 109, rfl⟩
abbrev main_cst_22 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_23 : Ref sig .tc := ⟨.hbm, 116, rfl⟩
abbrev main_v72 : Ref sig .tc := ⟨.hbm, 117, rfl⟩
abbrev main_v73 : Ref sig .tc := ⟨.hbm, 118, rfl⟩
abbrev main_cst_24 : Ref sig .tc := ⟨.hbm, 119, rfl⟩
abbrev main_v74 : Ref sig .tc := ⟨.hbm, 120, rfl⟩
abbrev main_v75 : Ref sig .tc := ⟨.hbm, 121, rfl⟩
abbrev main_c_25 : Ref sig .tc := ⟨.hbm, 122, rfl⟩
abbrev main_v76 : Ref sig .tc := ⟨.hbm, 123, rfl⟩
abbrev main_v77 : Ref sig .tc := ⟨.hbm, 124, rfl⟩
abbrev main_cst_26 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_call3_c : Ref sig .tc := ⟨.hbm, 130, rfl⟩
abbrev main_call3_v0 : Ref sig .tc := ⟨.hbm, 131, rfl⟩
abbrev main_call3_v1 : Ref sig .tc := ⟨.hbm, 132, rfl⟩
abbrev main_call3_c_0 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_call3_v5 : Ref sig .tc := ⟨.hbm, 137, rfl⟩
abbrev main_call3_c_1 : Ref sig .tc := ⟨.hbm, 138, rfl⟩
abbrev main_call3_c_2 : Ref sig .tc := ⟨.hbm, 139, rfl⟩
abbrev main_call3_v6 : Ref sig .tc := ⟨.hbm, 140, rfl⟩
abbrev main_call3_v7 : Ref sig .tc := ⟨.hbm, 141, rfl⟩
abbrev main_call3_v8 : Ref sig .tc := ⟨.hbm, 142, rfl⟩
abbrev main_call3_v9 : Ref sig .tc := ⟨.hbm, 143, rfl⟩
abbrev main_call3_v10 : Ref sig .tc := ⟨.hbm, 144, rfl⟩
abbrev main_call3_v11 : Ref sig .tc := ⟨.hbm, 145, rfl⟩
abbrev main_call3_c_3 : Ref sig .tc := ⟨.hbm, 146, rfl⟩
abbrev main_call3_v12 : Ref sig .tc := ⟨.hbm, 147, rfl⟩
abbrev main_call3_v13 : Ref sig .tc := ⟨.hbm, 148, rfl⟩
abbrev main_call3_v14 : Ref sig .tc := ⟨.hbm, 149, rfl⟩
abbrev main_call3_cst : Ref sig .tc := ⟨.hbm, 150, rfl⟩
abbrev main_call3_v15 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_call4_c : Ref sig .tc := ⟨.hbm, 155, rfl⟩
abbrev main_call4_v0 : Ref sig .tc := ⟨.hbm, 156, rfl⟩
abbrev main_call4_v1 : Ref sig .tc := ⟨.hbm, 157, rfl⟩
abbrev main_call4_c_0 : Ref sig .tc := ⟨.hbm, 158, rfl⟩
abbrev main_call4_v2 : Ref sig .tc := ⟨.hbm, 159, rfl⟩
abbrev main_call4_v3 : Ref sig .tc := ⟨.hbm, 160, rfl⟩
abbrev main_call4_v4 : Ref sig .tc := ⟨.hbm, 161, rfl⟩
abbrev main_call4_v5 : Ref sig .tc := ⟨.hbm, 162, rfl⟩
abbrev main_call4_c_1 : Ref sig .tc := ⟨.hbm, 163, rfl⟩
abbrev main_call4_c_2 : Ref sig .tc := ⟨.hbm, 164, rfl⟩
abbrev main_call4_v6 : Ref sig .tc := ⟨.hbm, 165, rfl⟩
abbrev main_call4_v7 : Ref sig .tc := ⟨.hbm, 166, rfl⟩
abbrev main_call4_v8 : Ref sig .tc := ⟨.hbm, 167, rfl⟩
abbrev main_call4_v9 : Ref sig .tc := ⟨.hbm, 168, rfl⟩
abbrev main_call4_v10 : Ref sig .tc := ⟨.hbm, 169, rfl⟩
abbrev main_call4_v11 : Ref sig .tc := ⟨.hbm, 170, rfl⟩
abbrev main_call4_c_3 : Ref sig .tc := ⟨.hbm, 171, rfl⟩
abbrev main_call4_v12 : Ref sig .tc := ⟨.hbm, 172, rfl⟩
abbrev main_call4_v13 : Ref sig .tc := ⟨.hbm, 173, rfl⟩
abbrev main_call4_v14 : Ref sig .tc := ⟨.hbm, 174, rfl⟩
abbrev main_call4_cst : Ref sig .tc := ⟨.hbm, 175, rfl⟩
abbrev main_call4_v15 : Ref sig .tc := ⟨.hbm, 176, rfl⟩
abbrev main_v85 : Ref sig .tc := ⟨.hbm, 177, rfl⟩
abbrev main_v86 : Ref sig .tc := ⟨.hbm, 178, rfl⟩
abbrev main_v87 : Ref sig .tc := ⟨.hbm, 179, rfl⟩
abbrev main_v88 : Ref sig .tc := ⟨.hbm, 180, rfl⟩
abbrev main_cst_27 : Ref sig .tc := ⟨.hbm, 181, rfl⟩
abbrev main_v89 : Ref sig .tc := ⟨.hbm, 182, rfl⟩
abbrev main_v90 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_cst_28 : Ref sig .tc := ⟨.hbm, 187, rfl⟩
abbrev main_v94 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_cst_29 : Ref sig .tc := ⟨.hbm, 193, rfl⟩
abbrev main_v99 : Ref sig .tc := ⟨.hbm, 194, rfl⟩
abbrev main_v100 : Ref sig .tc := ⟨.hbm, 195, rfl⟩
abbrev main_cst_30 : Ref sig .tc := ⟨.hbm, 196, rfl⟩
abbrev main_v101 : Ref sig .tc := ⟨.hbm, 197, rfl⟩
abbrev main_v102 : Ref sig .tc := ⟨.hbm, 198, rfl⟩
abbrev main_v103 : Ref sig .tc := ⟨.hbm, 199, rfl⟩
abbrev main_v104 : Ref sig .tc := ⟨.hbm, 200, rfl⟩

abbrev nD : Nat := 1
abbrev τ : Topo := Topo.v7x

variable {F : FTy → Type} [FloatOps F]

class Facts₀ : Prop where
  bcast_S_S1x2048 : S_.BroadcastsInDim S1x2048 (![] : Fin 0 → Fin S1x2048.rank)
  bcast_S1x2048_S1x2048x1_0_1 : S1x2048.BroadcastsInDim S1x2048x1 (![0, 1] : Fin 2 → Fin S1x2048x1.rank)
  bcast_S1x2048x1_S1x2048x32000_0_1_2 : S1x2048x1.BroadcastsInDim S1x2048x32000 (![0, 1, 2] : Fin 3 → Fin S1x2048x32000.rank)
  bcast_S1x1x32000_S1x2048x32000_0_1_2 : S1x1x32000.BroadcastsInDim S1x2048x32000 (![0, 1, 2] : Fin 3 → Fin S1x2048x32000.rank)
  bcast_S_S1 : S_.BroadcastsInDim S1 (![] : Fin 0 → Fin S1.rank)
  reducesTo_S1x2048x32000_S1x2048_d2 : S1x2048x32000.ReducesTo [2] S1x2048
  h_S_ : 0 < S_.numel
  bcast_S_S1x2048x1 : S_.BroadcastsInDim S1x2048x1 (![] : Fin 0 → Fin S1x2048x1.rank)
  shapeCasts_S1x2048x1_S1x2048 : S1x2048x1.ShapeCasts S1x2048
  bcast_S_S1x2048x32000 : S_.BroadcastsInDim S1x2048x32000 (![] : Fin 0 → Fin S1x2048x32000.rank)
  shapeCasts_S1x2048x1_S2048x1x1 : S1x2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  bcast_S2048x1_S1x2048x1_1_2 : S2048x1.BroadcastsInDim S1x2048x1 (![1, 2] : Fin 2 → Fin S1x2048x1.rank)
  scatter_S1x2048x32000_S1_S1x2048_01_2_2_0_wf : ScatterDims.WF S1x2048x32000 S1 S1x2048 [0, 1] [2] [2] 0
  gather_S1x2048x32000_S2048x1x1_S1x2048x1_0_2_1_0_2_2_111_wf : GatherDims.WF S1x2048x32000 S2048x1x1 S1x2048x1 [0] [2] [1] [2] [0] 2 ![1, 1, 1]

variable [Facts₀]

def scatter_S1x2048x32000_S1_S1x2048_01_2_2_0 : ScatterDims S1x2048x32000 S1 S1x2048 where
  updateWindowDims := [0, 1]
  insertedWindowDims := [2]
  scatterDimsToOperandDims := [2]
  indexVectorDim := 0
  wf := scatter_S1x2048x32000_S1_S1x2048_01_2_2_0_wf
def gather_S1x2048x32000_S2048x1x1_S1x2048x1_0_2_1_0_2_2_111 : GatherDims S1x2048x32000 S2048x1x1 S1x2048x1 where
  offsetDims := [0]
  collapsedSliceDims := [2]
  operandBatchingDims := [1]
  startIndicesBatchingDims := [0]
  startIndexMap := [2]
  indexVectorDim := 2
  sliceSizes := ![1, 1, 1]
  wf := gather_S1x2048x32000_S2048x1x1_S1x2048x1_0_2_1_0_2_2_111_wf

class Facts : Prop extends Facts₀ where

variable [Facts]
-- ==== Proof.KData.lean ====
/-
  The pipeline's proof data for the one pallas_call: the arrays as the region finds them, each window's block at a
  grid point, and what the kernel body leaves in the two result windows' staging buffers at a point as a function of
  the four input blocks — row block `t` of the logits, of the log signal-to-noise ratios, of the labels and of the
  observed tokens. Definitions only; the run over them and the values read off them are in the modules that import
  this one.
-/
import proofs.«412391_j58377195487468_2_alg».proof.Proof.Gen.Kernel.Launch
import proofs.«412391_j58377195487468_2_alg».proof.Proof.Gen.Kernel.Skeleton
import proofs.«412391_j58377195487468_2_alg».proof.Proof.Gen.Kernel.Points
import Idealize.ShloMosaic.Lib.Pipeline.FrameBody
import Idealize.ShloMosaic.Lib.Pipeline.FrameSuffix

set_option maxRecDepth 16384

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffer contents when the region is entered: after the four reshapes before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, in their three stretches. -/
abbrev tailOps : List (List (HloOp τ sig (Elt F))) := [hostOps1, hostOps1_1, hostOps1_2]

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole-buffer rectangles the body loads and stores through. -/
abbrev rBig : Rect S64x32000 := Rect.unit (s := S64x32000) ![0, 0] S64x32000.size inb_S64x32000_S64x32000_0_0
abbrev rCol : Rect S64x1 := Rect.unit (s := S64x1) ![0, 0] S64x1.size inb_S64x1_S64x1_0_0

/-- The row-block of `log(p+ε)` the body computes from the logits block `x0` and the log-SNR block `x1`. -/
def logpBlk (x0 : Vec F S64x32000 .f32) (x1 : Vec F S64x1 .f32) : FVec F S64x32000 .f32 :=
  k0_pay12 k0_pay2 (k0_pay9 (View.ld x0 rBig) (View.ld x1 rCol)) (k0_pay10 (View.ld x1 rCol)) (k0_pay11 (F := F))

/-- What the body stores into the first result window (the divergence by the closed forms), from the blocks of the
    logits `x0`, the log-SNR `x1` and the labels `x2`. -/
def klBlk (x0 : Vec F S64x32000 .f32) (x1 : Vec F S64x1 .f32) (x2 : Vec F S64x1 .i32) : FVec F S64x1 .f32 :=
  k0_pay1 (k0_pay6 (View.ld x1 rCol)) (k0_pay8 (View.ld x1 rCol))
    (k0_pay13 k0_pay2 (k0_pay9 (View.ld x0 rBig) (View.ld x1 rCol)) (k0_pay10 (View.ld x1 rCol)) (k0_pay11 (F := F)))
    (k0_pay14 k0_pay2 (k0_pay4 (View.ld x2 rCol)) (k0_pay9 (View.ld x0 rBig) (View.ld x1 rCol)) (k0_pay10 (View.ld x1 rCol)) (k0_pay11 (F := F)))
    (k0_pay15 k0_pay2 (k0_pay9 (View.ld x0 rBig) (View.ld x1 rCol)) (k0_pay10 (View.ld x1 rCol)) (k0_pay11 (F := F)))
    (k0_pay17 (k0_pay7 (View.ld x1 rCol)))
    (k0_pay18 (k0_pay6 (View.ld x1 rCol)) (k0_pay7 (View.ld x1 rCol)) (k0_pay8 (View.ld x1 rCol)))
    (k0_pay19 (k0_pay3 (View.ld x2 rCol)))
    (k0_pay20 (k0_pay6 (View.ld x1 rCol)) (k0_pay7 (View.ld x1 rCol)) (k0_pay8 (View.ld x1 rCol)))
    (k0_pay21 (k0_pay7 (View.ld x1 rCol)))

/-- What the body stores into the second result window (`log(p+ε)` picked at the observed token), from the blocks of
    the logits `x0`, the log-SNR `x1` and the tokens `x3`. -/
def lpzBlk (x0 : Vec F S64x32000 .f32) (x1 : Vec F S64x1 .f32) (x3 : Vec F S64x1 .i32) : FVec F S64x1 .f32 :=
  k0_pay16 k0_pay2 (k0_pay5 (View.ld x3 rCol)) (k0_pay9 (View.ld x0 rBig) (View.ld x1 rCol)) (k0_pay10 (View.ld x1 rCol)) (k0_pay11 (F := F))

/-- Window 4's staging buffer after the body: its one store, over the whole buffer. -/
def out0_4 (x0 : Vec F S64x32000 .f32) (x1 : Vec F S64x1 .f32) (x2 : Vec F S64x1 .i32) : Vec F S64x1 .f32 :=
  View.canon [⟨rCol, klBlk x0 x1 x2⟩]
/-- Window 5's likewise. -/
def out0_5 (x0 : Vec F S64x32000 .f32) (x1 : Vec F S64x1 .f32) (x3 : Vec F S64x1 .i32) : Vec F S64x1 .f32 :=
  View.canon [⟨rCol, lpzBlk x0 x1 x3⟩]

/-- The one store covers the buffer. -/
theorem cover_col (p0 : Vec F S64x1 .f32) (y : S64x1.Idx) :
    ∃ pc ∈ ([⟨rCol, p0⟩] : List (View.Piece (Elt F) S64x1 .f32)), y ∈ pc.1.set :=
  View.cover_of_tiled [⟨rCol, p0⟩] S64x1.size (by rfl) y

/-- The proof data of the pipeline on core `c`: the arrays as the region finds them; after the body at point `t`
    each input's buffer at its block and each result's at what the body stores from the input blocks; the class's
    invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t)
    | ⟨5, _⟩ => out0_5 (iblk m c 0 t) (iblk m c 1 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) := by dsimp only [dats]
theorem after0_5 (c : Dev nD) (t : Fin cfg0.N) :
    (dats m 0 c).after 5 t = out0_5 (iblk m c 0 t) (iblk m c 1 t) (iblk m c 3 t) := by dsimp only [dats]

/-- What a run of @main around the region ends in: every array of the pipeline at what the library computes from the
    proof data, every other unscoped buffer as the host operations after the region leave it. -/
abbrev RunPost (m : (ℓ : Loc nD τ sig) → Buf (Elt F) ℓ) :=
  Pipeline.FramePost cfgs (dats m) 0 (Pipeline.afterTail₀ cfgs (dats m) 0 (V0 m) (tailOps (F := F)))

end Cert.Kernel.Fr

end
-- ==== Proof.KFrame.lean ====
/-
  The run of @main of the kernel program around its one pipelined region, at any float instance: the four reshapes
  before the region write no argument array; the body at a grid point reads the four input blocks whole and stores
  each result block once, whole; the seventy-eight host operations after the region write neither an argument
  array nor an array of the pipeline. Hence every weakly fair execution terminates, every array of the pipeline ends
  at what the library computes from the proof data, every other unscoped buffer ends as the host operations after the
  region leave it, and the four argument arrays end as launched.
-/
import proofs.«412391_j58377195487468_2_alg».proof.Proof.KData
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main as the chain of the stretches before the region, the region, and the stretches after it. -/
theorem main_chain_around (c : Dev nD) : main (F := F) c = (Pipeline.chain
    (([hostOps0] : List (List (HloOp τ sig (Elt F)))).map StableHlo.seq ++ [Prog.lift (.customCall (Pipeline.entry 0) ())]
      ++ (tailOps : List (List (HloOp τ sig (Elt F)))).map StableHlo.seq) : Prog (TpuEff nD τ sig (Elt F) (Pipeline.Sig Λ₀ (Fin 1) fun p => (pcfgs (F := F) p).Adm) .tc) PUnit) := by
  simp only [List.map_cons, List.map_nil, List.cons_append, List.nil_append, List.singleton_append]
  exact main_chain c

/-- @main is the four reshapes, the region, and the three stretches of host operations after it: it reduces to the
    region continued by those stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps : List (List (HloOp τ sig (Elt F)))).map StableHlo.seq)) :=
  Pipeline.hmain_around cfgs 0 defs₀ 𝒱₀ m main [hostOps0] tailOps (by simp only [List.Forall]; exact hostOps0_sub)
    (by simp only [List.Forall]; exact hostOps0_fresh) main_chain_around

/-- The operations after the region touch unscoped TensorCore buffers only: the pipeline's arrays and the buffers that
    bypass the region. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- What no operation after the region writes: the six arrays of the pipeline and the four argument arrays (each
    operation writes its own result buffer only, which is none of the ten). -/
def Keeps (op : HloOp τ sig (Elt F)) : Prop :=
  (∀ w, Proc.devRef .tc (Pipeline.arrRef spec0 w) ∉ op.writes)
    ∧ Proc.devRef .tc main_arg0 ∉ op.writes ∧ Proc.devRef .tc main_arg1 ∉ op.writes
    ∧ Proc.devRef .tc main_arg2 ∉ op.writes ∧ Proc.devRef .tc main_arg3 ∉ op.writes

set_option maxHeartbeats 2000000 in
/-- The first stretch. -/
theorem keeps1 : ∀ op ∈ (hostOps1 : List (HloOp τ sig (Elt F))), Keeps op := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    refine ⟨fun w => ?_, ?_, ?_, ?_, ?_⟩
    · fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
    all_goals simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne (by decide)
set_option maxHeartbeats 2000000 in
/-- The second. -/
theorem keeps1_1 : ∀ op ∈ (hostOps1_1 : List (HloOp τ sig (Elt F))), Keeps op := by
  intro op hop
  simp only [hostOps1_1, List.mem_cons, List.mem_nil_iff, or_false] at hop
  rcases hop with rfl | rfl | rfl | rfl | rfl | rfl
  all_goals
    refine ⟨fun w => ?_, ?_, ?_, ?_, ?_⟩
    · fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
    all_goals simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne (by decide)
set_option maxHeartbeats 2000000 in
/-- The third. -/
theorem keeps1_2 : ∀ op ∈ (hostOps1_2 : List (HloOp τ sig (Elt F))), Keeps op := by
  intro op hop
  simp only [hostOps1_2, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    refine ⟨fun w => ?_, ?_, ?_, ?_, ?_⟩
    · fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
    all_goals simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne (by decide)

/-- All three. -/
theorem keeps_tail : ∀ ops ∈ (tailOps : List (List (HloOp τ sig (Elt F)))), ∀ op ∈ ops, Keeps op := by
  intro ops hops op hop
  simp only [List.mem_cons, List.mem_nil_iff, or_false] at hops
  rcases hops with rfl | rfl | rfl
  · exact keeps1 op hop
  · exact keeps1_1 op hop
  · exact keeps1_2 op hop

/-- So no operation after the region writes an array of the pipeline. -/
theorem sfx_keeps : ∀ ops ∈ (tailOps : List (List (HloOp τ sig (Elt F)))), ∀ op ∈ ops,
    ∀ w, Proc.devRef .tc (Pipeline.arrRef spec0 w) ∉ op.writes :=
  fun ops hops op hop => (keeps_tail ops hops op hop).1

/-- Nor, read along the flattened list, an argument array. -/
theorem keeps_flat : ∀ op ∈ (tailOps : List (List (HloOp τ sig (Elt F)))).flatten, Keeps op := by
  intro op hop
  obtain ⟨ops, hops, hop⟩ := List.mem_flatten.mp hop
  exact keeps_tail ops hops op hop

/-- No reshape before the region writes an argument array. -/
theorem keeps0 : ∀ op ∈ (List.flatten [hostOps0] : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes := by
  intro op hop
  simp only [hostOps0, List.flatten_cons, List.flatten_nil, List.append_nil, List.mem_cons, List.mem_nil_iff, or_false] at hop
  rcases hop with rfl | rfl | rfl | rfl
  all_goals
    refine ⟨?_, ?_, ?_, ?_⟩
    all_goals simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne (by decide)

/-- The region finds `main_arg0` as launched. -/
theorem V_main_arg0 (c : Dev nD) : V m c main_arg0 = m ((c : Thread nD τ).loc main_arg0) :=
  StableHlo.after_of_forall_not_mem (b := Proc.devRef .tc main_arg0) _ _ fun op hop => (keeps0 op hop).1

/-- The region finds `main_arg1` as launched. -/
theorem V_main_arg1 (c : Dev nD) : V m c main_arg1 = m ((c : Thread nD τ).loc main_arg1) :=
  StableHlo.after_of_forall_not_mem (b := Proc.devRef .tc main_arg1) _ _ fun op hop => (keeps0 op hop).2.1

/-- The region finds `main_arg2` as launched. -/
theorem V_main_arg2 (c : Dev nD) : V m c main_arg2 = m ((c : Thread nD τ).loc main_arg2) :=
  StableHlo.after_of_forall_not_mem (b := Proc.devRef .tc main_arg2) _ _ fun op hop => (keeps0 op hop).2.2.1

/-- The region finds `main_arg3` as launched. -/
theorem V_main_arg3 (c : Dev nD) : V m c main_arg3 = m ((c : Thread nD τ).loc main_arg3) :=
  StableHlo.after_of_forall_not_mem (b := Proc.devRef .tc main_arg3) _ _ fun op hop => (keeps0 op hop).2.2.2

/-- No host operation after the region writes `main_arg0`, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ fun op hop => (keeps_flat op hop).2.1,
    Pipeline.withArrays_of_ne _ c (V0 m c) _ main_arg0 (by exact (by decide : ∀ w, Pipeline.arrRef spec0 w ≠ main_arg0))]
  exact V_main_arg0 m c

/-- No host operation after the region writes `main_arg1`, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ fun op hop => (keeps_flat op hop).2.2.1,
    Pipeline.withArrays_of_ne _ c (V0 m c) _ main_arg1 (by exact (by decide : ∀ w, Pipeline.arrRef spec0 w ≠ main_arg1))]
  exact V_main_arg1 m c

/-- No host operation after the region writes `main_arg2`, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ fun op hop => (keeps_flat op hop).2.2.2.1,
    Pipeline.withArrays_of_ne _ c (V0 m c) _ main_arg2 (by exact (by decide : ∀ w, Pipeline.arrRef spec0 w ≠ main_arg2))]
  exact V_main_arg2 m c

/-- No host operation after the region writes `main_arg3`, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ fun op hop => (keeps_flat op hop).2.2.2.2,
    Pipeline.withArrays_of_ne _ c (V0 m c) _ main_arg3 (by exact (by decide : ∀ w, Pipeline.arrRef spec0 w ≠ main_arg3))]
  exact V_main_arg3 m c

/-! ## The body's triple -/

set_option maxHeartbeats 4000000 in
/-- The kernel body on whole staging memrefs, the four inputs' at read contents `x0 … x3` and the two results' at
    anything, runs to the continuation holding the inputs' as they were and the results' at `out0_4 x0 x1 x2` and
    `out0_5 x0 x1 x3`: it loads the inputs whole and stores each result once, whole. -/
theorem sound_kernel (c : Dev nD) (E : Set ℕ) (i : grid0.Coords) (arg1 : Memref sig .tc .vmem S64x32000 .f32) (harg1 : arg1.IsWhole) (arg2 : Memref sig .tc .vmem S64x1 .f32) (harg2 : arg2.IsWhole) (arg3 : Memref sig .tc .vmem S64x1 .i32) (harg3 : arg3.IsWhole) (arg4 : Memref sig .tc .vmem S64x1 .i32) (harg4 : arg4.IsWhole) (arg5 : Memref sig .tc .vmem S64x1 .f32) (harg5 : arg5.IsWhole) (arg6 : Memref sig .tc .vmem S64x1 .f32) (harg6 : arg6.IsWhole)
    (x0 : Vec F S64x32000 .f32) (x1 : Vec F S64x1 .f32) (x2 : Vec F S64x1 .i32) (x3 : Vec F S64x1 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2) ∗ owns (c : Thread nD τ) arg6 fullShare (out0_5 x0 x1 x3)) -∗ K ⟨⟩))
      ⊢ wp frame (wpE (defs₀ (F := F)) Variants.none c none) E (cc0__fused_kernel i arg1 harg1 arg2 harg2 arg3 harg3 arg4 harg4 arg5 harg5 arg6 harg6) K := by
  simp only [cc0__fused_kernel_eq_skeleton]; unfold cc0__fused_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_col _)
  · iexists _; isplitr
    swap; · iexact H5
    ipureintro
    exact View.read_writes_eq_canon _ _ _ (cover_col _)

/-! ## The windows' blocks at a point -/

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The frame claim's post from the frame run's -/

/-- For any proof data whose arrays are the region-entry contents, a run to the library's frame post, read at the four
    argument arrays — none is staged by a window, so each ends as the operations after the region leave it, which is
    as launched — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body obligation, at a generic point -/

/-- What the body is called with at point `t`: the invariant, the core's debts, and each window's current staging
    buffer at what the proof data say it holds before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- And what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' staging buffers hold their blocks, so the body's triple applies; the invariant
    and the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the library computes
    from the proof data and every other unscoped buffer as the operations after the region leave it. -/
theorem run_main : θ_run defs (onTc (τ := τ) (main (F := F))) (s₀ m ρ) (RunPost m) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim at any float instance: @main runs, and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Fr

end
-- ==== Proof.KIData.lean ====
/-
  The pipeline's proof data for the one pallas_call: the arrays as the region finds them, each window's block at a
  grid point, and what the kernel body leaves in the two result windows' staging buffers at a point as a function of
  the four input blocks — row block `t` of the logits, of the log signal-to-noise ratios, of the labels and of the
  observed tokens. Definitions only; the run over them and the values read off them are in the modules that import
  this one.
-/
import proofs.«412391_j58377195487468_2_alg».proof.Proof.Gen.KernelIdeal.Launch
import proofs.«412391_j58377195487468_2_alg».proof.Proof.Gen.KernelIdeal.Skeleton
import proofs.«412391_j58377195487468_2_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffer contents when the region is entered: after the four reshapes before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, in their three stretches. -/
abbrev tailOps : List (List (HloOp τ sig (Elt F))) := [hostOps1, hostOps1_1, hostOps1_2]

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole-buffer rectangles the body loads and stores through. -/
abbrev rBig : Rect S64x32000 := Rect.unit (s := S64x32000) ![0, 0] S64x32000.size inb_S64x32000_S64x32000_0_0
abbrev rCol : Rect S64x1 := Rect.unit (s := S64x1) ![0, 0] S64x1.size inb_S64x1_S64x1_0_0

/-- The row-block of `log(p+ε)` the body computes from the logits block `x0` and the log-SNR block `x1`. -/
def logpBlk (x0 : Vec F S64x32000 .f32) (x1 : Vec F S64x1 .f32) : FVec F S64x32000 .f32 :=
  k0_pay12 k0_pay2 (k0_pay9 (View.ld x0 rBig) (View.ld x1 rCol)) (k0_pay10 (View.ld x1 rCol)) (k0_pay11 (F := F))

/-- What the body stores into the first result window (the divergence by the closed forms), from the blocks of the
    logits `x0`, the log-SNR `x1` and the labels `x2`. -/
def klBlk (x0 : Vec F S64x32000 .f32) (x1 : Vec F S64x1 .f32) (x2 : Vec F S64x1 .i32) : FVec F S64x1 .f32 :=
  k0_pay1 (k0_pay6 (View.ld x1 rCol)) (k0_pay8 (View.ld x1 rCol))
    (k0_pay13 k0_pay2 (k0_pay9 (View.ld x0 rBig) (View.ld x1 rCol)) (k0_pay10 (View.ld x1 rCol)) (k0_pay11 (F := F)))
    (k0_pay14 k0_pay2 (k0_pay4 (View.ld x2 rCol)) (k0_pay9 (View.ld x0 rBig) (View.ld x1 rCol)) (k0_pay10 (View.ld x1 rCol)) (k0_pay11 (F := F)))
    (k0_pay15 k0_pay2 (k0_pay9 (View.ld x0 rBig) (View.ld x1 rCol)) (k0_pay10 (View.ld x1 rCol)) (k0_pay11 (F := F)))
    (k0_pay17 (k0_pay7 (View.ld x1 rCol)))
    (k0_pay18 (k0_pay6 (View.ld x1 rCol)) (k0_pay7 (View.ld x1 rCol)) (k0_pay8 (View.ld x1 rCol)))
    (k0_pay19 (k0_pay3 (View.ld x2 rCol)))
    (k0_pay20 (k0_pay6 (View.ld x1 rCol)) (k0_pay7 (View.ld x1 rCol)) (k0_pay8 (View.ld x1 rCol)))
    (k0_pay21 (k0_pay7 (View.ld x1 rCol)))

/-- What the body stores into the second result window (`log(p+ε)` picked at the observed token), from the blocks of
    the logits `x0`, the log-SNR `x1` and the tokens `x3`. -/
def lpzBlk (x0 : Vec F S64x32000 .f32) (x1 : Vec F S64x1 .f32) (x3 : Vec F S64x1 .i32) : FVec F S64x1 .f32 :=
  k0_pay16 k0_pay2 (k0_pay5 (View.ld x3 rCol)) (k0_pay9 (View.ld x0 rBig) (View.ld x1 rCol)) (k0_pay10 (View.ld x1 rCol)) (k0_pay11 (F := F))

/-- Window 4's staging buffer after the body: its one store, over the whole buffer. -/
def out0_4 (x0 : Vec F S64x32000 .f32) (x1 : Vec F S64x1 .f32) (x2 : Vec F S64x1 .i32) : Vec F S64x1 .f32 :=
  View.canon [⟨rCol, klBlk x0 x1 x2⟩]
/-- Window 5's likewise. -/
def out0_5 (x0 : Vec F S64x32000 .f32) (x1 : Vec F S64x1 .f32) (x3 : Vec F S64x1 .i32) : Vec F S64x1 .f32 :=
  View.canon [⟨rCol, lpzBlk x0 x1 x3⟩]

/-- The one store covers the buffer. -/
theorem cover_col (p0 : Vec F S64x1 .f32) (y : S64x1.Idx) :
    ∃ pc ∈ ([⟨rCol, p0⟩] : List (View.Piece (Elt F) S64x1 .f32)), y ∈ pc.1.set :=
  View.cover_of_tiled [⟨rCol, p0⟩] S64x1.size (by rfl) y

/-- The proof data of the pipeline on core `c`: the arrays as the region finds them; after the body at point `t`
    each input's buffer at its block and each result's at what the body stores from the input blocks; the class's
    invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t)
    | ⟨5, _⟩ => out0_5 (iblk m c 0 t) (iblk m c 1 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) := by dsimp only [dats]
theorem after0_5 (c : Dev nD) (t : Fin cfg0.N) :
    (dats m 0 c).after 5 t = out0_5 (iblk m c 0 t) (iblk m c 1 t) (iblk m c 3 t) := by dsimp only [dats]

/-- What a run of @main around the region ends in: every array of the pipeline at what the library computes from the
    proof data, every other unscoped buffer as the host operations after the region leave it. -/
abbrev RunPost (m : (ℓ : Loc nD τ sig) → Buf (Elt F) ℓ) :=
  Pipeline.FramePost cfgs (dats m) 0 (Pipeline.afterTail₀ cfgs (dats m) 0 (V0 m) (tailOps (F := F)))

end Cert.KernelIdeal.Fr

end
-- ==== Proof.KIFrame.lean ====
/-
  The run of @main of the kernel program around its one pipelined region, at any float instance: the four reshapes
  before the region write no argument array; the body at a grid point reads the four input blocks whole and stores
  each result block once, whole; the seventy-eight host operations after the region write neither an argument
  array nor an array of the pipeline. Hence every weakly fair execution terminates, every array of the pipeline ends
  at what the library computes from the proof data, every other unscoped buffer ends as the host operations after the
  region leave it, and the four argument arrays end as launched.
-/
import proofs.«412391_j58377195487468_2_alg».proof.Proof.KIData
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main as the chain of the stretches before the region, the region, and the stretches after it. -/
theorem main_chain_around (c : Dev nD) : main (F := F) c = (Pipeline.chain
    (([hostOps0] : List (List (HloOp τ sig (Elt F)))).map StableHlo.seq ++ [Prog.lift (.customCall (Pipeline.entry 0) ())]
      ++ (tailOps : List (List (HloOp τ sig (Elt F)))).map StableHlo.seq) : Prog (TpuEff nD τ sig (Elt F) (Pipeline.Sig Λ₀ (Fin 1) fun p => (pcfgs (F := F) p).Adm) .tc) PUnit) := by
  simp only [List.map_cons, List.map_nil, List.cons_append, List.nil_append, List.singleton_append]
  exact main_chain c

/-- @main is the four reshapes, the region, and the three stretches of host operations after it: it reduces to the
    region continued by those stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps : List (List (HloOp τ sig (Elt F)))).map StableHlo.seq)) :=
  Pipeline.hmain_around cfgs 0 defs₀ 𝒱₀ m main [hostOps0] tailOps (by simp only [List.Forall]; exact hostOps0_sub)
    (by simp only [List.Forall]; exact hostOps0_fresh) main_chain_around

/-- The operations after the region touch unscoped TensorCore buffers only: the pipeline's arrays and the buffers that
    bypass the region. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- What no operation after the region writes: the six arrays of the pipeline and the four argument arrays (each
    operation writes its own result buffer only, which is none of the ten). -/
def Keeps (op : HloOp τ sig (Elt F)) : Prop :=
  (∀ w, Proc.devRef .tc (Pipeline.arrRef spec0 w) ∉ op.writes)
    ∧ Proc.devRef .tc main_arg0 ∉ op.writes ∧ Proc.devRef .tc main_arg1 ∉ op.writes
    ∧ Proc.devRef .tc main_arg2 ∉ op.writes ∧ Proc.devRef .tc main_arg3 ∉ op.writes

set_option maxHeartbeats 2000000 in
/-- The first stretch. -/
theorem keeps1 : ∀ op ∈ (hostOps1 : List (HloOp τ sig (Elt F))), Keeps op := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    refine ⟨fun w => ?_, ?_, ?_, ?_, ?_⟩
    · fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
    all_goals simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne (by decide)
set_option maxHeartbeats 2000000 in
/-- The second. -/
theorem keeps1_1 : ∀ op ∈ (hostOps1_1 : List (HloOp τ sig (Elt F))), Keeps op := by
  intro op hop
  simp only [hostOps1_1, List.mem_cons, List.mem_nil_iff, or_false] at hop
  rcases hop with rfl | rfl | rfl | rfl | rfl | rfl
  all_goals
    refine ⟨fun w => ?_, ?_, ?_, ?_, ?_⟩
    · fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
    all_goals simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne (by decide)
set_option maxHeartbeats 2000000 in
/-- The third. -/
theorem keeps1_2 : ∀ op ∈ (hostOps1_2 : List (HloOp τ sig (Elt F))), Keeps op := by
  intro op hop
  simp only [hostOps1_2, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    refine ⟨fun w => ?_, ?_, ?_, ?_, ?_⟩
    · fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
    all_goals simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne (by decide)

/-- All three. -/
theorem keeps_tail : ∀ ops ∈ (tailOps : List (List (HloOp τ sig (Elt F)))), ∀ op ∈ ops, Keeps op := by
  intro ops hops op hop
  simp only [List.mem_cons, List.mem_nil_iff, or_false] at hops
  rcases hops with rfl | rfl | rfl
  · exact keeps1 op hop
  · exact keeps1_1 op hop
  · exact keeps1_2 op hop

/-- So no operation after the region writes an array of the pipeline. -/
theorem sfx_keeps : ∀ ops ∈ (tailOps : List (List (HloOp τ sig (Elt F)))), ∀ op ∈ ops,
    ∀ w, Proc.devRef .tc (Pipeline.arrRef spec0 w) ∉ op.writes :=
  fun ops hops op hop => (keeps_tail ops hops op hop).1

/-- Nor, read along the flattened list, an argument array. -/
theorem keeps_flat : ∀ op ∈ (tailOps : List (List (HloOp τ sig (Elt F)))).flatten, Keeps op := by
  intro op hop
  obtain ⟨ops, hops, hop⟩ := List.mem_flatten.mp hop
  exact keeps_tail ops hops op hop

/-- No reshape before the region writes an argument array. -/
theorem keeps0 : ∀ op ∈ (List.flatten [hostOps0] : List (HloOp τ sig (Elt F))),
    Proc.devRef .tc main_arg0 ∉ op.writes ∧ Proc.devRef .tc main_arg1 ∉ op.writes
      ∧ Proc.devRef .tc main_arg2 ∉ op.writes ∧ Proc.devRef .tc main_arg3 ∉ op.writes := by
  intro op hop
  simp only [hostOps0, List.flatten_cons, List.flatten_nil, List.append_nil, List.mem_cons, List.mem_nil_iff, or_false] at hop
  rcases hop with rfl | rfl | rfl | rfl
  all_goals
    refine ⟨?_, ?_, ?_, ?_⟩
    all_goals simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne (by decide)

/-- The region finds `main_arg0` as launched. -/
theorem V_main_arg0 (c : Dev nD) : V m c main_arg0 = m ((c : Thread nD τ).loc main_arg0) :=
  StableHlo.after_of_forall_not_mem (b := Proc.devRef .tc main_arg0) _ _ fun op hop => (keeps0 op hop).1

/-- The region finds `main_arg1` as launched. -/
theorem V_main_arg1 (c : Dev nD) : V m c main_arg1 = m ((c : Thread nD τ).loc main_arg1) :=
  StableHlo.after_of_forall_not_mem (b := Proc.devRef .tc main_arg1) _ _ fun op hop => (keeps0 op hop).2.1

/-- The region finds `main_arg2` as launched. -/
theorem V_main_arg2 (c : Dev nD) : V m c main_arg2 = m ((c : Thread nD τ).loc main_arg2) :=
  StableHlo.after_of_forall_not_mem (b := Proc.devRef .tc main_arg2) _ _ fun op hop => (keeps0 op hop).2.2.1

/-- The region finds `main_arg3` as launched. -/
theorem V_main_arg3 (c : Dev nD) : V m c main_arg3 = m ((c : Thread nD τ).loc main_arg3) :=
  StableHlo.after_of_forall_not_mem (b := Proc.devRef .tc main_arg3) _ _ fun op hop => (keeps0 op hop).2.2.2

/-- No host operation after the region writes `main_arg0`, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ fun op hop => (keeps_flat op hop).2.1,
    Pipeline.withArrays_of_ne _ c (V0 m c) _ main_arg0 (by exact (by decide : ∀ w, Pipeline.arrRef spec0 w ≠ main_arg0))]
  exact V_main_arg0 m c

/-- No host operation after the region writes `main_arg1`, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ fun op hop => (keeps_flat op hop).2.2.1,
    Pipeline.withArrays_of_ne _ c (V0 m c) _ main_arg1 (by exact (by decide : ∀ w, Pipeline.arrRef spec0 w ≠ main_arg1))]
  exact V_main_arg1 m c

/-- No host operation after the region writes `main_arg2`, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ fun op hop => (keeps_flat op hop).2.2.2.1,
    Pipeline.withArrays_of_ne _ c (V0 m c) _ main_arg2 (by exact (by decide : ∀ w, Pipeline.arrRef spec0 w ≠ main_arg2))]
  exact V_main_arg2 m c

/-- No host operation after the region writes `main_arg3`, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ fun op hop => (keeps_flat op hop).2.2.2.2,
    Pipeline.withArrays_of_ne _ c (V0 m c) _ main_arg3 (by exact (by decide : ∀ w, Pipeline.arrRef spec0 w ≠ main_arg3))]
  exact V_main_arg3 m c

/-! ## The body's triple -/

set_option maxHeartbeats 4000000 in
/-- The kernel body on whole staging memrefs, the four inputs' at read contents `x0 … x3` and the two results' at
    anything, runs to the continuation holding the inputs' as they were and the results' at `out0_4 x0 x1 x2` and
    `out0_5 x0 x1 x3`: it loads the inputs whole and stores each result once, whole. -/
theorem sound_kernel (c : Dev nD) (E : Set ℕ) (i : grid0.Coords) (arg1 : Memref sig .tc .vmem S64x32000 .f32) (harg1 : arg1.IsWhole) (arg2 : Memref sig .tc .vmem S64x1 .f32) (harg2 : arg2.IsWhole) (arg3 : Memref sig .tc .vmem S64x1 .i32) (harg3 : arg3.IsWhole) (arg4 : Memref sig .tc .vmem S64x1 .i32) (harg4 : arg4.IsWhole) (arg5 : Memref sig .tc .vmem S64x1 .f32) (harg5 : arg5.IsWhole) (arg6 : Memref sig .tc .vmem S64x1 .f32) (harg6 : arg6.IsWhole)
    (x0 : Vec F S64x32000 .f32) (x1 : Vec F S64x1 .f32) (x2 : Vec F S64x1 .i32) (x3 : Vec F S64x1 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2) ∗ owns (c : Thread nD τ) arg6 fullShare (out0_5 x0 x1 x3)) -∗ K ⟨⟩))
      ⊢ wp frame (wpE (defs₀ (F := F)) Variants.none c none) E (cc0__fused_kernel i arg1 harg1 arg2 harg2 arg3 harg3 arg4 harg4 arg5 harg5 arg6 harg6) K := by
  simp only [cc0__fused_kernel_eq_skeleton]; unfold cc0__fused_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_col _)
  · iexists _; isplitr
    swap; · iexact H5
    ipureintro
    exact View.read_writes_eq_canon _ _ _ (cover_col _)

/-! ## The windows' blocks at a point -/

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The frame claim's post from the frame run's -/

/-- For any proof data whose arrays are the region-entry contents, a run to the library's frame post, read at the four
    argument arrays — none is staged by a window, so each ends as the operations after the region leave it, which is
    as launched — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body obligation, at a generic point -/

/-- What the body is called with at point `t`: the invariant, the core's debts, and each window's current staging
    buffer at what the proof data say it holds before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- And what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' staging buffers hold their blocks, so the body's triple applies; the invariant
    and the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the library computes
    from the proof data and every other unscoped buffer as the operations after the region leave it. -/
theorem run_main : θ_run defs (onTc (τ := τ) (main (F := F))) (s₀ m ρ) (RunPost m) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim at any float instance: @main runs, and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Fr

end
-- ==== Proof.Spec.lean ====
/-
  The loss of one sequence position, written once as each program computes it, over the extended reals.

  A position has a row of logits `x` (32000 columns), a log signal-to-noise ratio `s`, a label `l` and an observed
  token `z`. With `α = σ(s)`, `c = (1-α)·u` and `m = (1-α)·k` (u, k, ε fixed positive constants), the
  noised model distribution is `p_v = c + α·softmax(x')_v + m·[v = last]`, where `x'` is `x` with its last column set
  to a large negative number, and the noised label distribution is `q_v = c + α·[v = l] + m·[v = last]`.
  The loss is `w·KL + w·D` with `w` the clipped weight `σ(s)·σ(-s)`, `KL = Σ_v (q_v+ε)·(log(q_v+ε) - log(p_v+ε))` and
  `D` the importance-sampling divergence of the two distributions at the column `z`.

  One program sums over the 32000 columns; the other uses that `q` takes at most three distinct values on a row, so
  that `Σ_v (q_v+ε)·log(q_v+ε)` is a closed form and `Σ_v (q_v+ε)·log(p_v+ε)` is a multiple of the row sum of
  `log(p_v+ε)` plus two corrections at the label's column and at the last column.
-/
import Idealize.ShloMosaic.PureOps.Ideal
import Idealize.ShloMosaic.Lib.ValueIdx

noncomputable section

namespace Cert.Spec

open Idealize.ShloMosaic Idealize.ShloMosaic.ValueIdx

/-! ## The constants both programs spell -/

/-- `p_uniform / vocabulary`. -/
abbrev kU : EReal := Ideal.ofBits .f32 0x35D1B717#32
/-- `1 - p_uniform`. -/
abbrev kM : EReal := Ideal.ofBits .f32 0x3F733333#32
/-- The small positive number added before every logarithm. -/
abbrev eps : EReal := Ideal.ofBits .f32 0x2B8CBCCC#32
/-- The large negative number the last column's logit is replaced by. -/
abbrev negBig : EReal := Ideal.ofBits .f32 0xC9742400#32
/-- The upper clip of the weight. -/
abbrev kClip : EReal := Ideal.ofBits .f32 0x447A0000#32
/-- The number of columns but two, and but one. -/
abbrev k31998 : EReal := Ideal.ofBits .f32 0x46F9FC00#32
abbrev k31999 : EReal := Ideal.ofBits .f32 0x46F9FE00#32

/-- The number of columns. -/
abbrev V : Nat := 32000
/-- The last column, as a word. -/
abbrev lastW : BitVec 32 := 31999#32

/-! ## The noised model distribution's logarithm on a row -/

/-- `α = σ(s)`. -/
def alpha (s : EReal) : EReal := Ideal.logistic s
/-- `c = (1 - α)·u`. -/
def cU (s : EReal) : EReal := (1 - alpha s) * kU
/-- `m = (1 - α)·k`. -/
def cM (s : EReal) : EReal := (1 - alpha s) * kM

/-- The row with its last column masked. -/
def ym (x : Fin V → EReal) (v : Fin V) : EReal := if v.val = 31999 then negBig else x v
/-- Its maximum. -/
def rmax (x : Fin V → EReal) : EReal := (Finset.univ : Finset (Fin V)).fold max ⊥ (ym x)
/-- The shifted exponentials, their sum, and the softmax. -/
def ex (x : Fin V → EReal) (v : Fin V) : EReal := Ideal.exp (ym x v - rmax x)
def zsum (x : Fin V → EReal) : EReal := ∑ v : Fin V, ex x v
def xhat (x : Fin V → EReal) (v : Fin V) : EReal := Ideal.div (ex x v) (zsum x)
/-- `log(p_v + ε)`. -/
def logp (x : Fin V → EReal) (s : EReal) (v : Fin V) : EReal :=
  Ideal.log (((cU s + alpha s * xhat x v) + (if v.val = 31999 then cM s else 0)) + eps)

/-! ## The noised label distribution's logarithm on a row -/

/-- `log(q_v + ε)`. -/
def logq (s : EReal) (l : BitVec 32) (v : Fin V) : EReal :=
  Ideal.log (((alpha s * (if l = BitVec.ofNat 32 v.val then 1 else 0) + cU s) + (if v.val = 31999 then cM s else 0)) + eps)

/-! ## Reading a row at a word -/

/-- The row summed against the indicator of the column whose number is the word `k`. -/
def pick (L : Fin V → EReal) (k : BitVec 32) : EReal := ∑ v : Fin V, if BitVec.ofNat 32 v.val = k then L v else 0
/-- The row at the column whose number is the word `k` (reduced modulo the number of columns, so that it is total). -/
def sel (L : Fin V → EReal) (k : BitVec 32) : EReal := L ⟨k.toNat % V, Nat.mod_lt _ (by decide)⟩

/-! ## The two forms of the divergence between the label's and the model's distributions -/

def q0 (s : EReal) : EReal := cU s + eps
def qL (s : EReal) : EReal := (cU s + alpha s) + eps
def qM (s : EReal) : EReal := (cU s + cM s) + eps
def qC (s : EReal) : EReal := ((cU s + alpha s) + cM s) + eps

/-- `Σ_v (q_v+ε)·log(q_v+ε)` in closed form: the label's column and the last column distinct, or the same. -/
def sqqDistinct (s : EReal) : EReal :=
  ((k31998 * q0 s) * Ideal.log (q0 s) + qL s * Ideal.log (qL s)) + qM s * Ideal.log (qM s)
def sqqSame (s : EReal) : EReal := (k31999 * q0 s) * Ideal.log (q0 s) + qC s * Ideal.log (qC s)

/-- The divergence by the closed forms, over a row `L` of `log(p_v+ε)`. -/
def klClosed (L : Fin V → EReal) (s : EReal) (l : BitVec 32) : EReal :=
  (if l = lastW then sqqSame s else sqqDistinct s)
    - ((q0 s * (∑ v : Fin V, L v) + alpha s * pick L l) + cM s * pick L lastW)

/-- The divergence by the sum over the columns. -/
def klSum (L : Fin V → EReal) (s : EReal) (l : BitVec 32) : EReal :=
  0 + ∑ v : Fin V, Ideal.exp (logq s l v) * (logq s l v - L v)

/-! ## The host side both programs share -/

/-- The clipped weight `σ(s)·σ(-s)`. -/
def wgt (s : EReal) : EReal :=
  min kClip (max 0 (Ideal.div 1 (1 + Ideal.exp (-s)) * Ideal.div 1 (1 + Ideal.exp (-(-s)))))

/-- The importance-sampling divergence from the two logarithms at the observed token. -/
def isDiv (lq lp : EReal) : EReal := (Ideal.div (Ideal.exp lq) (Ideal.exp lp + eps) - (lq - lp)) - 1

/-- The loss from the weight, the divergence and the importance-sampling divergence. -/
def lossOf (w kl d : EReal) : EReal := w * kl + (1 * w) * d

/-- `log(q_z + ε)` as the first program's host side computes it from the two comparisons of the token. -/
def lqz (s : EReal) (l z : BitVec 32) : EReal :=
  Ideal.log ((((cU s + alpha s * (if z = l then 1 else 0)) + cM s * (if z = lastW then 1 else 0))) + eps)

/-! ## The loss of a position, as each program computes it -/

/-- The program with the closed forms. -/
def lossClosed (x : Fin V → EReal) (s : EReal) (l z : BitVec 32) : EReal :=
  lossOf (wgt s) (klClosed (logp x s) s l) (isDiv (lqz s l z) (pick (logp x s) z))

/-- The program that sums over the columns. -/
def lossSum (x : Fin V → EReal) (s : EReal) (l z : BitVec 32) : EReal :=
  lossOf (wgt s) (klSum (logp x s) s l) (isDiv (sel (logq s l) z) (sel (logp x s) z))

/-! ## The whole arrays -/

abbrev SLogits : Shape := ⟨3, ![1, 2048, 32000]⟩
abbrev SRow : Shape := ⟨2, ![1, 2048]⟩

/-- Position `i`'s row of logits. -/
def rowOf (a0 : SLogits.Idx → EReal) (i : SRow.Idx) : Fin V → EReal := fun v => a0 (ix3 (i 0) (i 1) v)

/-- The result array of the program with the closed forms, from the four argument arrays. -/
def outClosed (a0 : SLogits.Idx → EReal) (ids labels : SRow.Idx → BitVec 32) (snr : SRow.Idx → EReal) : SRow.Idx → EReal :=
  fun i => lossClosed (rowOf a0 i) (snr i) (labels i) (ids i)

/-- The result array of the program that sums over the columns. -/
def outSum (a0 : SLogits.Idx → EReal) (ids labels : SRow.Idx → BitVec 32) (snr : SRow.Idx → EReal) : SRow.Idx → EReal :=
  fun i => lossSum (rowOf a0 i) (snr i) (labels i) (ids i)

end Cert.Spec

end
-- ==== Proof.KIArrays.lean ====
/-
  What the two result arrays of the one pipelined region hold after it, as whole-array functions of the four
  arrays the region finds, in the vocabulary of the per-row specification.

  First the body at an index: on a block of 64 rows, row `p` of the block of `log(p+ε)` is the specification's
  `logp` of row `p` of the logits block and of the row's log signal-to-noise ratio; the first result's row is the
  divergence by the closed forms at the row's label, the second result's row is `log(p+ε)` picked at the row's token.
  Then from blocks to arrays: grid point `t` reads rows `64t … 64t+63` of each input array and writes the same rows
  of each result array, and the 32 points cover the 2048 rows, so each result array is the row function itself.
  Last, the four arrays the region finds are the four arguments re-laid without their leading unit axis or with a
  trailing one, read at an index.
-/
import proofs.«412391_j58377195487468_2_alg».proof.Proof.KIData
import proofs.«412391_j58377195487468_2_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat)

/-! ## Layout operations of the body read at an index -/

section Layout
variable {α : Type}

theorem hz : (![0, 0] : Fin 2 → Nat) = fun _ => 0 := funext fun a => by fin_cases a <;> rfl

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index over row `p` with column `k` inserted is `(p, k)`. -/
theorem lift_row (p : Fin 64) (k : Fin 32000) : reduces_S64x32000_S64.lift (ix1 p) k = ix2 p k := by
  funext c; apply Fin.ext
  match c with
  | ⟨0, _⟩ => rfl
  | ⟨1, _⟩ => rfl

/-- The column counter along axis 1 reads, at `(p, q)`, the word of `q`. -/
theorem iota_col_apply (p : Fin 64) (q : Fin 32000) :
    iota .tc S64x32000 32 [1] iota_S64x32000_d1_w32 (ix2 p q) = BitVec.ofNat 32 q.val :=
  iota_single_apply .tc S64x32000 32 1 iota_S64x32000_d1_w32 (ix2 p q)

/-- A select on an equality test of two words is the `if` on their equality. -/
theorem select_cmpi_eq {w : Nat} (a b : BitVec w) (x y : α) :
    Scalar.select (IntOp.cmpi .eq a b) x y = if a = b then x else y := by
  unfold Scalar.select; exact if_congr StableHlo.Predicate.cmpi_eq_iff rfl rfl

/-- The word of a column number below 32000 is the word 31999 exactly at the last column. -/
theorem ofNat_eq_last (v : Fin 32000) : BitVec.ofNat 32 v.val = 31999#32 ↔ v.val = 31999 := by
  constructor
  · intro h
    have := congrArg BitVec.toNat h
    simp only [BitVec.toNat_ofNat] at this
    have hv := v.isLt
    omega
  · intro h; rw [h]

end Layout

/-! ## The body's small column payloads at a row -/

section Body

variable (x0 : Vec Ideal S64x32000 .f32) (x1 : Vec Ideal S64x1 .f32) (x2 x3 : Vec Ideal S64x1 .i32)

/-- The word `0x3F800000` is the number one. -/
theorem one_f32 : Ideal.ofBits .f32 0x3F800000#32 = 1 := by
  simp [Ideal.ofBits, Ideal.ieee, -EReal.coe_mul]; norm_num

/-- `σ(s)` on the row. -/
theorem pay6_apply (p : Fin 64) (q : Fin 1) : k0_pay6 x1 (ix2 p q) = Spec.alpha (x1 (ix2 p q)) := by
  unfold k0_pay6
  simp only [shapeCast_self]
  rfl

/-- `(1-α)·u` on the row. -/
theorem pay7_apply (p : Fin 64) (q : Fin 1) : k0_pay7 x1 (ix2 p q) = Spec.cU (x1 (ix2 p q)) := by
  unfold k0_pay7
  show (Ideal.ofBits .f32 0x3F800000#32 - k0_pay6 x1 (ix2 p q)) * Ideal.ofBits .f32 0x35D1B717#32 = _
  rw [pay6_apply, one_f32]
  rfl

/-- `(1-α)·k` on the row. -/
theorem pay8_apply (p : Fin 64) (q : Fin 1) : k0_pay8 x1 (ix2 p q) = Spec.cM (x1 (ix2 p q)) := by
  unfold k0_pay8
  show (Ideal.ofBits .f32 0x3F800000#32 - k0_pay6 x1 (ix2 p q)) * Ideal.ofBits .f32 0x3F733333#32 = _
  rw [pay6_apply, one_f32]
  rfl

/-- The test "this is the last column" at `(p, v)`. -/
theorem pay2_apply (p : Fin 64) (v : Fin 32000) :
    k0_pay2 (ix2 p v) = IntOp.cmpi .eq (BitVec.ofNat 32 v.val) 31999#32 := by
  unfold k0_pay2
  show IntOp.cmpi .eq (iota .tc S64x32000 32 [1] iota_S64x32000_d1_w32 (ix2 p v)) 31999#32 = _
  rw [iota_col_apply]

end Body

/-! ## Row reductions of a block read at a row -/

section Rows

/-- A lane sum of a block, kept as a column, reads at row `p` the sum of the block's row `p`. -/
theorem rowSum_apply (src : FVec Ideal S64x32000 .f32) (p : Fin 64) (q : Fin 1) :
    shapeCast S64x1 (multiReduction .add [1] S64 src 0x00000000#32 reduces_S64x32000_S64 (.inl rfl) rfl) shapeCasts_S64_S64x1 (ix2 p q)
      = ∑ v : Fin 32000, src (ix2 p v) := by
  refine (shapeCast_a_a1_apply _ _ p q).trans ?_
  refine (Ideal.multiReduction_add_single src 0x00000000#32 reduces_S64x32000_S64 (.inl rfl) rfl (ix1 p)).trans ?_
  exact Finset.sum_congr rfl fun k _ => congrArg src (lift_row p k)

/-- The word `0xFF800000` is `-∞`. -/
theorem negInf_f32 : Ideal.ofBits .f32 0xFF800000#32 = ⊥ := by simp [Ideal.ofBits, Ideal.ieee]

/-- A lane maximum of a block, kept as a column, reads at row `p` the maximum of the block's row `p`. -/
theorem rowMax_apply (src : FVec Ideal S64x32000 .f32) (p : Fin 64) (q : Fin 1) :
    shapeCast S64x1 (multiReduction .maximumf [1] S64 src 0xFF800000#32 reduces_S64x32000_S64 (.inl rfl) rfl) shapeCasts_S64_S64x1 (ix2 p q)
      = (Finset.univ : Finset (Fin 32000)).fold max ⊥ (fun v => src (ix2 p v)) := by
  refine (shapeCast_a_a1_apply _ _ p q).trans ?_
  refine (Ideal.multiReduction_maximumf_single src 0xFF800000#32 reduces_S64x32000_S64 (.inl rfl) rfl (ix1 p)).trans ?_
  have hb : (FloatOps.ofBits .f32 0xFF800000#32 : Ideal .f32) = ⊥ := negInf_f32
  have hf : (src ∘ reduces_S64x32000_S64.lift (ix1 p)) = fun v : Fin 32000 => src (ix2 p v) :=
    funext fun k => congrArg src (lift_row p k)
  rw [hb, hf]
  rfl

end Rows

/-! ## The block of `log(p+ε)` at a row -/

section LogP

variable (x0 : Vec Ideal S64x32000 .f32) (x1 : Vec Ideal S64x1 .f32)

/-- Row `p` of a block of logits. -/
abbrev rowB (p : Fin 64) : Fin 32000 → EReal := fun v => x0 (ix2 p v)

/-- The block with its last column masked. -/
def maskedBlk : FVec Ideal S64x32000 .f32 :=
  select k0_pay2 (broadcast S64x32000 (Scalar.ofBits .f32 0xC9742400#32)) (shapeCast S64x32000 x0 shapeCasts_S64x32000_S64x32000)
/-- Its row maxima, as a column. -/
def rmaxCol : FVec Ideal S64x1 .f32 :=
  shapeCast S64x1 (multiReduction .maximumf [1] S64 (maskedBlk x0) 0xFF800000#32 reduces_S64x32000_S64 (.inl rfl) rfl) shapeCasts_S64_S64x1
/-- The shifted exponentials. -/
def exBlk : FVec Ideal S64x32000 .f32 :=
  exp (subf (maskedBlk x0) (broadcastTo S64x32000 (rmaxCol x0) broadcasts_S64x1_S64x32000))
/-- Their row sums, as a column. -/
def zsumCol : FVec Ideal S64x1 .f32 :=
  shapeCast S64x1 (multiReduction .add [1] S64 (exBlk x0) 0x00000000#32 reduces_S64x32000_S64 (.inl rfl) rfl) shapeCasts_S64_S64x1

/-- The payload `c + α·softmax` over those. -/
theorem pay9_eq : k0_pay9 x0 x1
    = addf (broadcastTo S64x32000 (k0_pay7 x1) broadcasts_S64x1_S64x32000)
        (mulf (broadcastTo S64x32000 (k0_pay6 x1) broadcasts_S64x1_S64x32000)
          (divf (exBlk x0) (broadcastTo S64x32000 (zsumCol x0) broadcasts_S64x1_S64x32000))) := rfl

theorem maskedBlk_apply (p : Fin 64) (v : Fin 32000) : maskedBlk x0 (ix2 p v) = Spec.ym (rowB x0 p) v := by
  unfold maskedBlk
  show Scalar.select (k0_pay2 (ix2 p v)) (Ideal.ofBits .f32 0xC9742400#32) (shapeCast S64x32000 x0 shapeCasts_S64x32000_S64x32000 (ix2 p v)) = _
  rw [pay2_apply, select_cmpi_eq, shapeCast_self]
  unfold Spec.ym
  exact if_congr (ofNat_eq_last v) rfl rfl

theorem rmaxCol_apply (p : Fin 64) (q : Fin 1) : rmaxCol x0 (ix2 p q) = Spec.rmax (rowB x0 p) := by
  unfold rmaxCol
  refine (rowMax_apply (maskedBlk x0) p q).trans ?_
  unfold Spec.rmax
  exact congrArg (fun f => (Finset.univ : Finset (Fin 32000)).fold max ⊥ f) (funext fun v => maskedBlk_apply x0 p v)

theorem exBlk_apply (p : Fin 64) (v : Fin 32000) : exBlk x0 (ix2 p v) = Spec.ex (rowB x0 p) v := by
  unfold exBlk
  show Ideal.exp (maskedBlk x0 (ix2 p v) - broadcastTo S64x32000 (rmaxCol x0) broadcasts_S64x1_S64x32000 (ix2 p v)) = _
  rw [broadcastTo_a1_ab_apply, maskedBlk_apply, rmaxCol_apply]
  rfl

theorem zsumCol_apply (p : Fin 64) (q : Fin 1) : zsumCol x0 (ix2 p q) = Spec.zsum (rowB x0 p) := by
  unfold zsumCol
  refine (rowSum_apply (exBlk x0) p q).trans ?_
  unfold Spec.zsum
  exact Finset.sum_congr rfl fun v _ => exBlk_apply x0 p v

/-- `c + α·softmax` at `(p, v)`. -/
theorem pay9_apply (p : Fin 64) (v : Fin 32000) :
    k0_pay9 x0 x1 (ix2 p v)
      = Spec.cU (x1 (ix2 p 0)) + Spec.alpha (x1 (ix2 p 0)) * Spec.xhat (rowB x0 p) v := by
  rw [pay9_eq, addf_apply, mulf_apply, divf_apply, broadcastTo_a1_ab_apply, broadcastTo_a1_ab_apply,
    broadcastTo_a1_ab_apply, pay7_apply, pay6_apply, exBlk_apply, zsumCol_apply]
  rfl

/-- `m` spread over the block, at `(p, v)`. -/
theorem pay10_apply (p : Fin 64) (v : Fin 32000) : k0_pay10 x1 (ix2 p v) = Spec.cM (x1 (ix2 p 0)) := by
  unfold k0_pay10
  simp only [shapeCast_self]
  rw [broadcastTo_a1_ab_apply, pay8_apply]

/-- The zero block. -/
theorem pay11_apply (j : S64x32000.Idx) : (k0_pay11 (F := Ideal)) j = 0 := Ideal.ofBits_zero_f32

/-- `log(p+ε)` over the loaded blocks at `(p, v)` is the specification's `logp` of row `p`. -/
theorem pay12_apply (p : Fin 64) (v : Fin 32000) :
    k0_pay12 k0_pay2 (k0_pay9 x0 x1) (k0_pay10 x1) (k0_pay11 (F := Ideal)) (ix2 p v)
      = Spec.logp (rowB x0 p) (x1 (ix2 p 0)) v := by
  unfold k0_pay12
  show Ideal.log ((k0_pay9 x0 x1 (ix2 p v)
        + Scalar.select (k0_pay2 (ix2 p v)) (k0_pay10 x1 (ix2 p v)) ((k0_pay11 (F := Ideal)) (ix2 p v)))
        + Ideal.ofBits .f32 0x2B8CBCCC#32) = _
  rw [pay9_apply, pay2_apply, select_cmpi_eq, pay10_apply, pay11_apply]
  unfold Spec.logp
  rw [if_congr (ofNat_eq_last v) rfl rfl]

/-- The block of `log(p+ε)` the body computes, at `(p, v)`. -/
theorem logpBlk_apply (p : Fin 64) (v : Fin 32000) :
    logpBlk x0 x1 (ix2 p v) = Spec.logp (rowB x0 p) (x1 (ix2 p 0)) v := by
  unfold logpBlk
  rw [View.ld_unit_zero hz _ x0, View.ld_unit_zero hz _ x1]
  exact pay12_apply x0 x1 p v

end LogP

/-! ## The two results' columns at a row -/

section Results

variable (x0 : Vec Ideal S64x32000 .f32) (x1 : Vec Ideal S64x1 .f32) (x2 x3 : Vec Ideal S64x1 .i32)

/-- A block summed along its rows against the indicator of the column whose number is the word `k`. -/
theorem pickCol_apply (c : IVec S64x32000 1) (L : FVec Ideal S64x32000 .f32) (k : BitVec 32) (p : Fin 64) (q : Fin 1)
    (hc : ∀ v : Fin 32000, c (ix2 p v) = IntOp.cmpi .eq (BitVec.ofNat 32 v.val) k) :
    shapeCast S64x1 (multiReduction .add [1] S64 (select c L (broadcast S64x32000 (Scalar.ofBits .f32 0x00000000#32)))
        0x00000000#32 reduces_S64x32000_S64 (.inl rfl) rfl) shapeCasts_S64_S64x1 (ix2 p q)
      = Spec.pick (fun v => L (ix2 p v)) k := by
  refine (rowSum_apply _ p q).trans ?_
  unfold Spec.pick
  refine Finset.sum_congr rfl fun v _ => ?_
  rw [select_apply, hc, select_cmpi_eq, broadcast_apply]
  exact if_congr Iff.rfl rfl Ideal.ofBits_zero_f32

/-- The test "this column is the row's label" at `(p, v)`. -/
theorem pay4_apply (p : Fin 64) (v : Fin 32000) :
    k0_pay4 x2 (ix2 p v) = IntOp.cmpi .eq (BitVec.ofNat 32 v.val) (x2 (ix2 p 0)) := by
  unfold k0_pay4 k0_pay3
  show IntOp.cmpi .eq (iota .tc S64x32000 32 [1] iota_S64x32000_d1_w32 (ix2 p v))
      (broadcastTo S64x32000 (shapeCast S64x1 x2 shapeCasts_S64x1_S64x1) broadcasts_S64x1_S64x32000 (ix2 p v)) = _
  rw [iota_col_apply, broadcastTo_a1_ab_apply, shapeCast_self]

/-- The test "this column is the row's token" at `(p, v)`. -/
theorem pay5_apply (p : Fin 64) (v : Fin 32000) :
    k0_pay5 x3 (ix2 p v) = IntOp.cmpi .eq (BitVec.ofNat 32 v.val) (x3 (ix2 p 0)) := by
  unfold k0_pay5
  show IntOp.cmpi .eq (iota .tc S64x32000 32 [1] iota_S64x32000_d1_w32 (ix2 p v))
      (broadcastTo S64x32000 (shapeCast S64x1 x3 shapeCasts_S64x1_S64x1) broadcasts_S64x1_S64x32000 (ix2 p v)) = _
  rw [iota_col_apply, broadcastTo_a1_ab_apply, shapeCast_self]

/-- Row `p` of the block of `log(p+ε)` as a function of the column. -/
theorem pay12_row (p : Fin 64) :
    (fun v : Fin 32000 => k0_pay12 k0_pay2 (k0_pay9 x0 x1) (k0_pay10 x1) (k0_pay11 (F := Ideal)) (ix2 p v))
      = Spec.logp (rowB x0 p) (x1 (ix2 p 0)) := funext fun v => pay12_apply x0 x1 p v

/-- The row sum of `log(p+ε)`. -/
theorem pay13_apply (p : Fin 64) (q : Fin 1) :
    k0_pay13 k0_pay2 (k0_pay9 x0 x1) (k0_pay10 x1) (k0_pay11 (F := Ideal)) (ix2 p q)
      = ∑ v : Fin 32000, Spec.logp (rowB x0 p) (x1 (ix2 p 0)) v := by
  unfold k0_pay13
  refine (rowSum_apply _ p q).trans ?_
  exact Finset.sum_congr rfl fun v _ => pay12_apply x0 x1 p v

/-- `log(p+ε)` picked at the row's label. -/
theorem pay14_apply (p : Fin 64) (q : Fin 1) :
    k0_pay14 k0_pay2 (k0_pay4 x2) (k0_pay9 x0 x1) (k0_pay10 x1) (k0_pay11 (F := Ideal)) (ix2 p q)
      = Spec.pick (Spec.logp (rowB x0 p) (x1 (ix2 p 0))) (x2 (ix2 p 0)) := by
  unfold k0_pay14
  refine (pickCol_apply _ _ (x2 (ix2 p 0)) p q (pay4_apply x2 p)).trans ?_
  rw [pay12_row]

/-- `log(p+ε)` picked at the last column. -/
theorem pay15_apply (p : Fin 64) (q : Fin 1) :
    k0_pay15 k0_pay2 (k0_pay9 x0 x1) (k0_pay10 x1) (k0_pay11 (F := Ideal)) (ix2 p q)
      = Spec.pick (Spec.logp (rowB x0 p) (x1 (ix2 p 0))) Spec.lastW := by
  unfold k0_pay15
  refine (pickCol_apply _ _ 31999#32 p q (pay2_apply p)).trans ?_
  rw [pay12_row]

/-- `log(p+ε)` picked at the row's token. -/
theorem pay16_apply (p : Fin 64) (q : Fin 1) :
    k0_pay16 k0_pay2 (k0_pay5 x3) (k0_pay9 x0 x1) (k0_pay10 x1) (k0_pay11 (F := Ideal)) (ix2 p q)
      = Spec.pick (Spec.logp (rowB x0 p) (x1 (ix2 p 0))) (x3 (ix2 p 0)) := by
  unfold k0_pay16
  refine (pickCol_apply _ _ (x3 (ix2 p 0)) p q (pay5_apply x3 p)).trans ?_
  rw [pay12_row]

/-! The closed forms' columns are pointwise: each reads at an index the same expression of its operands there. -/

theorem pay17_apply (v19 : FVec Ideal S64x1 .f32) (j : S64x1.Idx) : k0_pay17 v19 j = v19 j + Spec.eps := rfl
theorem pay18_apply (v15 v19 v23 : FVec Ideal S64x1 .f32) (j : S64x1.Idx) :
    k0_pay18 v15 v19 v23 j = ((v19 j + v15 j) + v23 j) + Spec.eps := rfl
theorem pay19_apply (v6 : IVec S64x1 32) (j : S64x1.Idx) : k0_pay19 v6 j = IntOp.cmpi .eq (v6 j) 31999#32 := rfl
theorem pay20_apply (v15 v19 v23 : FVec Ideal S64x1 .f32) (j : S64x1.Idx) :
    k0_pay20 v15 v19 v23 j
      = ((Spec.k31998 * (v19 j + Spec.eps)) * Ideal.log (v19 j + Spec.eps)
          + ((v19 j + v15 j) + Spec.eps) * Ideal.log ((v19 j + v15 j) + Spec.eps))
        + ((v19 j + v23 j) + Spec.eps) * Ideal.log ((v19 j + v23 j) + Spec.eps) := rfl
theorem pay21_apply (v19 : FVec Ideal S64x1 .f32) (j : S64x1.Idx) : k0_pay21 v19 j = Spec.k31999 * (v19 j + Spec.eps) := rfl
theorem pay1_apply (v15 v23 v48 v52 v56 v62 v72 : FVec Ideal S64x1 .f32) (v74 : IVec S64x1 1) (v84 v86 : FVec Ideal S64x1 .f32)
    (j : S64x1.Idx) :
    k0_pay1 v15 v23 v48 v52 v56 v62 v72 v74 v84 v86 j
      = Scalar.select (v74 j) (v86 j * Ideal.log (v62 j) + v72 j * Ideal.log (v72 j)) (v84 j)
        - ((v62 j * v48 j + v15 j * v52 j) + v23 j * v56 j) := rfl

/-- THE FIRST RESULT's block at row `p`: the divergence by the closed forms, of the row's `log(p+ε)`, log-SNR and label. -/
theorem klBlk_apply (p : Fin 64) :
    klBlk x0 x1 x2 (ix2 p 0)
      = Spec.klClosed (Spec.logp (rowB x0 p) (x1 (ix2 p 0))) (x1 (ix2 p 0)) (x2 (ix2 p 0)) := by
  unfold klBlk
  rw [View.ld_unit_zero hz _ x0, View.ld_unit_zero hz _ x1, View.ld_unit_zero hz _ x2]
  rw [pay1_apply, pay19_apply, pay21_apply, pay20_apply, pay18_apply, pay17_apply, pay13_apply, pay14_apply, pay15_apply,
    pay6_apply, pay7_apply, pay8_apply, select_cmpi_eq]
  unfold k0_pay3
  rw [shapeCast_self]
  rfl

/-- THE SECOND RESULT's block at row `p`: the row's `log(p+ε)` picked at the row's token. -/
theorem lpzBlk_apply (p : Fin 64) :
    lpzBlk x0 x1 x3 (ix2 p 0) = Spec.pick (Spec.logp (rowB x0 p) (x1 (ix2 p 0))) (x3 (ix2 p 0)) := by
  unfold lpzBlk
  rw [View.ld_unit_zero hz _ x0, View.ld_unit_zero hz _ x1, View.ld_unit_zero hz _ x3]
  exact pay16_apply x0 x1 x3 p 0

end Results

/-! ## The arrays the region finds, read at an index -/

section Entry

variable {α : Type}

/-- A row `[1, a]` cast to the column `[a, 1]` reads, at `(i, u)`, the row at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

variable (m : (ℓ : Loc nD τ sig) → Buf (Elt Ideal) ℓ) (c : Dev nD)

theorem V_main_v0_eq : (V m c main_v0 : S2048x32000.Idx → EReal)
    = shapeCast S2048x32000 (m ((c.tc : Thread nD τ).loc main_arg0)) shapeCasts_S1x2048x32000_S2048x32000 := by
  show StableHlo.after hostOps0 (fun b => m (c, b)) (Proc.devRef .tc main_v0) = _
  after_results
  rfl

theorem V_main_v1_eq : (V m c main_v1 : S2048x1.Idx → BitVec 32)
    = shapeCast S2048x1 (m ((c.tc : Thread nD τ).loc main_arg1)) shapeCasts_S1x2048_S2048x1 := by
  show StableHlo.after hostOps0 (fun b => m (c, b)) (Proc.devRef .tc main_v1) = _
  after_results
  rfl

theorem V_main_v2_eq : (V m c main_v2 : S2048x1.Idx → BitVec 32)
    = shapeCast S2048x1 (m ((c.tc : Thread nD τ).loc main_arg2)) shapeCasts_S1x2048_S2048x1 := by
  show StableHlo.after hostOps0 (fun b => m (c, b)) (Proc.devRef .tc main_v2) = _
  after_results
  rfl

theorem V_main_v3_eq : (V m c main_v3 : S2048x1.Idx → EReal)
    = shapeCast S2048x1 (m ((c.tc : Thread nD τ).loc main_arg3)) shapeCasts_S1x2048_S2048x1 := by
  show StableHlo.after hostOps0 (fun b => m (c, b)) (Proc.devRef .tc main_v3) = _
  after_results
  rfl

/-- The logits array the region finds is the first argument without its leading unit axis. -/
theorem V_main_v0_apply (r : Fin 2048) (v : Fin 32000) :
    V m c main_v0 (ix2 r v) = m ((c.tc : Thread nD τ).loc main_arg0) (ix3 0 r v) :=
  (congrFun (V_main_v0_eq m c) (ix2 r v)).trans (shapeCast_1ab_ab_apply _ _ r v)

/-- The log-SNR column the region finds is the fourth argument's row stood up. -/
theorem V_main_v3_apply (r : Fin 2048) :
    V m c main_v3 (ix2 r 0) = m ((c.tc : Thread nD τ).loc main_arg3) (ix2 0 r) :=
  (congrFun (V_main_v3_eq m c) (ix2 r 0)).trans (shapeCast_1a_a1_apply _ _ r 0)

/-- The labels column likewise, of the third argument. -/
theorem V_main_v2_apply (r : Fin 2048) :
    V m c main_v2 (ix2 r 0) = m ((c.tc : Thread nD τ).loc main_arg2) (ix2 0 r) :=
  (congrFun (V_main_v2_eq m c) (ix2 r 0)).trans (shapeCast_1a_a1_apply _ _ r 0)

/-- The tokens column likewise, of the second argument. -/
theorem V_main_v1_apply (r : Fin 2048) :
    V m c main_v1 (ix2 r 0) = m ((c.tc : Thread nD τ).loc main_arg1) (ix2 0 r) :=
  (congrFun (V_main_v1_eq m c) (ix2 r 0)).trans (shapeCast_1a_a1_apply _ _ r 0)

end Entry

/-! ## From blocks to arrays -/

section Arrays

variable (m : (ℓ : Loc nD τ sig) → Buf (Elt Ideal) ℓ) (c : Dev nD)

/-- Every window's block index at point `t` is `(t, 0)`: decided over the 32 points. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

/-- The logits block at point `t` is rows `64t … 64t+63` of the logits array. -/
theorem iblk0_apply (t : Fin cfg0.N) (p : Fin 64) (v : Fin 32000) (r : Fin 2048) (hr : r.val = t.val * 64 + p.val) :
    (iblk m c 0 t : Vec Ideal S64x32000 .f32) (ix2 p v) = V m c main_v0 (ix2 r v) := by
  obtain ⟨⟨e0, e1⟩, -⟩ := idx_facts t
  unfold iblk
  rw [View.read_apply]
  show V m c main_v0 _ = V m c main_v0 _
  congr 1
  funext a
  apply Fin.ext
  match a with
  | ⟨0, _⟩ => show win0_0.index t (0 : Fin 2) * 64 + 1 * p.val = r.val; rw [e0, hr, Nat.one_mul]
  | ⟨1, _⟩ => show win0_0.index t (1 : Fin 2) * 32000 + 1 * v.val = v.val; rw [e1, Nat.zero_mul, Nat.zero_add, Nat.one_mul]

/-- The log-SNR block at point `t` is rows `64t … 64t+63` of the log-SNR column. -/
theorem iblk1_apply (t : Fin cfg0.N) (p : Fin 64) (q : Fin 1) (r : Fin 2048) (hr : r.val = t.val * 64 + p.val) :
    (iblk m c 1 t : Vec Ideal S64x1 .f32) (ix2 p q) = V m c main_v3 (ix2 r q) := by
  obtain ⟨-, ⟨e0, e1⟩, -⟩ := idx_facts t
  unfold iblk
  rw [View.read_apply]
  show V m c main_v3 _ = V m c main_v3 _
  congr 1
  funext a
  apply Fin.ext
  match a with
  | ⟨0, _⟩ => show win0_1.index t (0 : Fin 2) * 64 + 1 * p.val = r.val; rw [e0, hr, Nat.one_mul]
  | ⟨1, _⟩ => show win0_1.index t (1 : Fin 2) * 1 + 1 * q.val = q.val; rw [e1, Nat.zero_mul, Nat.zero_add, Nat.one_mul]

/-- The labels block likewise. -/
theorem iblk2_apply (t : Fin cfg0.N) (p : Fin 64) (q : Fin 1) (r : Fin 2048) (hr : r.val = t.val * 64 + p.val) :
    (iblk m c 2 t : Vec Ideal S64x1 .i32) (ix2 p q) = V m c main_v2 (ix2 r q) := by
  obtain ⟨-, -, ⟨e0, e1⟩, -⟩ := idx_facts t
  unfold iblk
  rw [View.read_apply]
  show V m c main_v2 _ = V m c main_v2 _
  congr 1
  funext a
  apply Fin.ext
  match a with
  | ⟨0, _⟩ => show win0_2.index t (0 : Fin 2) * 64 + 1 * p.val = r.val; rw [e0, hr, Nat.one_mul]
  | ⟨1, _⟩ => show win0_2.index t (1 : Fin 2) * 1 + 1 * q.val = q.val; rw [e1, Nat.zero_mul, Nat.zero_add, Nat.one_mul]

/-- The tokens block likewise. -/
theorem iblk3_apply (t : Fin cfg0.N) (p : Fin 64) (q : Fin 1) (r : Fin 2048) (hr : r.val = t.val * 64 + p.val) :
    (iblk m c 3 t : Vec Ideal S64x1 .i32) (ix2 p q) = V m c main_v1 (ix2 r q) := by
  obtain ⟨-, -, -, ⟨e0, e1⟩, -⟩ := idx_facts t
  unfold iblk
  rw [View.read_apply]
  show V m c main_v1 _ = V m c main_v1 _
  congr 1
  funext a
  apply Fin.ext
  match a with
  | ⟨0, _⟩ => show win0_3.index t (0 : Fin 2) * 64 + 1 * p.val = r.val; rw [e0, hr, Nat.one_mul]
  | ⟨1, _⟩ => show win0_3.index t (1 : Fin 2) * 1 + 1 * q.val = q.val; rw [e1, Nat.zero_mul, Nat.zero_add, Nat.one_mul]

/-- Row `j` of the logits array the region finds. -/
abbrev rowK (j : S2048x1.Idx) : Fin 32000 → EReal := fun v => V m c main_v0 (ix2 (j 0) v)

/-- The first result array, row by row: the divergence by the closed forms. -/
def arr4 : S2048x1.Idx → EReal := fun j =>
  Spec.klClosed (Spec.logp (rowK m c j) (V m c main_v3 j)) (V m c main_v3 j) (V m c main_v2 j)

/-- The second result array, row by row: `log(p+ε)` picked at the token. -/
def arr5 : S2048x1.Idx → EReal := fun j =>
  Spec.pick (Spec.logp (rowK m c j) (V m c main_v3 j)) (V m c main_v1 j)

/-- A point is below 32. -/
theorem point_lt (t : Fin cfg0.N) : t.val < 32 := by
  exact Nat.lt_of_lt_of_eq t.isLt N_0

/-- What point `t` leaves in the first result's staging buffer, at row `p`, is row `64t + p` of `arr4`. -/
theorem out4_apply (t : Fin cfg0.N) (p : Fin 64) (r : Fin 2048) (hr : r.val = t.val * 64 + p.val) :
    klBlk (iblk m c 0 t) (iblk m c 1 t) (iblk m c 2 t) (ix2 p 0) = arr4 m c (ix2 r 0) := by
  refine (klBlk_apply (iblk m c 0 t) (iblk m c 1 t) (iblk m c 2 t) p).trans ?_
  have h0 : rowB (iblk m c 0 t) p = rowK m c (ix2 r 0) := funext fun v => iblk0_apply m c t p v r hr
  rw [h0, iblk1_apply m c t p 0 r hr, iblk2_apply m c t p 0 r hr]
  rfl

/-- What point `t` leaves in the second result's staging buffer, at row `p`, is row `64t + p` of `arr5`. -/
theorem out5_apply (t : Fin cfg0.N) (p : Fin 64) (r : Fin 2048) (hr : r.val = t.val * 64 + p.val) :
    lpzBlk (iblk m c 0 t) (iblk m c 1 t) (iblk m c 3 t) (ix2 p 0) = arr5 m c (ix2 r 0) := by
  refine (lpzBlk_apply (iblk m c 0 t) (iblk m c 1 t) (iblk m c 3 t) p).trans ?_
  have h0 : rowB (iblk m c 0 t) p = rowK m c (ix2 r 0) := funext fun v => iblk0_apply m c t p v r hr
  rw [h0, iblk1_apply m c t p 0 r hr, iblk3_apply m c t p 0 r hr]
  rfl

set_option maxRecDepth 65536 in
/-- WHAT POINT `t` WRITES BACK to the first result array is block `t` of `arr4`. -/
theorem flushed4_eq (t : Fin cfg0.N) :
    (dats m 0 c).flushed 4 t = ((cfg0.win 4).blk t).view.read (Elt Ideal) (arr4 m c) := by
  show (cfg0.win 4).cut (grid0.coords t) ((dats m 0 c).after 4 t) = _
  rw [after0_4]
  unfold out0_4
  rw [View.canon_unit_zero hz]
  obtain ⟨-, -, -, -, ⟨e0, e1⟩, -⟩ := idx_facts t
  have ht := point_lt t
  have key : ∀ y : S64x1.Idx, klBlk (iblk m c 0 t) (iblk m c 1 t) (iblk m c 2 t) y
      = arr4 m c (((cfg0.win 4).blk t).view.emb y) := by
    intro y
    obtain ⟨p, q, rfl⟩ : ∃ (p : Fin 64) (q : Fin 1), y = ix2 p q := ⟨y 0, y 1, eq_ix2 y⟩
    obtain rfl : q = 0 := Subsingleton.elim _ _
    have hr : t.val * 64 + p.val < 2048 := by have := p.isLt; omega
    refine (out4_apply m c t p ⟨t.val * 64 + p.val, hr⟩ rfl).trans ?_
    congr 1
    funext a
    apply Fin.ext
    match a with
    | ⟨0, _⟩ => show t.val * 64 + p.val = win0_4.index t (0 : Fin 2) * 64 + 1 * p.val; rw [e0, Nat.one_mul]
    | ⟨1, _⟩ => show 0 = win0_4.index t (1 : Fin 2) * 1 + 1 * 0; rw [e1]
  funext y
  exact key y

set_option maxRecDepth 65536 in
/-- WHAT POINT `t` WRITES BACK to the second result array is block `t` of `arr5`. -/
theorem flushed5_eq (t : Fin cfg0.N) :
    (dats m 0 c).flushed 5 t = ((cfg0.win 5).blk t).view.read (Elt Ideal) (arr5 m c) := by
  show (cfg0.win 5).cut (grid0.coords t) ((dats m 0 c).after 5 t) = _
  rw [after0_5]
  unfold out0_5
  rw [View.canon_unit_zero hz]
  obtain ⟨-, -, -, -, -, ⟨e0, e1⟩⟩ := idx_facts t
  have ht := point_lt t
  have key : ∀ y : S64x1.Idx, lpzBlk (iblk m c 0 t) (iblk m c 1 t) (iblk m c 3 t) y
      = arr5 m c (((cfg0.win 5).blk t).view.emb y) := by
    intro y
    obtain ⟨p, q, rfl⟩ : ∃ (p : Fin 64) (q : Fin 1), y = ix2 p q := ⟨y 0, y 1, eq_ix2 y⟩
    obtain rfl : q = 0 := Subsingleton.elim _ _
    have hr : t.val * 64 + p.val < 2048 := by have := p.isLt; omega
    refine (out5_apply m c t p ⟨t.val * 64 + p.val, hr⟩ rfl).trans ?_
    congr 1
    funext a
    apply Fin.ext
    match a with
    | ⟨0, _⟩ => show t.val * 64 + p.val = win0_5.index t (0 : Fin 2) * 64 + 1 * p.val; rw [e0, Nat.one_mul]
    | ⟨1, _⟩ => show 0 = win0_5.index t (1 : Fin 2) * 1 + 1 * 0; rw [e1]
  funext y
  exact key y

/-- An index of the first result array is in point `t`'s block iff each coordinate is in the block's range. -/
theorem mem_blk4 (t : Fin cfg0.N) (i : S2048x1.Idx) :
    i ∈ ((cfg0.win 4).blk t).view.set ↔ ∀ a : Fin 2, win0_4.index t a * S64x1.size a ≤ (i a).val ∧ (i a).val < win0_4.index t a * S64x1.size a + S64x1.size a := by
  show i ∈ ((View.whole main_v4_0).slice (win0_4.rect t)).set ↔ _
  rw [View.set_slice_whole, Rect.mem_set_unit]
  exact Iff.rfl

theorem mem_blk5 (t : Fin cfg0.N) (i : S2048x1.Idx) :
    i ∈ ((cfg0.win 5).blk t).view.set ↔ ∀ a : Fin 2, win0_5.index t a * S64x1.size a ≤ (i a).val ∧ (i a).val < win0_5.index t a * S64x1.size a + S64x1.size a := by
  show i ∈ ((View.whole main_v4_1).slice (win0_5.rect t)).set ↔ _
  rw [View.set_slice_whole, Rect.mem_set_unit]
  exact Iff.rfl

/-- Row `r` of the first result array is covered by point `r / 64`. -/
theorem cover4 (i : S2048x1.Idx) :
    ∃ t : Fin cfg0.N, (cfg0.win 4).flush t = true ∧ i ∈ ((cfg0.win 4).blk t).view.set := by
  have hi0 : (i 0).val < 2048 := (i 0).isLt
  have hi1 : (i 1).val < 1 := (i 1).isLt
  have hN : cfg0.N = 32 := N_0
  have htl : (i 0).val / 64 < cfg0.N := by rw [hN]; omega
  obtain ⟨-, -, -, -, ⟨e0, e1⟩, -⟩ := idx_facts ⟨(i 0).val / 64, htl⟩
  refine ⟨⟨(i 0).val / 64, htl⟩, flush0_4 _, ?_⟩
  rw [mem_blk4]
  intro a
  match a with
  | ⟨0, _⟩ =>
    show win0_4.index ⟨(i 0).val / 64, htl⟩ (0 : Fin 2) * 64 ≤ (i 0).val ∧ (i 0).val < win0_4.index ⟨(i 0).val / 64, htl⟩ (0 : Fin 2) * 64 + 64
    rw [e0]; show (i 0).val / 64 * 64 ≤ (i 0).val ∧ (i 0).val < (i 0).val / 64 * 64 + 64; omega
  | ⟨1, _⟩ =>
    show win0_4.index ⟨(i 0).val / 64, htl⟩ (1 : Fin 2) * 1 ≤ (i 1).val ∧ (i 1).val < win0_4.index ⟨(i 0).val / 64, htl⟩ (1 : Fin 2) * 1 + 1
    rw [e1]; omega

theorem cover5 (i : S2048x1.Idx) :
    ∃ t : Fin cfg0.N, (cfg0.win 5).flush t = true ∧ i ∈ ((cfg0.win 5).blk t).view.set := by
  have hi0 : (i 0).val < 2048 := (i 0).isLt
  have hi1 : (i 1).val < 1 := (i 1).isLt
  have hN : cfg0.N = 32 := N_0
  have htl : (i 0).val / 64 < cfg0.N := by rw [hN]; omega
  obtain ⟨-, -, -, -, -, ⟨e0, e1⟩⟩ := idx_facts ⟨(i 0).val / 64, htl⟩
  refine ⟨⟨(i 0).val / 64, htl⟩, flush0_5 _, ?_⟩
  rw [mem_blk5]
  intro a
  match a with
  | ⟨0, _⟩ =>
    show win0_5.index ⟨(i 0).val / 64, htl⟩ (0 : Fin 2) * 64 ≤ (i 0).val ∧ (i 0).val < win0_5.index ⟨(i 0).val / 64, htl⟩ (0 : Fin 2) * 64 + 64
    rw [e0]; show (i 0).val / 64 * 64 ≤ (i 0).val ∧ (i 0).val < (i 0).val / 64 * 64 + 64; omega
  | ⟨1, _⟩ =>
    show win0_5.index ⟨(i 0).val / 64, htl⟩ (1 : Fin 2) * 1 ≤ (i 1).val ∧ (i 1).val < win0_5.index ⟨(i 0).val / 64, htl⟩ (1 : Fin 2) * 1 + 1
    rw [e1]; omega

/-- THE FIRST RESULT ARRAY after the region: at every row the divergence by the closed forms, of the row's
    `log(p+ε)`, log-SNR and label as the region finds them. -/
theorem final4 : (dats m 0 c).arrAt 4 cfg0.N
    = fun j : S2048x1.Idx => Spec.klClosed (Spec.logp (fun v : Fin 32000 => V m c main_v0 (ix2 (j 0) v)) (V m c main_v3 j)) (V m c main_v3 j) (V m c main_v2 j) :=
  (dats m 0 c).arrAt_eq_of_cover 4 (arr4 m c) (fun t _ => flushed4_eq m c t) (cover4)

/-- THE SECOND RESULT ARRAY after the region: at every row the row's `log(p+ε)` picked at the row's token. -/
theorem final5 : (dats m 0 c).arrAt 5 cfg0.N
    = fun j : S2048x1.Idx => Spec.pick (Spec.logp (fun v : Fin 32000 => V m c main_v0 (ix2 (j 0) v)) (V m c main_v3 j)) (V m c main_v1 j) :=
  (dats m 0 c).arrAt_eq_of_cover 5 (arr5 m c) (fun t _ => flushed5_eq m c t) (cover5)

end Arrays

end Cert.KernelIdeal.Fr

end
-- ==== Proof.LibSsa.lean ====
/-
  Straight-line host programs read in single-assignment form.

  A host program is a list of operations, each of which overwrites one buffer with a function of the contents of
  other buffers; `after ops V` is the fold of those overwrites over starting contents `V`. When every buffer is
  written at most once, and only after the last time an earlier operation has read or written it, the final contents
  satisfy one EQUATION per operation: the buffer an operation writes ends at the operation's function of the FINAL
  contents of the buffers it reads. The lemmas below prove that equation for each kind of operation from two facts
  about the list that are decided by inspection of the buffers' names: the buffer written at position `k` is not
  written again later, and the buffers read at position `k` are not written at position `k` or later.
-/
import Idealize.ShloMosaic.Lib.StableHlo.Run

noncomputable section

namespace Idealize.ShloMosaic.StableHlo.Ssa

open Idealize.ShloMosaic Idealize.ShloMosaic.StableHlo

variable {τ : Topo} {sig : RefSig} {Val : EltTy → Type}

/-- Running two lines one after the other folds the second over what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- `W` names, operation by operation, the one buffer each operation of the line writes. -/
def WritesOnly : List (HloOp τ sig Val) → List (Ref sig .tc) → Prop
  | [], [] => True
  | op :: ops, w :: W => op.writes = {Proc.devRef .tc w} ∧ WritesOnly ops W
  | [], _ :: _ => False
  | _ :: _, [] => False

theorem WritesOnly.drop : ∀ (k : Nat) (ops : List (HloOp τ sig Val)) (W : List (Ref sig .tc)),
    WritesOnly ops W → WritesOnly (ops.drop k) (W.drop k)
  | 0, _, _, h => h
  | _ + 1, [], [], _ => trivial
  | k + 1, _ :: ops, _ :: W, h => WritesOnly.drop k ops W h.2
  | _ + 1, [], _ :: _, h => h.elim
  | _ + 1, _ :: _, [], h => h.elim

/-- A buffer whose name is not among the written ones keeps its contents through the line. -/
theorem after_of_not_written : ∀ (ops : List (HloOp τ sig Val)) (W : List (Ref sig .tc)) (V : Valuation τ sig Val)
    (r : Ref sig .tc), WritesOnly ops W → r ∉ W → after ops V (Proc.devRef .tc r) = V (Proc.devRef .tc r)
  | [], [], _, _, _, _ => rfl
  | op :: ops, w :: W, V, r, h, hr => by
    have hrw : r ≠ w := fun e => hr (e ▸ List.mem_cons_self)
    have hrW : r ∉ W := fun e => hr (List.mem_cons_of_mem _ e)
    rw [after_cons, after_of_not_written ops W _ r h.2 hrW, op.result_of_not_mem V]
    rw [h.1, Finset.mem_singleton]
    exact devRef_ne_of_ne hrw
  | [], _ :: _, _, _, h, _ => h.elim
  | _ :: _, [], _, _, h, _ => h.elim

variable (ops : List (HloOp τ sig Val)) (W : List (Ref sig .tc)) (hW : WritesOnly ops W) (V : Valuation τ sig Val)
include hW

/-- The buffer written at position `k` and never again ends at that operation's result over the contents the
    first `k` operations leave. -/
theorem after_at (k : Nat) (op : HloOp τ sig Val) (y : Ref sig .tc)
    (hop : ops.drop k = op :: ops.drop (k + 1)) (hy : y ∉ W.drop (k + 1)) :
    after ops V (Proc.devRef .tc y) = op.result (after (ops.take k) V) (Proc.devRef .tc y) := by
  conv_lhs => rw [← List.take_append_drop k ops, after_append, hop, after_cons]
  exact after_of_not_written _ _ _ y (hW.drop (k + 1)) hy

/-- A buffer not written at position `k` or later already has its final contents after the first `k` operations. -/
theorem after_take (k : Nat) (x : Ref sig .tc) (hx : x ∉ W.drop k) :
    after (ops.take k) V (Proc.devRef .tc x) = after ops V (Proc.devRef .tc x) := by
  conv_rhs => rw [← List.take_append_drop k ops, after_append]
  exact (after_of_not_written _ _ _ x (hW.drop k) hx).symm

/-- A buffer no operation writes keeps its starting contents. -/
theorem after_arg (x : Ref sig .tc) (hx : x ∉ W) : after ops V (Proc.devRef .tc x) = V (Proc.devRef .tc x) :=
  after_of_not_written ops W V x hW hx

theorem ssa_nullary (k : Nat) (y : Ref sig .tc) (v : y.ty.Contents Val) (hy)
    (hop : ops.drop k = nullary y v hy :: ops.drop (k + 1)) (hy' : y ∉ W.drop (k + 1)) :
    after ops V (Proc.devRef .tc y) = v := by
  rw [after_at ops W hW V k _ y hop hy']; exact nullary_result y v hy _

theorem ssa_unary (k : Nat) (x y : Ref sig .tc) (f : x.ty.Contents Val → y.ty.Contents Val) (hx hy)
    (hop : ops.drop k = unary x y f hx hy :: ops.drop (k + 1)) (hy' : y ∉ W.drop (k + 1)) (hx' : x ∉ W.drop k) :
    after ops V (Proc.devRef .tc y) = f (after ops V (Proc.devRef .tc x)) := by
  rw [after_at ops W hW V k _ y hop hy', ← after_take ops W hW V k x hx']; exact unary_result x y f hx hy _

theorem ssa_binary (k : Nat) (a b y : Ref sig .tc) (f : a.ty.Contents Val → b.ty.Contents Val → y.ty.Contents Val) (ha hb hy)
    (hop : ops.drop k = binary a b y f ha hb hy :: ops.drop (k + 1)) (hy' : y ∉ W.drop (k + 1))
    (ha' : a ∉ W.drop k) (hb' : b ∉ W.drop k) :
    after ops V (Proc.devRef .tc y) = f (after ops V (Proc.devRef .tc a)) (after ops V (Proc.devRef .tc b)) := by
  rw [after_at ops W hW V k _ y hop hy', ← after_take ops W hW V k a ha', ← after_take ops W hW V k b hb']
  exact binary_result a b y f ha hb hy _

theorem ssa_ternary (k : Nat) (c a b y : Ref sig .tc)
    (f : c.ty.Contents Val → a.ty.Contents Val → b.ty.Contents Val → y.ty.Contents Val) (hc ha hb hy)
    (hop : ops.drop k = ternary c a b y f hc ha hb hy :: ops.drop (k + 1)) (hy' : y ∉ W.drop (k + 1))
    (hc' : c ∉ W.drop k) (ha' : a ∉ W.drop k) (hb' : b ∉ W.drop k) :
    after ops V (Proc.devRef .tc y)
      = f (after ops V (Proc.devRef .tc c)) (after ops V (Proc.devRef .tc a)) (after ops V (Proc.devRef .tc b)) := by
  rw [after_at ops W hW V k _ y hop hy', ← after_take ops W hW V k c hc', ← after_take ops W hW V k a ha',
    ← after_take ops W hW V k b hb']
  exact ternary_result c a b y f hc ha hb hy _

theorem ssa_reshape (k : Nat) (x y : Ref sig .tc) (he : x.ty.elt = y.ty.elt) (hn : x.ty.shape.ShapeCasts y.ty.shape) (hx hy)
    (hop : ops.drop k = reshape (Val := Val) x y he hn hx hy :: ops.drop (k + 1)) (hy' : y ∉ W.drop (k + 1))
    (hx' : x ∉ W.drop k) :
    after ops V (Proc.devRef .tc y) = fun i => he ▸ shapeCast y.ty.shape (after ops V (Proc.devRef .tc x)) hn i := by
  rw [after_at ops W hW V k _ y hop hy', ← after_take ops W hW V k x hx']; exact reshape_result x y he hn hx hy _

theorem ssa_nary (k : Nat) {n : Nat} (xs : Fin n → Ref sig .tc) (y : Ref sig .tc)
    (f : ((j : Fin n) → (xs j).ty.Contents Val) → y.ty.Contents Val) (hxs hy)
    (hop : ops.drop k = nary xs y f hxs hy :: ops.drop (k + 1)) (hy' : y ∉ W.drop (k + 1))
    (hxs' : ∀ j, xs j ∉ W.drop k) :
    after ops V (Proc.devRef .tc y) = f (fun j => after ops V (Proc.devRef .tc (xs j))) := by
  rw [after_at ops W hW V k _ y hop hy', nary_result]
  exact congrArg f (funext fun j => after_take ops W hW V k (xs j) (hxs' j))

end Idealize.ShloMosaic.StableHlo.Ssa

end
-- ==== Proof.KITail.lean ====
/-
  The host operations after the kernel's one region, read as ONE function of the five buffers they only read.

  After the region the program runs a straight line of 78 elementwise operations on columns of 2048 rows, each
  operation writing a buffer that no other operation writes. In single-assignment form the line is a system of
  equations, one per operation, and solving it from the five buffers that are only read (the log signal-to-noise
  ratio `s`, the observed token `z`, the label `l`, and the region's two results: the divergence `KL` and
  `log(p_z+ε)`) gives, row by row:

    α = 1/(1+e^{-s}),  c = (1-α)·u,  m = (1-α)·k,
    w = min(1000, max(0, 1/(1+e^{-s}) · 1/(1+e^{-(-s)}))),
    log(q_z+ε) = log(c + α·[z = l] + m·[z = last] + ε),
    D = e^{log(q_z+ε)} / (e^{log(p_z+ε)} + ε) - (log(q_z+ε) - log(p_z+ε)) - 1,
    loss = w·KL + (1·w)·D,

  and the last operation lays the column of losses out as a row. Every step is the definition of the operation at
  the extended reals; the only facts used beyond that are that the words of `1.0` and `0.0` denote `1` and `0`,
  and that the bit of an equality test read as a number is the indicator of the equality.
-/
import proofs.«412391_j58377195487468_2_alg».proof.Proof.Gen.KernelIdeal.Launch
import proofs.«412391_j58377195487468_2_alg».proof.Proof.LibSsa
import proofs.«412391_j58377195487468_2_alg».proof.Proof.Spec
import Idealize.ShloMosaic.Lib.StableHlo.Run
import Idealize.ShloMosaic.Lib.StableHlo.Predicate
import Idealize.ShloMosaic.Lib.ValueIdx
import Idealize.ShloMosaic.PureOps.Ideal.Laws
import Idealize.ShloMosaic.Lib.Pipeline.Value

set_option maxRecDepth 16384

noncomputable section

namespace Cert.KernelIdeal.Tail

open Cert.KernelIdeal Cert.KernelIdeal.Gen
open Idealize.ShloMosaic Idealize.ShloMosaic.TcCoe Idealize.ShloMosaic.ValueIdx Idealize.ShloMosaic.StableHlo

/-- The host operations after the region, as one line. -/
abbrev ops : List (HloOp τ sig (Elt Ideal)) := List.flatten [hostOps1, hostOps1_1, hostOps1_2]

/-- The buffer each of them writes, in order. -/
abbrev Wn : List (Ref sig .tc) :=
  [main_v5, main_v6, main_cst, main_v7, main_v8, main_cst_0, main_v9, main_v10, main_cst_1, main_v11, main_v12,
   main_cst_2, main_v13, main_v14, main_cst_3, main_v15, main_v16, main_cst_4, main_v17, main_v18, main_v19, main_v20,
   main_cst_5, main_v21, main_v22, main_cst_6, main_v23, main_v24, main_v25, main_v26, main_v27, main_cst_7, main_v28,
   main_v29, main_cst_8, main_v30, main_v31, main_v32, main_cst_9, main_cst_10,
   main_call0_v0, main_call0_v1, main_call0_v2, main_call0_v3, main_call0_v4, main_v33,
   main_v34, main_v35, main_c, main_v36, main_v37, main_v38, main_v39, main_v40, main_v41, main_v42, main_cst_11,
   main_v43, main_v44, main_v45, main_v46, main_v47, main_cst_12, main_v48, main_v49, main_v50, main_v51, main_v52,
   main_cst_13, main_v53, main_v54, main_v55, main_cst_14, main_v56, main_v57, main_v58, main_v59, main_v60]

/-- Every operation of the line writes the one buffer listed for it. -/
theorem hW : Ssa.WritesOnly ops Wn := by
  repeat' (first | exact trivial | refine ⟨rfl, ?_⟩)

/-! ## The words the line spells, and a comparison's bit as a number -/

/-- The word of `1.0` denotes `1`. -/
theorem one_eq : Ideal.ofBits .f32 0x3F800000#32 = 1 := by
  simp [Ideal.ofBits, Ideal.ieee, -EReal.coe_mul]; norm_num

/-- The bit of an equality test, read as an unsigned number, is the indicator of the equality. -/
theorem ind_eq (a b : BitVec 32) : (((IntOp.cmpi .eq a b).toNat : ℝ) : EReal) = if a = b then 1 else 0 := by
  by_cases h : a = b
  · rw [if_pos h, StableHlo.Predicate.cmpi_eq_iff.mpr h]; simp
  · rw [if_neg h, eq_zero_of_ne_one (fun h1 => h (StableHlo.Predicate.cmpi_eq_iff.mp h1))]; simp

section Chain

variable (W : Valuation τ sig (Elt Ideal))

/-- The five buffers the line only reads: the log signal-to-noise ratios, the observed tokens, the labels, and the
    region's two results (the divergence, and `log(p+ε)` at the observed token), each a column of 2048 rows. -/
abbrev sV : FVec Ideal S2048x1 .f32 := W (Proc.devRef .tc main_v3)
abbrev zV : IVec S2048x1 32 := W (Proc.devRef .tc main_v1)
abbrev lV : IVec S2048x1 32 := W (Proc.devRef .tc main_v2)
abbrev klV : FVec Ideal S2048x1 .f32 := W (Proc.devRef .tc main_v4_0)
abbrev lpV : FVec Ideal S2048x1 .f32 := W (Proc.devRef .tc main_v4_1)

local macro "Vf" W:ident r:ident : term => `(StableHlo.after ops $W (Proc.devRef .tc $r))
local notation:50 a " =₂₁ " b => @Eq (FVec Ideal S2048x1 FTy.f32) a b
local macro "ssaN" W:ident k:num y:ident : term =>
  `(Ssa.ssa_nullary ops Wn hW $W $k $y _ _ rfl (by decide))
local macro "ssaU" W:ident k:num x:ident y:ident : term =>
  `(Ssa.ssa_unary ops Wn hW $W $k $x $y _ _ _ rfl (by decide) (by decide))
local macro "ssaB" W:ident k:num a:ident b:ident y:ident : term =>
  `(Ssa.ssa_binary ops Wn hW $W $k $a $b $y _ _ _ _ rfl (by decide) (by decide) (by decide))

/-! ### The buffers the line does not write -/

theorem v3_eq : (Vf W main_v3) = sV W := Ssa.after_arg ops Wn hW W main_v3 (by decide)
theorem v1_eq : (Vf W main_v1) = zV W := Ssa.after_arg ops Wn hW W main_v1 (by decide)
theorem v2_eq : (Vf W main_v2) = lV W := Ssa.after_arg ops Wn hW W main_v2 (by decide)
theorem v4_0_eq : (Vf W main_v4_0) = klV W := Ssa.after_arg ops Wn hW W main_v4_0 (by decide)
theorem v4_1_eq : (Vf W main_v4_1) = lpV W := Ssa.after_arg ops Wn hW W main_v4_1 (by decide)

/-! ### The broadcast constants -/

theorem h7 : (Vf W main_v7) =₂₁ fun _ => 1 := by
  rw [ssaU W 3 main_cst main_v7, ssaN W 2 main_cst]; funext j; exact one_eq
theorem h9 : (Vf W main_v9) =₂₁ fun _ => 1 := by
  rw [ssaU W 6 main_cst_0 main_v9, ssaN W 5 main_cst_0]; funext j; exact one_eq
theorem h11 : (Vf W main_v11) =₂₁ fun _ => 1 := by
  rw [ssaU W 9 main_cst_1 main_v11, ssaN W 8 main_cst_1]; funext j; exact one_eq
theorem h13 : (Vf W main_v13) =₂₁ fun _ => Spec.kU := by
  rw [ssaU W 12 main_cst_2 main_v13, ssaN W 11 main_cst_2]; rfl
theorem h15 : (Vf W main_v15) =₂₁ fun _ => 1 := by
  rw [ssaU W 15 main_cst_3 main_v15, ssaN W 14 main_cst_3]; funext j; exact one_eq
theorem h17 : (Vf W main_v17) =₂₁ fun _ => Spec.kM := by
  rw [ssaU W 18 main_cst_4 main_v17, ssaN W 17 main_cst_4]; rfl
theorem h21 : (Vf W main_v21) =₂₁ fun _ => 1 := by
  rw [ssaU W 23 main_cst_5 main_v21, ssaN W 22 main_cst_5]; funext j; exact one_eq
theorem h23 : (Vf W main_v23) =₂₁ fun _ => 1 := by
  rw [ssaU W 26 main_cst_6 main_v23, ssaN W 25 main_cst_6]; funext j; exact one_eq
theorem h28 : (Vf W main_v28) =₂₁ fun _ => 1 := by
  rw [ssaU W 32 main_cst_7 main_v28, ssaN W 31 main_cst_7]; funext j; exact one_eq
theorem h30 : (Vf W main_v30) =₂₁ fun _ => 1 := by
  rw [ssaU W 35 main_cst_8 main_v30, ssaN W 34 main_cst_8]; funext j; exact one_eq
theorem hc1 : (Vf W main_call0_v1) =₂₁ fun _ => 0 := by
  rw [ssaU W 41 main_call0_v0 main_call0_v1, ssaU W 40 main_cst_9 main_call0_v0, ssaN W 38 main_cst_9]
  funext j; exact Ideal.ofBits_zero_f32
theorem hc4 : (Vf W main_call0_v4) =₂₁ fun _ => Spec.kClip := by
  rw [ssaU W 44 main_call0_v3 main_call0_v4, ssaU W 43 main_cst_10 main_call0_v3, ssaN W 39 main_cst_10]; rfl
theorem h36 : @Eq (IVec S2048x1 32) (Vf W main_v36) (fun _ => Spec.lastW) := by
  rw [ssaU W 49 main_c main_v36, ssaN W 48 main_c]; rfl
theorem h43 : (Vf W main_v43) =₂₁ fun _ => Spec.eps := by
  rw [ssaU W 57 main_cst_11 main_v43, ssaN W 56 main_cst_11]; rfl
theorem h48 : (Vf W main_v48) =₂₁ fun _ => Spec.eps := by
  rw [ssaU W 63 main_cst_12 main_v48, ssaN W 62 main_cst_12]; rfl
theorem h53 : (Vf W main_v53) =₂₁ fun _ => 1 := by
  rw [ssaU W 69 main_cst_13 main_v53, ssaN W 68 main_cst_13]; funext j; exact one_eq
theorem h56 : (Vf W main_v56) =₂₁ fun _ => 1 := by
  rw [ssaU W 73 main_cst_14 main_v56, ssaN W 72 main_cst_14]; funext j; exact one_eq

/-! ### `α = 1 / (1 + e^{-s})`, `c = (1-α)·u`, `m = (1-α)·k` -/

theorem h5 : (Vf W main_v5) =₂₁ fun j => -(sV W j) := by
  rw [ssaU W 0 main_v3 main_v5, v3_eq]; rfl
theorem h6 : (Vf W main_v6) =₂₁ fun j => Ideal.exp (-(sV W j)) := by
  rw [ssaU W 1 main_v5 main_v6, h5]; rfl
theorem h8 : (Vf W main_v8) =₂₁ fun j => 1 + Ideal.exp (-(sV W j)) := by
  rw [ssaB W 4 main_v7 main_v6 main_v8, h7, h6]; rfl
theorem h10 : (Vf W main_v10) =₂₁ fun j => Spec.alpha (sV W j) := by
  rw [ssaB W 7 main_v9 main_v8 main_v10, h9, h8]; rfl
theorem h12 : (Vf W main_v12) =₂₁ fun j => 1 - Spec.alpha (sV W j) := by
  rw [ssaB W 10 main_v11 main_v10 main_v12, h11, h10]; rfl
theorem h14 : (Vf W main_v14) =₂₁ fun j => Spec.cU (sV W j) := by
  rw [ssaB W 13 main_v12 main_v13 main_v14, h12, h13]; rfl
theorem h16 : (Vf W main_v16) =₂₁ fun j => 1 - Spec.alpha (sV W j) := by
  rw [ssaB W 16 main_v15 main_v10 main_v16, h15, h10]; rfl
theorem h18 : (Vf W main_v18) =₂₁ fun j => Spec.cM (sV W j) := by
  rw [ssaB W 19 main_v16 main_v17 main_v18, h16, h17]; rfl

/-! ### The clipped weight `σ(s)·σ(-s)` -/

theorem h19 : (Vf W main_v19) =₂₁ fun j => -(sV W j) := by
  rw [ssaU W 20 main_v3 main_v19, v3_eq]; rfl
theorem h20 : (Vf W main_v20) =₂₁ fun j => Ideal.exp (-(sV W j)) := by
  rw [ssaU W 21 main_v19 main_v20, h19]; rfl
theorem h22 : (Vf W main_v22) =₂₁ fun j => 1 + Ideal.exp (-(sV W j)) := by
  rw [ssaB W 24 main_v21 main_v20 main_v22, h21, h20]; rfl
theorem h24 : (Vf W main_v24) =₂₁ fun j => Ideal.div 1 (1 + Ideal.exp (-(sV W j))) := by
  rw [ssaB W 27 main_v23 main_v22 main_v24, h23, h22]; rfl
theorem h25 : (Vf W main_v25) =₂₁ fun j => -(sV W j) := by
  rw [ssaU W 28 main_v3 main_v25, v3_eq]; rfl
theorem h26 : (Vf W main_v26) =₂₁ fun j => -(-(sV W j)) := by
  rw [ssaU W 29 main_v25 main_v26, h25]; rfl
theorem h27 : (Vf W main_v27) =₂₁ fun j => Ideal.exp (-(-(sV W j))) := by
  rw [ssaU W 30 main_v26 main_v27, h26]; rfl
theorem h29 : (Vf W main_v29) =₂₁ fun j => 1 + Ideal.exp (-(-(sV W j))) := by
  rw [ssaB W 33 main_v28 main_v27 main_v29, h28, h27]; rfl
theorem h31 : (Vf W main_v31) =₂₁ fun j => Ideal.div 1 (1 + Ideal.exp (-(-(sV W j)))) := by
  rw [ssaB W 36 main_v30 main_v29 main_v31, h30, h29]; rfl
theorem h32 : (Vf W main_v32) =₂₁ fun j =>
    Ideal.div 1 (1 + Ideal.exp (-(sV W j))) * Ideal.div 1 (1 + Ideal.exp (-(-(sV W j)))) := by
  rw [ssaB W 37 main_v24 main_v31 main_v32, h24, h31]; rfl
theorem hc2 : (Vf W main_call0_v2) =₂₁ fun j =>
    max 0 (Ideal.div 1 (1 + Ideal.exp (-(sV W j))) * Ideal.div 1 (1 + Ideal.exp (-(-(sV W j))))) := by
  rw [ssaB W 42 main_call0_v1 main_v32 main_call0_v2, hc1, h32]; rfl
theorem h33 : (Vf W main_v33) =₂₁ fun j => Spec.wgt (sV W j) := by
  rw [ssaB W 45 main_call0_v4 main_call0_v2 main_v33, hc4, hc2]; rfl

/-! ### `log(q_z + ε)` from the two comparisons of the observed token -/

theorem h34 : @Eq (IVec S2048x1 1) (Vf W main_v34) (fun j => IntOp.cmpi .eq (zV W j) (lV W j)) := by
  rw [ssaB W 46 main_v1 main_v2 main_v34, v1_eq, v2_eq]; rfl
theorem h35 : (Vf W main_v35) =₂₁ fun j => if zV W j = lV W j then 1 else 0 := by
  rw [ssaU W 47 main_v34 main_v35, h34]; funext j; exact ind_eq _ _
theorem h37 : @Eq (IVec S2048x1 1) (Vf W main_v37) (fun j => IntOp.cmpi .eq (zV W j) Spec.lastW) := by
  rw [ssaB W 50 main_v1 main_v36 main_v37, v1_eq, h36]; rfl
theorem h38 : (Vf W main_v38) =₂₁ fun j => if zV W j = Spec.lastW then 1 else 0 := by
  rw [ssaU W 51 main_v37 main_v38, h37]; funext j; exact ind_eq _ _
theorem h39 : (Vf W main_v39) =₂₁ fun j => Spec.alpha (sV W j) * (if zV W j = lV W j then 1 else 0) := by
  rw [ssaB W 52 main_v10 main_v35 main_v39, h10, h35]; rfl
theorem h40 : (Vf W main_v40) =₂₁ fun j =>
    Spec.cU (sV W j) + Spec.alpha (sV W j) * (if zV W j = lV W j then 1 else 0) := by
  rw [ssaB W 53 main_v14 main_v39 main_v40, h14, h39]; rfl
theorem h41 : (Vf W main_v41) =₂₁ fun j => Spec.cM (sV W j) * (if zV W j = Spec.lastW then 1 else 0) := by
  rw [ssaB W 54 main_v18 main_v38 main_v41, h18, h38]; rfl
theorem h42 : (Vf W main_v42) =₂₁ fun j =>
    (Spec.cU (sV W j) + Spec.alpha (sV W j) * (if zV W j = lV W j then 1 else 0))
      + Spec.cM (sV W j) * (if zV W j = Spec.lastW then 1 else 0) := by
  rw [ssaB W 55 main_v40 main_v41 main_v42, h40, h41]; rfl
theorem h44 : (Vf W main_v44) =₂₁ fun j =>
    ((Spec.cU (sV W j) + Spec.alpha (sV W j) * (if zV W j = lV W j then 1 else 0))
      + Spec.cM (sV W j) * (if zV W j = Spec.lastW then 1 else 0)) + Spec.eps := by
  rw [ssaB W 58 main_v42 main_v43 main_v44, h42, h43]; rfl
theorem h45 : (Vf W main_v45) =₂₁ fun j => Spec.lqz (sV W j) (lV W j) (zV W j) := by
  rw [ssaU W 59 main_v44 main_v45, h44]; rfl

/-! ### The importance-sampling divergence -/

theorem h46 : (Vf W main_v46) =₂₁ fun j => Ideal.exp (Spec.lqz (sV W j) (lV W j) (zV W j)) := by
  rw [ssaU W 60 main_v45 main_v46, h45]; rfl
theorem h47 : (Vf W main_v47) =₂₁ fun j => Ideal.exp (lpV W j) := by
  rw [ssaU W 61 main_v4_1 main_v47, v4_1_eq]; rfl
theorem h49 : (Vf W main_v49) =₂₁ fun j => Ideal.exp (lpV W j) + Spec.eps := by
  rw [ssaB W 64 main_v47 main_v48 main_v49, h47, h48]; rfl
theorem h50 : (Vf W main_v50) =₂₁ fun j =>
    Ideal.div (Ideal.exp (Spec.lqz (sV W j) (lV W j) (zV W j))) (Ideal.exp (lpV W j) + Spec.eps) := by
  rw [ssaB W 65 main_v46 main_v49 main_v50, h46, h49]; rfl
theorem h51 : (Vf W main_v51) =₂₁ fun j => Spec.lqz (sV W j) (lV W j) (zV W j) - lpV W j := by
  rw [ssaB W 66 main_v45 main_v4_1 main_v51, h45, v4_1_eq]; rfl
theorem h52 : (Vf W main_v52) =₂₁ fun j =>
    Ideal.div (Ideal.exp (Spec.lqz (sV W j) (lV W j) (zV W j))) (Ideal.exp (lpV W j) + Spec.eps)
      - (Spec.lqz (sV W j) (lV W j) (zV W j) - lpV W j) := by
  rw [ssaB W 67 main_v50 main_v51 main_v52, h50, h51]; rfl
theorem h54 : (Vf W main_v54) =₂₁ fun j => Spec.isDiv (Spec.lqz (sV W j) (lV W j) (zV W j)) (lpV W j) := by
  rw [ssaB W 70 main_v52 main_v53 main_v54, h52, h53]; rfl

/-! ### The loss, and its last reshape from a column to a row -/

theorem h55 : (Vf W main_v55) =₂₁ fun j => Spec.wgt (sV W j) * klV W j := by
  rw [ssaB W 71 main_v33 main_v4_0 main_v55, h33, v4_0_eq]; rfl
theorem h57 : (Vf W main_v57) =₂₁ fun j => 1 * Spec.wgt (sV W j) := by
  rw [ssaB W 74 main_v56 main_v33 main_v57, h56, h33]; rfl
theorem h58 : (Vf W main_v58) =₂₁ fun j =>
    (1 * Spec.wgt (sV W j)) * Spec.isDiv (Spec.lqz (sV W j) (lV W j) (zV W j)) (lpV W j) := by
  rw [ssaB W 75 main_v57 main_v54 main_v58, h57, h54]; rfl
theorem h59 : (Vf W main_v59) =₂₁ fun j =>
    Spec.lossOf (Spec.wgt (sV W j)) (klV W j) (Spec.isDiv (Spec.lqz (sV W j) (lV W j) (zV W j)) (lpV W j)) := by
  rw [ssaB W 76 main_v55 main_v58 main_v59, h55, h58]; rfl

/-- THE LINE'S RESULT: position `t` of the row it leaves is the loss from the clipped weight at `t`, the region's
    divergence at `t`, and the importance-sampling divergence between `log(q_z+ε)` and the region's `log(p_z+ε)` at `t`. -/
theorem tail_value :
    StableHlo.after (List.flatten [hostOps1, hostOps1_1, hostOps1_2]) W (Proc.devRef .tc main_v60)
      = fun i : S1x2048.Idx =>
          Spec.lossOf (Spec.wgt ((W (Proc.devRef .tc main_v3) : FVec Ideal S2048x1 .f32) (ix2 (i 1) 0)))
            ((W (Proc.devRef .tc main_v4_0) : FVec Ideal S2048x1 .f32) (ix2 (i 1) 0))
            (Spec.isDiv
              (Spec.lqz ((W (Proc.devRef .tc main_v3) : FVec Ideal S2048x1 .f32) (ix2 (i 1) 0))
                ((W (Proc.devRef .tc main_v2) : IVec S2048x1 32) (ix2 (i 1) 0))
                ((W (Proc.devRef .tc main_v1) : IVec S2048x1 32) (ix2 (i 1) 0)))
              ((W (Proc.devRef .tc main_v4_1) : FVec Ideal S2048x1 .f32) (ix2 (i 1) 0))) := by
  show StableHlo.after ops W (Proc.devRef .tc main_v60) = _
  rw [Ssa.ssa_reshape ops Wn hW W 77 main_v59 main_v60 rfl _ _ _ rfl (by decide) (by decide), h59]
  funext i
  exact shapeCast_apply (s := S2048x1) (t := S1x2048) _ _ i (ix2 (i 1) 0) (by
    rw [Shape.rowMajor_val_two, Shape.rowMajor_val_two]
    have h0 : (i 0).val < 1 := idx2_lt0 i
    show (i 1).val * 1 + 0 = (i 0).val * 2048 + (i 1).val
    omega)

end Chain

end Cert.KernelIdeal.Tail

end
-- ==== Proof.KIValue.lean ====
/-
  The first program's result array. After the run around the region the result buffer holds what the host
  operations after the region compute from the region's two result arrays and the three small input arrays; the
  region's result arrays are, row by row, the divergence by the closed forms and the model's logarithm picked at the
  observed token; the input arrays are the arguments re-laid. Composed: the result is the closed-form loss of every
  position.
-/
import proofs.«412391_j58377195487468_2_alg».proof.Proof.KIArrays
import proofs.«412391_j58377195487468_2_alg».proof.Proof.KITail

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- What the lines after the region read: the pipeline's arrays as the region leaves them. -/
abbrev Wend (c : Dev nD) : Valuation τ sig (Elt Ideal) :=
  Pipeline.withArrays (cfgs 0).spec c (V0 m c) (fun w => (dats m 0 c).arrAt w (cfgs 0).N)

theorem value_of_post (r : PUnit × MemSt nD τ sig (Elt Ideal)) (h : RunPost m r) (c : Dev nD) :
    r.2.mem ((c.tc : Thread nD τ).loc main_v60)
      = Spec.outClosed (m ((c.tc : Thread nD τ).loc main_arg0)) (m ((c.tc : Thread nD τ).loc main_arg1))
          (m ((c.tc : Thread nD τ).loc main_arg2)) (m ((c.tc : Thread nD τ).loc main_arg3)) := by
  have h1 := (h c).2 main_v60 (Pipeline.mem_restRefs_of main_v60 (by decide) (by decide))
  rw [h1]
  unfold Pipeline.afterTail₀
  rw [Cert.KernelIdeal.Tail.tail_value]
  have e3 : Wend m c (Proc.devRef .tc main_v3) = V m c main_v3 :=
    (Pipeline.withArrays_arr spec0 launch0.win.arr_inj c _ _ 1).trans (((dats m 0 c).arrAt_in 1 rfl _).trans (A_eq m c 1))
  have e2 : Wend m c (Proc.devRef .tc main_v2) = V m c main_v2 :=
    (Pipeline.withArrays_arr spec0 launch0.win.arr_inj c _ _ 2).trans (((dats m 0 c).arrAt_in 2 rfl _).trans (A_eq m c 2))
  have e1 : Wend m c (Proc.devRef .tc main_v1) = V m c main_v1 :=
    (Pipeline.withArrays_arr spec0 launch0.win.arr_inj c _ _ 3).trans (((dats m 0 c).arrAt_in 3 rfl _).trans (A_eq m c 3))
  have e4 : Wend m c (Proc.devRef .tc main_v4_0) = _ :=
    (Pipeline.withArrays_arr spec0 launch0.win.arr_inj c _ _ 4).trans (final4 m c)
  have e5 : Wend m c (Proc.devRef .tc main_v4_1) = _ :=
    (Pipeline.withArrays_arr spec0 launch0.win.arr_inj c _ _ 5).trans (final5 m c)
  funext i
  obtain ⟨a, b, rfl⟩ : ∃ (a : Fin 1) (b : Fin 2048), i = ix2 a b := ⟨i 0, i 1, eq_ix2 i⟩
  have ha : a = 0 := Subsingleton.elim _ _
  subst ha
  show Spec.lossOf (Spec.wgt (Wend m c (Proc.devRef .tc main_v3) (ix2 b 0))) (Wend m c (Proc.devRef .tc main_v4_0) (ix2 b 0))
      (Spec.isDiv (Spec.lqz (Wend m c (Proc.devRef .tc main_v3) (ix2 b 0)) (Wend m c (Proc.devRef .tc main_v2) (ix2 b 0))
        (Wend m c (Proc.devRef .tc main_v1) (ix2 b 0))) (Wend m c (Proc.devRef .tc main_v4_1) (ix2 b 0))) = _
  rw [congrFun e1 (ix2 b 0), congrFun e2 (ix2 b 0), congrFun e3 (ix2 b 0), congrFun e4 (ix2 b 0), congrFun e5 (ix2 b 0)]
  simp only [Spec.outClosed, Spec.lossClosed, Spec.rowOf]
  have hr : ∀ v : Fin 32000, V m c main_v0 (ix2 ((ix2 (n0 := 2048) (n1 := 1) b 0) 0) v)
      = m ((c.tc : Thread nD τ).loc main_arg0) (ix3 0 b v) := fun v => V_main_v0_apply m c b v
  simp only [hr, V_main_v3_apply m c b, V_main_v2_apply m c b, V_main_v1_apply m c b]
  rfl

end Cert.KernelIdeal.Fr

end
-- ==== Proof.RefRows.lean ====
/-
  The reference program's two arrays of logarithms, read at a row and a column.

  The reference builds, for every position, the row `log(p_v + ε)` of the noised model distribution and the row
  `log(q_v + ε)` of the noised label distribution. Each is a chain of elementwise operations and broadcasts around
  three operations that are not elementwise: a scatter that SETS the last column of the logits, a maximum over the
  columns, and a scatter that ADDS `(1 - α)·k` at the last column. This module reads those three at an index

    • a scatter with one update per row, all at the last column, is `f (operand) (update)` on the last column and the
      operand elsewhere: the fold of pointwise overwrites meets each index at most once, because distinct update
      indices land at distinct operand indices;
    • the maximum over the columns is the fold of `max` over the row;

  and then chains the elementwise readings down to the two rows of the specification, `Spec.logp` and `Spec.logq`.
  The only algebra is commutativity of the sum, `x + 0 = x`, `max ⊥ x = x` and `0 + x = x`, all valid on the
  extended reals.
-/
import proofs.«412391_j58377195487468_2_alg».proof.Proof.Gen.ReferenceIdeal.Read
import proofs.«412391_j58377195487468_2_alg».proof.Proof.Spec
import Idealize.ShloMosaic.PureOps.Ideal.Laws
import Idealize.ShloMosaic.Lib.ValueIdx
import Mathlib.Order.BoundedOrder.Lattice
import Mathlib.Logic.Equiv.Defs
import Mathlib.Data.List.FinRange
import Mathlib.Algebra.BigOperators.Group.Finset.Basic

noncomputable section

namespace Cert.ReferenceIdeal.Rows

open Cert.ReferenceIdeal Cert.ReferenceIdeal.Gen Cert.ReferenceIdeal.Read Idealize.ShloMosaic Idealize.ShloMosaic.ValueIdx Idealize.ShloMosaic.StableHlo

section Fold
variable {ι κ α : Type} [DecidableEq ι]

theorem foldl_overwrite_of_not_mem (g : κ → ι) (f : α → α → α) (u : κ → α)
    (l : List κ) (x : ι → α) (i : ι) (hi : ∀ n ∈ l, g n ≠ i) :
    (l.foldl (fun r n => fun i' => if i' = g n then f (r (g n)) (u n) else r i') x) i = x i := by
  induction l generalizing x with
  | nil => rfl
  | cons a l ih =>
    rw [List.foldl_cons, ih _ (fun n hn => hi n (List.mem_cons_of_mem _ hn))]
    exact if_neg (fun h => hi a List.mem_cons_self h.symm)

theorem foldl_overwrite_of_mem (g : κ → ι) (hg : Function.Injective g) (f : α → α → α) (u : κ → α)
    (l : List κ) (hl : l.Nodup) (x : ι → α) (n0 : κ) (hn : n0 ∈ l) :
    (l.foldl (fun r n => fun i' => if i' = g n then f (r (g n)) (u n) else r i') x) (g n0) = f (x (g n0)) (u n0) := by
  induction l generalizing x with
  | nil => cases hn
  | cons a l ih =>
    rw [List.foldl_cons]
    rcases List.mem_cons.1 hn with rfl | hn'
    · rw [foldl_overwrite_of_not_mem g f u l _ _ (fun n hn2 h => (List.nodup_cons.1 hl).1 (by rw [← hg h]; exact hn2))]
      exact if_pos rfl
    · rw [ih (List.nodup_cons.1 hl).2 _ hn']
      have hne : g n0 ≠ g a := fun h => (List.nodup_cons.1 hl).1 (by rw [← hg h]; exact hn')
      rw [if_neg hne]

theorem foldl_step_of_not_mem (g : κ → ι) (f : α → α → α) (u : κ → α) (step : (ι → α) → κ → (ι → α))
    (hstep : ∀ r n, step r n = fun i' => if i' = g n then f (r (g n)) (u n) else r i')
    (l : List κ) (x : ι → α) (i : ι) (hi : ∀ n ∈ l, g n ≠ i) : (l.foldl step x) i = x i := by
  rw [show step = _ from funext₂ hstep]; exact foldl_overwrite_of_not_mem g f u l x i hi

theorem foldl_step_of_mem (g : κ → ι) (hg : Function.Injective g) (f : α → α → α) (u : κ → α)
    (step : (ι → α) → κ → (ι → α))
    (hstep : ∀ r n, step r n = fun i' => if i' = g n then f (r (g n)) (u n) else r i')
    (l : List κ) (hl : l.Nodup) (x : ι → α) (n0 : κ) (hn : n0 ∈ l) :
    (l.foldl step x) (g n0) = f (x (g n0)) (u n0) := by
  rw [show step = _ from funext₂ hstep]; exact foldl_overwrite_of_mem g hg f u l hl x n0 hn
end Fold

section Scatter
variable {α : Type}

abbrev lastCol : Fin 32000 := ⟨31999, by decide⟩

theorem window_eq (p : Fin 1) (q : Fin 2048) :
    scatter_S1x2048x32000_S1_S1x2048_01_2_2_0.window (ix2 p q) 0 = p.val ∧ scatter_S1x2048x32000_S1_S1x2048_01_2_2_0.window (ix2 p q) 1 = q.val ∧ scatter_S1x2048x32000_S1_S1x2048_01_2_2_0.window (ix2 p q) 2 = 0 :=
  ⟨rfl, rfl, rfl⟩

theorem start_eq (idx : IVec S1 32) (hidx : ∀ k, idx k = 31999#32) (p : Fin 1) (q : Fin 2048) :
    scatter_S1x2048x32000_S1_S1x2048_01_2_2_0.start (ix2 p q) idx 0 = 0 ∧ scatter_S1x2048x32000_S1_S1x2048_01_2_2_0.start (ix2 p q) idx 1 = 0 ∧ scatter_S1x2048x32000_S1_S1x2048_01_2_2_0.start (ix2 p q) idx 2 = 31999 := by
  refine ⟨rfl, rfl, ?_⟩
  unfold ScatterDims.start
  rw [dif_pos (by decide)]
  rw [hidx]; decide

theorem sw_eq (idx : IVec S1 32) (hidx : ∀ k, idx k = 31999#32) (p : Fin 1) (q : Fin 2048) (a : Fin S1x2048x32000.rank) :
    scatter_S1x2048x32000_S1_S1x2048_01_2_2_0.start (ix2 p q) idx a + ((scatter_S1x2048x32000_S1_S1x2048_01_2_2_0.window (ix2 p q) a : Nat) : Int) = (((ix3 p q lastCol : S1x2048x32000.Idx) a).val : Int) := by
  obtain ⟨w0, w1, w2⟩ := window_eq p q
  obtain ⟨s0, s1, s2⟩ := start_eq idx hidx p q
  match a with
  | ⟨0, _⟩ =>
    show scatter_S1x2048x32000_S1_S1x2048_01_2_2_0.start (ix2 p q) idx 0 + ((scatter_S1x2048x32000_S1_S1x2048_01_2_2_0.window (ix2 p q) 0 : Nat) : Int) = ((p.val : Nat) : Int)
    rw [s0, w0, zero_add]
  | ⟨1, _⟩ =>
    show scatter_S1x2048x32000_S1_S1x2048_01_2_2_0.start (ix2 p q) idx 1 + ((scatter_S1x2048x32000_S1_S1x2048_01_2_2_0.window (ix2 p q) 1 : Nat) : Int) = ((q.val : Nat) : Int)
    rw [s1, w1, zero_add]
  | ⟨2, _⟩ =>
    show scatter_S1x2048x32000_S1_S1x2048_01_2_2_0.start (ix2 p q) idx 2 + ((scatter_S1x2048x32000_S1_S1x2048_01_2_2_0.window (ix2 p q) 2 : Nat) : Int) = ((31999 : Nat) : Int)
    rw [s2, w2]; rfl

theorem resultIdx_eq (idx : IVec S1 32) (hidx : ∀ k, idx k = 31999#32) (p : Fin 1) (q : Fin 2048) :
    scatter_S1x2048x32000_S1_S1x2048_01_2_2_0.resultIdx? (ix2 p q) idx = some (ix3 p q lastCol) := by
  unfold ScatterDims.resultIdx?
  have h : ∀ a, 0 ≤ scatter_S1x2048x32000_S1_S1x2048_01_2_2_0.start (ix2 p q) idx a + scatter_S1x2048x32000_S1_S1x2048_01_2_2_0.window (ix2 p q) a
      ∧ scatter_S1x2048x32000_S1_S1x2048_01_2_2_0.start (ix2 p q) idx a + scatter_S1x2048x32000_S1_S1x2048_01_2_2_0.window (ix2 p q) a < S1x2048x32000.size a := by
    intro a
    rw [sw_eq idx hidx p q a]
    exact ⟨Int.natCast_nonneg _, Int.ofNat_lt.2 ((ix3 p q lastCol : S1x2048x32000.Idx) a).isLt⟩
  rw [dif_pos h]
  congr 1
  funext a
  apply Fin.ext
  show (scatter_S1x2048x32000_S1_S1x2048_01_2_2_0.start (ix2 p q) idx a + scatter_S1x2048x32000_S1_S1x2048_01_2_2_0.window (ix2 p q) a).toNat = ((ix3 p q lastCol : S1x2048x32000.Idx) a).val
  rw [sw_eq idx hidx p q a]
  exact Int.toNat_natCast _

/-- The operand index an update index lands at: its row, at the last column. -/
def tgt (j : S1x2048.Idx) : S1x2048x32000.Idx := ix3 (j 0) (j 1) lastCol

theorem tgt_injective : Function.Injective tgt := by
  intro j j' h
  have h0 : j 0 = j' 0 := congrFun h 0
  have h1 : j 1 = j' 1 := congrFun h 1
  rw [eq_ix2 j, eq_ix2 j', h0, h1]

theorem resultIdx_eq_tgt (idx : IVec S1 32) (hidx : ∀ k, idx k = 31999#32) (j : S1x2048.Idx) :
    scatter_S1x2048x32000_S1_S1x2048_01_2_2_0.resultIdx? j idx = some (tgt j) := by
  obtain ⟨a, b, rfl⟩ : ∃ a b, j = ix2 a b := ⟨_, _, eq_ix2 j⟩
  exact resultIdx_eq idx hidx a b

/-- A scatter of one update per row at the last column, read at an index: the body applied to the operand's and the
    update's element on the last column, the operand's element elsewhere. -/
theorem scatter_lastcol_apply (f : α → α → α) (x : S1x2048x32000.Idx → α) (idx : IVec S1 32)
    (hidx : ∀ k, idx k = 31999#32) (upd : S1x2048.Idx → α) (r : Fin 2048) (v : Fin 32000) :
    Host.scatter scatter_S1x2048x32000_S1_S1x2048_01_2_2_0 f x idx upd (ix3 0 r v)
      = if v.val = 31999 then f (x (ix3 0 r v)) (upd (ix2 0 r)) else x (ix3 0 r v) := by
  unfold Host.scatter
  have hg : Function.Injective (fun n : Fin S1x2048.numel => tgt (S1x2048.rowMajor.symm n)) :=
    tgt_injective.comp S1x2048.rowMajor.symm.injective
  by_cases hv : v.val = 31999
  · rw [if_pos hv]
    have hv' : v = lastCol := Fin.ext hv
    subst hv'
    have hi : (ix3 0 r lastCol : S1x2048x32000.Idx)
        = (fun n : Fin S1x2048.numel => tgt (S1x2048.rowMajor.symm n)) (S1x2048.rowMajor (ix2 0 r)) := by
      show _ = tgt (S1x2048.rowMajor.symm (S1x2048.rowMajor (ix2 0 r)))
      rw [Equiv.symm_apply_apply]; rfl
    rw [hi]
    refine (foldl_step_of_mem (fun n : Fin S1x2048.numel => tgt (S1x2048.rowMajor.symm n)) hg f
      (fun n => upd (S1x2048.rowMajor.symm n)) _ (fun r n => ?_) _ (List.nodup_finRange _) x _ (List.mem_finRange _)).trans ?_
    · rw [resultIdx_eq_tgt idx hidx]
    · simp only [Equiv.symm_apply_apply]
  · rw [if_neg hv]
    refine foldl_step_of_not_mem (fun n : Fin S1x2048.numel => tgt (S1x2048.rowMajor.symm n)) f
      (fun n => upd (S1x2048.rowMajor.symm n)) _ (fun r n => ?_) _ x _ (fun n _ h => hv ?_)
    · rw [resultIdx_eq_tgt idx hidx]
    · have h2 : lastCol = v := congrFun h 2
      rw [← h2]
end Scatter

section Reduce

theorem hRed : S1x2048x32000.Reduces [2] S1x2048 := by decide

theorem lift_eq (r : Fin 2048) (k : Fin 32000) : hRed.lift (ix2 0 r) k = ix3 0 r k := by
  funext c
  match c with
  | ⟨0, _⟩ => rfl
  | ⟨1, _⟩ => rfl
  | ⟨2, _⟩ => rfl

/-- The maximum over the columns, read at a row: the fold of `max` from the initial value over the row. -/
theorem reduce_max_apply (y : S1x2048x32000.Idx → EReal) (init : S_.Idx → EReal) (r : Fin 2048) :
    Host.reduce (FloatOps.maximumf (F := Ideal) (φ := .f32)) y init reducesTo_S1x2048x32000_S1x2048_d2 h_S_ (ix2 0 r)
      = (Finset.univ : Finset (Fin 32000)).fold max (init (Shape.Idx.first h_S_)) (fun k => y (ix3 0 r k)) := by
  refine (Host.reduce_eq_fold_single _ y init _ hRed h_S_ (ix2 0 r)).trans ?_
  have e : (y ∘ hRed.lift (ix2 0 r)) = fun k => y (ix3 0 r k) := funext fun k => congrArg y (lift_eq r k)
  rw [e]; rfl

end Reduce

section Rows

theorem one_eq : Ideal.ofBits .f32 0x3F800000#32 = 1 := by
  simp [Ideal.ofBits, Ideal.ieee, -EReal.coe_mul]; norm_num

theorem ninf_eq : Ideal.ofBits .f32 0xFF800000#32 = ⊥ := by simp [Ideal.ofBits, Ideal.ieee]

variable (a0 : FVec Ideal S1x2048x32000 .f32) (a2 : IVec S1x2048 32) (a3 : FVec Ideal S1x2048 .f32) (r : Fin 2048)

/-- The row of logits at position `r`. -/
abbrev rowAt (a0 : FVec Ideal S1x2048x32000 .f32) (r : Fin 2048) : Fin Spec.V → EReal := fun v' => a0 (ix3 0 r v')

theorem v17_eq (k : S1.Idx) : val_main_v17 (F := Ideal) k = 31999#32 := by
  rw [val_main_v17_apply, val_main_c_apply]

theorem v19_apply (v : Fin 32000) : val_main_v19 (F := Ideal) a0 (ix3 0 r v) = Spec.ym (rowAt a0 r) v := by
  unfold val_main_v19
  rw [scatter_lastcol_apply _ _ _ v17_eq _ r v, val_main_v18_apply, val_main_cst_7_apply]
  rfl

theorem v22_apply : val_main_v22 (F := Ideal) a0 (ix2 0 r) = Spec.rmax (rowAt a0 r) := by
  rw [val_main_v22_apply, val_main_v21_apply, val_main_cst_9_apply]
  unfold val_main_v20
  rw [reduce_max_apply, val_main_cst_8_apply]
  simp only [Ideal.ofBits_def, Ideal.maximumf_def, ninf_eq, max_bot_left]
  unfold Spec.rmax
  congr 1
  funext k
  exact v19_apply a0 r k

/-- The row maximum broadcast along the columns. -/
theorem v24_apply (v : Fin 32000) : val_main_v24 (F := Ideal) a0 (ix3 0 r v) = Spec.rmax (rowAt a0 r) := by
  have e24 : idx_main_v24 (ix3 0 r v : S1x2048x32000.Idx) = (ix3 0 r 0 : S1x2048x1.Idx) := by
    funext a; match a with | ⟨0, _⟩ => rfl | ⟨1, _⟩ => rfl | ⟨2, _⟩ => rfl
  have e23 : idx_main_v23 (ix3 0 r 0 : S1x2048x1.Idx) = (ix2 0 r : S1x2048.Idx) := by
    funext a; match a with | ⟨0, _⟩ => rfl | ⟨1, _⟩ => rfl
  rw [val_main_v24_apply, e24, val_main_v23_apply, e23, v22_apply]

/-- The shifted exponentials. -/
theorem v26_apply (v : Fin 32000) : val_main_v26 (F := Ideal) a0 (ix3 0 r v) = Spec.ex (rowAt a0 r) v := by
  rw [val_main_v26_apply, val_main_v25_apply, v19_apply, v24_apply]
  rfl

/-- Their sum over the row. -/
theorem v27_apply : val_main_v27 (F := Ideal) a0 (ix2 0 r) = Spec.zsum (rowAt a0 r) := by
  rw [val_main_v27_apply, val_main_cst_10_apply]
  simp only [Ideal.ofBits_def, Ideal.ofBits_zero_f32, zero_add]
  unfold Spec.zsum
  refine Finset.sum_congr rfl (fun k _ => ?_)
  have e27 : idx_main_v27 (ix2 0 r : S1x2048.Idx) k = (ix3 0 r k : S1x2048x32000.Idx) := by
    funext a; match a with | ⟨0, _⟩ => rfl | ⟨1, _⟩ => rfl | ⟨2, _⟩ => rfl
  rw [e27, v26_apply]

/-- The softmax. -/
theorem v30_apply (v : Fin 32000) : val_main_v30 (F := Ideal) a0 (ix3 0 r v) = Spec.xhat (rowAt a0 r) v := by
  have e29 : idx_main_v29 (ix3 0 r v : S1x2048x32000.Idx) = (ix3 0 r 0 : S1x2048x1.Idx) := by
    funext a; match a with | ⟨0, _⟩ => rfl | ⟨1, _⟩ => rfl | ⟨2, _⟩ => rfl
  have e28 : idx_main_v28 (ix3 0 r 0 : S1x2048x1.Idx) = (ix2 0 r : S1x2048.Idx) := by
    funext a; match a with | ⟨0, _⟩ => rfl | ⟨1, _⟩ => rfl
  rw [val_main_v30_apply, v26_apply, val_main_v29_apply, e29, val_main_v28_apply, e28, v27_apply]
  rfl

/-- The host's sigmoid `1 / (1 + exp (-s))` is the logistic function. -/
theorem v36_apply : val_main_v36 (F := Ideal) a3 (ix2 0 r) = Spec.alpha (a3 (ix2 0 r)) := by
  rw [val_main_v36_apply, val_main_v35_apply, val_main_cst_12_apply, val_main_v34_apply, val_main_v33_apply,
    val_main_cst_11_apply, val_main_v32_apply, val_main_v31_apply]
  simp only [Ideal.hostDivf_def, Ideal.addf_def, Ideal.hostUnary_exp_def, Ideal.hostNegf_def, Ideal.negf_def,
    Ideal.ofBits_def, one_eq]
  rfl

theorem v37_apply : val_main_v37 (F := Ideal) a3 (ix3 0 r 0 : S1x2048x1.Idx) = Spec.alpha (a3 (ix2 0 r)) := by
  have e37 : idx_main_v37 (ix3 0 r 0 : S1x2048x1.Idx) = (ix2 0 r : S1x2048.Idx) := by
    funext a; match a with | ⟨0, _⟩ => rfl | ⟨1, _⟩ => rfl
  rw [val_main_v37_apply, e37, v36_apply]

theorem v38_apply (v : Fin 32000) : val_main_v38 (F := Ideal) a3 (ix3 0 r v) = Spec.alpha (a3 (ix2 0 r)) := by
  have e38 : idx_main_v38 (ix3 0 r v : S1x2048x32000.Idx) = (ix3 0 r 0 : S1x2048x1.Idx) := by
    funext a; match a with | ⟨0, _⟩ => rfl | ⟨1, _⟩ => rfl | ⟨2, _⟩ => rfl
  rw [val_main_v38_apply, e38, v37_apply]

/-- `(1 - α)·u`. -/
theorem v44_apply (v : Fin 32000) : val_main_v44 (F := Ideal) a3 (ix3 0 r v) = Spec.cU (a3 (ix2 0 r)) := by
  have e44 : idx_main_v44 (ix3 0 r v : S1x2048x32000.Idx) = (ix3 0 r 0 : S1x2048x1.Idx) := by
    funext a; match a with | ⟨0, _⟩ => rfl | ⟨1, _⟩ => rfl | ⟨2, _⟩ => rfl
  rw [val_main_v44_apply, e44, val_main_v43_apply, val_main_v41_apply, val_main_v40_apply, val_main_cst_13_apply,
    v37_apply, val_main_v42_apply, val_main_cst_14_apply]
  simp only [Ideal.mulf_def, Ideal.subf_def, Ideal.ofBits_def, one_eq]
  rfl

/-- `α·softmax + (1 - α)·u`. -/
theorem v45_apply (v : Fin 32000) :
    val_main_v45 (F := Ideal) a0 a3 (ix3 0 r v)
      = Spec.alpha (a3 (ix2 0 r)) * Spec.xhat (rowAt a0 r) v + Spec.cU (a3 (ix2 0 r)) := by
  rw [val_main_v45_apply, val_main_v39_apply, v38_apply, v30_apply, v44_apply]
  rfl

/-- `(1 - α)·k`. -/
theorem v50_apply : val_main_v50 (F := Ideal) a3 (ix2 0 r) = Spec.cM (a3 (ix2 0 r)) := by
  have e46 : idx_main_v46 (ix2 0 r : S1x2048.Idx) = (ix3 0 r 0 : S1x2048x1.Idx) := by
    funext a
    match a with
    | ⟨0, _⟩ => rfl
    | ⟨1, _⟩ => exact Fin.ext (by show (0 * 2048 + r.val) / 1 % 2048 = r.val; have := r.isLt; omega)
    | ⟨2, _⟩ => rfl
  rw [val_main_v50_apply, val_main_v48_apply, val_main_v47_apply, val_main_cst_15_apply, val_main_v46_apply, e46,
    v37_apply, val_main_v49_apply, val_main_cst_16_apply]
  simp only [Ideal.mulf_def, Ideal.subf_def, Ideal.ofBits_def, one_eq]
  rfl

theorem v51_eq (k : S1.Idx) : val_main_v51 (F := Ideal) k = 31999#32 := by
  rw [val_main_v51_apply, val_main_c_17_apply]

/-- The logarithm of the noised model distribution, at a row and a column. -/
theorem logp_apply (v : Fin 32000) :
    val_main_v55 (F := Ideal) a0 a3 (ix3 0 r v) = Spec.logp (fun v' => a0 (ix3 0 r v')) (a3 (ix2 0 r)) v := by
  show _ = Spec.logp (rowAt a0 r) (a3 (ix2 0 r)) v
  rw [val_main_v55_apply, val_main_v54_apply, val_main_v53_apply, val_main_cst_18_apply]
  unfold val_main_v52
  rw [scatter_lastcol_apply _ _ _ v51_eq _ r v, v45_apply, v50_apply]
  simp only [Ideal.hostUnary_log_def, Ideal.addf_def, Ideal.ofBits_def]
  unfold Spec.logp
  by_cases hv : v.val = 31999
  · rw [if_pos hv, if_pos hv, add_comm (Spec.cU _)]
  · rw [if_neg hv, if_neg hv, add_zero, add_comm (Spec.cU _)]

/-! ## The label distribution's row -/

/-- The one-hot entry: the comparison's bit, read as a number, is the indicator of equality. -/
theorem onehot_eq (l w : BitVec 32) :
    FloatOps.uitofp (F := Ideal) .f32 (IntOp.cmpi .eq l w) = if l = w then (1 : EReal) else 0 := by
  show (((IntOp.cmpi .eq l w).toNat : ℝ) : EReal) = _
  by_cases h : l = w
  · simp [IntOp.cmpi, h]
  · simp [IntOp.cmpi, h]

theorem v16_apply (v : Fin 32000) :
    val_main_v16 (F := Ideal) a2 (ix3 0 r v) = if a2 (ix2 0 r) = BitVec.ofNat 32 v.val then (1 : EReal) else 0 := by
  have e2 : idx_main_call2_v2 (ix3 0 r v : S1x2048x32000.Idx) = (ix3 0 r 0 : S1x2048x1.Idx) := by
    funext a; match a with | ⟨0, _⟩ => rfl | ⟨1, _⟩ => rfl | ⟨2, _⟩ => rfl
  have e0 : idx_main_call2_v0 (ix3 0 r 0 : S1x2048x1.Idx) = (ix2 0 r : S1x2048.Idx) := by
    funext a; match a with | ⟨0, _⟩ => rfl | ⟨1, _⟩ => rfl
  rw [val_main_v16_apply, val_main_call2_v4_apply, val_main_call2_v2_apply, e2, val_main_call2_v0_apply, e0,
    val_main_call2_v3_apply, val_main_call2_v1_apply, onehot_eq]

theorem v61_apply : val_main_v61 (F := Ideal) a3 (ix2 0 r) = Spec.alpha (a3 (ix2 0 r)) := by
  rw [val_main_v61_apply, val_main_v60_apply, val_main_cst_20_apply, val_main_v59_apply, val_main_v58_apply,
    val_main_cst_19_apply, val_main_v57_apply, val_main_v56_apply]
  simp only [Ideal.hostDivf_def, Ideal.addf_def, Ideal.hostUnary_exp_def, Ideal.hostNegf_def, Ideal.negf_def,
    Ideal.ofBits_def, one_eq]
  rfl

theorem v62_apply : val_main_v62 (F := Ideal) a3 (ix3 0 r 0 : S1x2048x1.Idx) = Spec.alpha (a3 (ix2 0 r)) := by
  have e62 : idx_main_v62 (ix3 0 r 0 : S1x2048x1.Idx) = (ix2 0 r : S1x2048.Idx) := by
    funext a; match a with | ⟨0, _⟩ => rfl | ⟨1, _⟩ => rfl
  rw [val_main_v62_apply, e62, v61_apply]

theorem v63_apply (v : Fin 32000) : val_main_v63 (F := Ideal) a3 (ix3 0 r v) = Spec.alpha (a3 (ix2 0 r)) := by
  have e63 : idx_main_v63 (ix3 0 r v : S1x2048x32000.Idx) = (ix3 0 r 0 : S1x2048x1.Idx) := by
    funext a; match a with | ⟨0, _⟩ => rfl | ⟨1, _⟩ => rfl | ⟨2, _⟩ => rfl
  rw [val_main_v63_apply, e63, v62_apply]

theorem v69_apply (v : Fin 32000) : val_main_v69 (F := Ideal) a3 (ix3 0 r v) = Spec.cU (a3 (ix2 0 r)) := by
  have e69 : idx_main_v69 (ix3 0 r v : S1x2048x32000.Idx) = (ix3 0 r 0 : S1x2048x1.Idx) := by
    funext a; match a with | ⟨0, _⟩ => rfl | ⟨1, _⟩ => rfl | ⟨2, _⟩ => rfl
  rw [val_main_v69_apply, e69, val_main_v68_apply, val_main_v66_apply, val_main_v65_apply, val_main_cst_21_apply,
    v62_apply, val_main_v67_apply, val_main_cst_22_apply]
  simp only [Ideal.mulf_def, Ideal.subf_def, Ideal.ofBits_def, one_eq]
  rfl

/-- `α·[v = l] + (1 - α)·u`. -/
theorem v70_apply (v : Fin 32000) :
    val_main_v70 (F := Ideal) a2 a3 (ix3 0 r v)
      = Spec.alpha (a3 (ix2 0 r)) * (if a2 (ix2 0 r) = BitVec.ofNat 32 v.val then (1 : EReal) else 0)
        + Spec.cU (a3 (ix2 0 r)) := by
  rw [val_main_v70_apply, val_main_v64_apply, v63_apply, v16_apply, v69_apply]
  rfl

theorem v75_apply : val_main_v75 (F := Ideal) a3 (ix2 0 r) = Spec.cM (a3 (ix2 0 r)) := by
  have e71 : idx_main_v71 (ix2 0 r : S1x2048.Idx) = (ix3 0 r 0 : S1x2048x1.Idx) := by
    funext a
    match a with
    | ⟨0, _⟩ => rfl
    | ⟨1, _⟩ => exact Fin.ext (by show (0 * 2048 + r.val) / 1 % 2048 = r.val; have := r.isLt; omega)
    | ⟨2, _⟩ => rfl
  rw [val_main_v75_apply, val_main_v73_apply, val_main_v72_apply, val_main_cst_23_apply, val_main_v71_apply, e71,
    v62_apply, val_main_v74_apply, val_main_cst_24_apply]
  simp only [Ideal.mulf_def, Ideal.subf_def, Ideal.ofBits_def, one_eq]
  rfl

theorem v76_eq (k : S1.Idx) : val_main_v76 (F := Ideal) k = 31999#32 := by
  rw [val_main_v76_apply, val_main_c_25_apply]

/-- The logarithm of the noised label distribution, at a row and a column. -/
theorem logq_apply (v : Fin 32000) :
    val_main_v80 (F := Ideal) a2 a3 (ix3 0 r v) = Spec.logq (a3 (ix2 0 r)) (a2 (ix2 0 r)) v := by
  rw [val_main_v80_apply, val_main_v79_apply, val_main_v78_apply, val_main_cst_26_apply]
  unfold val_main_v77
  rw [scatter_lastcol_apply _ _ _ v76_eq _ r v, v70_apply, v75_apply]
  simp only [Ideal.hostUnary_log_def, Ideal.addf_def, Ideal.ofBits_def]
  unfold Spec.logq
  by_cases hv : v.val = 31999
  · rw [if_pos hv, if_pos hv]
  · rw [if_neg hv, if_neg hv, add_zero]

end Rows

end Cert.ReferenceIdeal.Rows
end
-- ==== Proof.RefTail.lean ====
/-
  The reference program's last stretch, read at a position.

  The program reads the two rows of logarithms, `log(p_v + ε)` and `log(q_v + ε)`, at the observed token's column
  by the same four steps each: a negative column number is wrapped by the number of columns; a mask says whether
  the wrapped number lies in `[0, 31999]`; the row is read at the wrapped number clamped into that range; and the
  value read is kept where the mask is set. For a token in `[0, 32000)` the wrap changes nothing, the mask is set
  and the clamp changes nothing, so what is read is the row at the token's own column.

  The rest is pointwise at a position: the clipped weight `σ(s)·σ(-s)`, the divergence as the sum over the
  columns of `exp(log q)·(log q - log p)`, the importance-sampling divergence from the two values read at the
  token, and the loss `w·KL + (1·w)·D`.

  The two rows of logarithms enter as hypotheses: at every position and column the first array is `log(p_v + ε)`
  and the second `log(q_v + ε)`, as the specification writes them.
-/
import proofs.«412391_j58377195487468_2_alg».proof.Proof.Gen.ReferenceIdeal.Read
import proofs.«412391_j58377195487468_2_alg».proof.Proof.Spec
import Idealize.ShloMosaic.Lib.ValueIdx
import Idealize.ShloMosaic.Lib.StableHlo.Predicate
import Idealize.ShloMosaic.PureOps.Reduce
import Idealize.ShloMosaic.PureOps.Ideal.Laws

noncomputable section

namespace Cert.ReferenceIdeal.Tail

open Cert.ReferenceIdeal Cert.ReferenceIdeal.Gen Cert.ReferenceIdeal.Read Idealize.ShloMosaic Idealize.ShloMosaic.ValueIdx
open Idealize.ShloMosaic.StableHlo

/-! ## A gather along the last axis, one column per row, read at a row -/

/-- The dimension numbers of "one column per row": the row axis a batching axis, the column axis collapsed and
    indexed by the start index. -/
abbrev gd := gather_S1x2048x32000_S2048x1x1_S1x2048x1_0_2_1_0_2_2_111

/-- The gather at row `r` is the operand at `(0, r, c)`, with `c` the row's start index read signed and clamped
    into `[0, 31999]`. On axis 0 only the offset coordinate contributes, on axis 1 only the batching coordinate,
    on axis 2 only the clamped start. -/
theorem gather_apply {α : Type} (x : S1x2048x32000.Idx → α) (idx : IVec S2048x1x1 32) (r : Fin 2048) :
    Host.gather gd x idx (ix3 0 r 0)
      = x (ix3 0 r ⟨min (idx (ix3 r 0 0)).toInt.toNat 31999, by omega⟩) := by
  unfold Host.gather
  congr 1
  funext a
  refine Fin.ext ?_
  show gd.start (ix3 0 r 0) idx a + gd.batchCoord (ix3 0 r 0) a + gd.offCoord (ix3 0 r 0) a = _
  match a with
  | ⟨0, _⟩ =>
    show gd.start (ix3 0 r 0) idx 0 + gd.batchCoord (ix3 0 r 0) 0 + gd.offCoord (ix3 0 r 0) 0 = 0
    have h0 : gd.start (ix3 0 r 0) idx 0 = 0 := by
      unfold GatherDims.start; rw [dif_neg (by decide)]
    have h1 : gd.batchCoord (ix3 0 r 0) 0 = 0 := gd.batchCoord_eq_zero _ _ (by decide)
    have h2 : gd.offCoord (ix3 0 r 0) 0 = 0 := by
      unfold GatherDims.offCoord; rw [dif_pos (by decide)]; rfl
    rw [h0, h1, h2]
  | ⟨1, _⟩ =>
    show gd.start (ix3 0 r 0) idx 1 + gd.batchCoord (ix3 0 r 0) 1 + gd.offCoord (ix3 0 r 0) 1 = r.val
    have h0 : gd.start (ix3 0 r 0) idx 1 = 0 := gd.start_batching _ _ _ (by decide)
    have h1 : gd.batchCoord (ix3 0 r 0) 1 = r.val := by
      unfold GatherDims.batchCoord; rw [dif_pos (by decide)]; rfl
    have h2 : gd.offCoord (ix3 0 r 0) 1 = 0 := gd.offCoord_eq_zero _ _ (by decide)
    rw [h0, h1, h2, Nat.zero_add, Nat.add_zero]
  | ⟨2, _⟩ =>
    show gd.start (ix3 0 r 0) idx 2 + gd.batchCoord (ix3 0 r 0) 2 + gd.offCoord (ix3 0 r 0) 2
      = min (idx (ix3 r 0 0)).toInt.toNat 31999
    have h1 : gd.batchCoord (ix3 0 r 0) 2 = 0 := gd.batchCoord_eq_zero _ _ (by decide)
    have h2 : gd.offCoord (ix3 0 r 0) 2 = 0 := gd.offCoord_eq_zero _ _ (by decide)
    rw [h1, h2]
    unfold GatherDims.start
    rw [dif_pos (by decide)]
    have hsi : gd.siIdx (ix3 0 r 0) ⟨List.idxOf (2 : Fin 3) gd.startIndexMap, List.idxOf_lt_length_iff.2 (by decide)⟩
        = ix3 r 0 0 := by
      funext b; refine Fin.ext ?_
      match b with
      | ⟨0, _⟩ => rfl
      | ⟨1, _⟩ => rfl
      | ⟨2, _⟩ => rfl
    rw [hsi]
    rfl

/-! ## Words: a column number in range -/

/-- A column number in `[0, 32000)` is not negative, so wrapping it leaves it as it is. -/
theorem wrap_eq (z : BitVec 32) (hz : z.toNat < 32000) :
    Scalar.select (IntOp.cmpi .slt z 0#32) (IntOp.addi z 32000#32) z = z := by
  have h : ¬ IntOp.cmpi .slt z 0#32 = 1#1 := fun h => by
    have := (Predicate.slt_iff_toNat (a := z) (b := 0#32) (by omega) (by decide)).1 h
    simp at this
  rw [eq_zero_of_ne_one h, select_zero]

/-- A column number in `[0, 32000)` passes both bounds tests. -/
theorem inb_eq (z : BitVec 32) (hz : z.toNat < 32000) :
    IntOp.andi (IntOp.cmpi .sge z 0#32) (IntOp.cmpi .sle z 31999#32) = 1#1 := by
  have h1 : IntOp.cmpi .sge z 0#32 = 1#1 :=
    (Predicate.sge_iff_toNat (a := z) (b := 0#32) (by omega) (by decide)).2 (by simp)
  have h2 : IntOp.cmpi .sle z 31999#32 = 1#1 :=
    (Predicate.sle_iff_toNat (a := z) (b := 31999#32) (by omega) (by decide)).2 (by
      show z.toNat ≤ 31999; omega)
  rw [h1, h2]; rfl

/-- The clamped signed reading of a column number in range is its value. -/
theorem clamp_eq (z : BitVec 32) (hz : z.toNat < 32000) : min z.toInt.toNat 31999 = z.toNat := by
  rw [Predicate.toInt_eq_toNat_of_lt (by omega), Int.toNat_natCast]; omega

/-! ## A conjunction over an axis of size one -/

instance : Std.Commutative (IntOp.andi (w := 1)) := ⟨fun a b => BitVec.and_comm a b⟩
instance : Std.Associative (IntOp.andi (w := 1)) := ⟨fun a b c => BitVec.and_assoc a b c⟩

/-- The conjunction, from the bit `1`, of a mask that is `1` everywhere is `1`. -/
theorem reduce_and_one (x : IVec S2048x1x1 1) (init : IVec S_ 1) (hx : ∀ i, x i = 1#1)
    (hi : ∀ i, init i = 1#1) (j : S2048x1.Idx) :
    Host.reduce IntOp.andi x init reducesTo_S2048x1x1_S2048x1_d2 h_S_ j = 1#1 := by
  rw [Host.reduce_eq_fold_single IntOp.andi x init reducesTo_S2048x1x1_S2048x1_d2 (by decide) h_S_ j, hi]
  have hc : x ∘ (Shape.Reduces.lift (s := S2048x1x1) (a := 2) (t := S2048x1) (by decide) j) = fun _ => 1#1 :=
    funext fun k => hx _
  rw [hc]
  show (Finset.univ : Finset (Fin 1)).fold IntOp.andi 1#1 (fun _ => 1#1) = 1#1
  rfl

/-! ## The two rows read at the observed token -/

section Reads

variable (a0 : FVec Ideal S1x2048x32000 .f32) (a1 a2 : IVec S1x2048 32) (a3 : FVec Ideal S1x2048 .f32)

/-- The wrapped column number of row `r` is the token itself. -/
theorem wrapped3 (hz : ∀ i : S1x2048.Idx, (a1 i).toNat < 32000) (r : Fin 2048) :
    val_main_call3_v5 (F := Ideal) a1 (ix3 r 0 0) = a1 (ix2 0 r) := by
  have hi : idx_main_v81 (idx_main_call3_v5 (ix3 r 0 0)) = ix2 0 r := by
    funext a
    match a with
    | ⟨0, _⟩ => rfl
    | ⟨1, _⟩ => exact Fin.ext (by show ((r.val * 1 + 0) * 1 + 0) / 1 % 2048 = r.val; have := r.isLt; omega)
  rw [val_main_call3_v5_apply, val_main_call3_v4_apply, val_main_call3_v1_apply, val_main_call3_v3_apply,
    val_main_v81_apply, val_main_call3_v0_apply, val_main_call3_c_apply, val_main_call3_v2_apply,
    val_main_call3_c_0_apply, hi]
  exact wrap_eq _ (hz _)

/-- The bounds mask is set on every row. -/
theorem mask3 (hz : ∀ i : S1x2048.Idx, (a1 i).toNat < 32000) (j : S2048x1.Idx) :
    val_main_call3_v12 (F := Ideal) a1 j = 1#1 := by
  unfold val_main_call3_v12
  refine reduce_and_one _ _ (fun i => ?_) (fun i => rfl) j
  obtain ⟨r, p, q, rfl⟩ : ∃ (r : Fin 2048) (p q : Fin 1), i = ix3 r p q := ⟨i 0, i 1, i 2, eq_ix3 i⟩
  obtain rfl : p = 0 := Subsingleton.elim _ _
  obtain rfl : q = 0 := Subsingleton.elim _ _
  rw [val_main_call3_v11_apply, val_main_call3_v7_apply, val_main_call3_v10_apply, wrapped3 a1 hz r,
    val_main_call3_v6_apply, val_main_call3_c_2_apply, val_main_call3_v9_apply, val_main_call3_v8_apply,
    val_main_call3_c_1_apply]
  exact inb_eq _ (hz _)

/-- The second call computes the same wrapped column numbers and the same mask: its operations are the first
    call's, on the same argument. -/
theorem wrapped4_eq : val_main_call4_v5 (F := Ideal) a1 = val_main_call3_v5 (F := Ideal) a1 := rfl
theorem mask4_eq : val_main_call4_v12 (F := Ideal) a1 = val_main_call3_v12 (F := Ideal) a1 := rfl

/-- Position `(0, r)` of a `[1, 2048]` array comes from position `(0, r, 0)` of the `[1, 2048, 1]` one. -/
theorem idx83 (r : Fin 2048) : idx_main_v83 (ix2 0 r) = ix3 0 r 0 := by
  funext a
  match a with
  | ⟨0, _⟩ => rfl
  | ⟨1, _⟩ => exact Fin.ext (by show ((0 : ℕ) * 2048 + r.val) / 1 % 2048 = r.val; have := r.isLt; omega)
  | ⟨2, _⟩ => rfl

theorem idx86 (r : Fin 2048) : idx_main_v86 (ix2 0 r) = ix3 0 r 0 := idx83 r

/-- A row read at the clamped wrapped column number is the row read at the token. -/
theorem sel_of_clamp (L : Fin Spec.V → EReal) (z w : BitVec 32) (hw : w = z) (hz : z.toNat < 32000)
    (h : min w.toInt.toNat 31999 < 32000) :
    L ⟨min w.toInt.toNat 31999, h⟩ = Spec.sel L z := by
  subst hw
  unfold Spec.sel
  congr 1
  refine Fin.ext ?_
  show min w.toInt.toNat 31999 = w.toNat % 32000
  rw [clamp_eq _ hz, Nat.mod_eq_of_lt hz]

/-- `log(p + ε)` read at the observed token. -/
theorem read3 (hz : ∀ i : S1x2048.Idx, (a1 i).toNat < 32000)
    (hP : ∀ r v, val_main_v55 (F := Ideal) a0 a3 (ix3 0 r v) = Spec.logp (fun v' => a0 (ix3 0 r v')) (a3 (ix2 0 r)) v)
    (r : Fin 2048) :
    val_main_v83 (F := Ideal) a0 a1 a3 (ix2 0 r)
      = Spec.sel (Spec.logp (fun v' => a0 (ix3 0 r v')) (a3 (ix2 0 r))) (a1 (ix2 0 r)) := by
  rw [val_main_v83_apply, idx83, val_main_v82_apply, val_main_call3_v14_apply, mask3 a1 hz, select_one]
  unfold val_main_call3_v13
  rw [gather_apply, hP]
  exact sel_of_clamp _ _ _ (wrapped3 a1 hz r) (hz _) _

/-- `log(q + ε)` read at the observed token. -/
theorem read4 (hz : ∀ i : S1x2048.Idx, (a1 i).toNat < 32000)
    (hQ : ∀ r v, val_main_v80 (F := Ideal) a2 a3 (ix3 0 r v) = Spec.logq (a3 (ix2 0 r)) (a2 (ix2 0 r)) v)
    (r : Fin 2048) :
    val_main_v86 (F := Ideal) a1 a2 a3 (ix2 0 r)
      = Spec.sel (Spec.logq (a3 (ix2 0 r)) (a2 (ix2 0 r))) (a1 (ix2 0 r)) := by
  rw [val_main_v86_apply, idx86, val_main_v85_apply, val_main_call4_v14_apply, mask4_eq, mask3 a1 hz, select_one]
  unfold val_main_call4_v13
  rw [gather_apply, hQ, wrapped4_eq]
  exact sel_of_clamp _ _ _ (wrapped3 a1 hz r) (hz _) _

end Reads

/-! ## The weight, the divergence and the loss at a position -/

/-- The word of `1.0` denotes `1`. -/
theorem one_bits : Ideal.ofBits .f32 0x3F800000#32 = (1 : EReal) := by
  simp [Ideal.ofBits, Ideal.ieee, -EReal.coe_mul]; norm_num

section Tail

variable (a0 : FVec Ideal S1x2048x32000 .f32) (a1 a2 : IVec S1x2048 32) (a3 : FVec Ideal S1x2048 .f32)

/-- The clipped weight: `min(1000, max(0, σ(s)·σ(-s)))`, each logistic spelt `1/(1 + exp(-·))`. -/
theorem weight (i : S1x2048.Idx) : val_main_v15 (F := Ideal) a3 i = Spec.wgt (a3 i) := by
  simp only [val_main_v15_apply, val_main_call1_v4_apply, val_main_call1_v3_apply, val_main_cst_6_apply,
    val_main_call1_v2_apply, val_main_call1_v1_apply, val_main_call1_v0_apply, val_main_cst_5_apply,
    val_main_v13_apply, val_main_v5_apply, val_main_v4_apply, val_main_cst_0_apply, val_main_v3_apply,
    val_main_v2_apply, val_main_cst_apply, val_main_v1_apply, val_main_v0_apply,
    val_main_v12_apply, val_main_v11_apply, val_main_cst_2_apply, val_main_v10_apply, val_main_v9_apply,
    val_main_cst_1_apply, val_main_v8_apply, val_main_v7_apply, val_main_v6_apply]
  show min (Ideal.ofBits .f32 0x447A0000#32) (max (Ideal.ofBits .f32 0x00000000#32)
    (Ideal.div (Ideal.ofBits .f32 0x3F800000#32) (Ideal.ofBits .f32 0x3F800000#32 + Ideal.exp (-(a3 i)))
      * Ideal.div (Ideal.ofBits .f32 0x3F800000#32) (Ideal.ofBits .f32 0x3F800000#32 + Ideal.exp (-(-(a3 i)))))) = _
  rw [one_bits, Ideal.ofBits_zero_f32]
  rfl

/-- Column `k` of position `(0, r)`. -/
theorem idx99 (r : Fin 2048) (k : Fin 32000) : idx_main_v99 (ix2 0 r) k = ix3 0 r k := by
  funext a
  match a with
  | ⟨0, _⟩ => rfl
  | ⟨1, _⟩ => rfl
  | ⟨2, _⟩ => rfl

/-- The divergence: the sum over the columns of `exp(log q)·(log q - log p)`, from `0`. -/
theorem kl
    (hP : ∀ r v, val_main_v55 (F := Ideal) a0 a3 (ix3 0 r v) = Spec.logp (fun v' => a0 (ix3 0 r v')) (a3 (ix2 0 r)) v)
    (hQ : ∀ r v, val_main_v80 (F := Ideal) a2 a3 (ix3 0 r v) = Spec.logq (a3 (ix2 0 r)) (a2 (ix2 0 r)) v)
    (r : Fin 2048) :
    val_main_v99 (F := Ideal) a0 a2 a3 (ix2 0 r)
      = Spec.klSum (Spec.logp (fun v' => a0 (ix3 0 r v')) (a3 (ix2 0 r))) (a3 (ix2 0 r)) (a2 (ix2 0 r)) := by
  rw [val_main_v99_apply, val_main_cst_29_apply]
  unfold Spec.klSum
  show Ideal.ofBits .f32 0x00000000#32 + _ = _
  rw [Ideal.ofBits_zero_f32]
  refine congrArg (0 + ·) (Finset.sum_congr rfl fun k _ => ?_)
  rw [idx99, val_main_v98_apply, val_main_v96_apply, val_main_v97_apply, hP, hQ]
  rfl

/-- The importance-sampling divergence from the two logarithms read at the token. -/
theorem isdiv (hz : ∀ i : S1x2048.Idx, (a1 i).toNat < 32000)
    (hP : ∀ r v, val_main_v55 (F := Ideal) a0 a3 (ix3 0 r v) = Spec.logp (fun v' => a0 (ix3 0 r v')) (a3 (ix2 0 r)) v)
    (hQ : ∀ r v, val_main_v80 (F := Ideal) a2 a3 (ix3 0 r v) = Spec.logq (a3 (ix2 0 r)) (a2 (ix2 0 r)) v)
    (r : Fin 2048) :
    val_main_v95 (F := Ideal) a0 a1 a2 a3 (ix2 0 r)
      = Spec.isDiv (Spec.sel (Spec.logq (a3 (ix2 0 r)) (a2 (ix2 0 r))) (a1 (ix2 0 r)))
          (Spec.sel (Spec.logp (fun v' => a0 (ix3 0 r v')) (a3 (ix2 0 r))) (a1 (ix2 0 r))) := by
  rw [val_main_v95_apply, val_main_v93_apply, val_main_v91_apply, val_main_v92_apply, val_main_v87_apply,
    val_main_v90_apply, val_main_v88_apply, val_main_v89_apply, val_main_cst_27_apply, val_main_v94_apply,
    val_main_cst_28_apply, read3 a0 a1 a3 hz hP r, read4 a1 a2 a3 hz hQ r]
  simp only [Ideal.ofBits_def, one_bits]
  rfl

/-- THE REFERENCE'S RESULT: at every position the loss `w·KL + (1·w)·D` of the program that sums over the columns. -/
theorem ref_value
    (hP : ∀ r v, val_main_v55 (F := Ideal) a0 a3 (ix3 0 r v) = Spec.logp (fun v' => a0 (ix3 0 r v')) (a3 (ix2 0 r)) v)
    (hQ : ∀ r v, val_main_v80 (F := Ideal) a2 a3 (ix3 0 r v) = Spec.logq (a3 (ix2 0 r)) (a2 (ix2 0 r)) v)
    (hz : ∀ i : S1x2048.Idx, (a1 i).toNat < 32000) :
    val_main_v104 (F := Ideal) a0 a1 a2 a3 = Spec.outSum a0 a1 a2 a3 := by
  funext i
  obtain ⟨p, r, rfl⟩ : ∃ (p : Fin 1) (r : Fin 2048), i = ix2 p r := ⟨i 0, i 1, eq_ix2 i⟩
  obtain rfl : p = 0 := Subsingleton.elim _ _
  rw [val_main_v104_apply, val_main_v100_apply, val_main_v103_apply, val_main_v102_apply, val_main_v101_apply,
    val_main_cst_30_apply, weight, kl a0 a2 a3 hP hQ r, isdiv a0 a1 a2 a3 hz hP hQ r]
  simp only [Ideal.ofBits_def, one_bits]
  rfl

end Tail

end Cert.ReferenceIdeal.Tail
end
-- ==== Proof.PreDecode.lean ====
/-
  The precondition, read back. The printed predicate is a conjunction of six "for all entries" statements, each a
  reduction by `and` over every axis of an array of bits: |x| < +∞ at every entry of the two float arrays, and
  0 ≤ w and w < 32000 (both read signed) at every entry of the two integer arrays. If the predicate is 1 then each
  of the six reductions is 1, so each bit is 1 at every entry; an extended real whose absolute value lies below +∞ is
  a real, and a 32-bit word that is non-negative and below 32000 as a signed number has value below 32000.
-/
import proofs.«412391_j58377195487468_2_alg».proof.Pre_finite_inputs
import proofs.«412391_j58377195487468_2_alg».proof.Proof.Gen.Pre_finite_inputs
import Idealize.ShloMosaic.Lib.ReduceAll
import Idealize.ShloMosaic.Lib.StableHlo.Predicate
import Idealize.ShloMosaic.PureOps.Ideal

namespace Cert.PreDecode

open Idealize.ShloMosaic

/-- The shape of rank 0 has exactly one index. -/
instance subsingleton_scalar_idx : Subsingleton Cert.Pre_finite_inputs.S_.Idx :=
  ⟨fun a b => funext fun d => d.elim0⟩

/-- An extended real x with max x (−x) < +∞ is neither +∞ nor −∞, hence a real. The pattern 0x7F800000 denotes +∞. -/
theorem real_of_abs_lt_top (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  have hlt : max (x : EReal) (-(x : EReal)) < ⊤ := by
    simpa [StableHlo.Predicate.ofBool_eq_one_iff] using h
  rw [max_lt_iff] at hlt
  induction x using EReal.rec with
  | bot => exact absurd hlt.2 (by simp)
  | coe r => exact ⟨r, rfl⟩
  | top => exact absurd hlt.1 (by simp)

/-- A 32-bit word w with 0 ≤ w and w < 32000, both as signed numbers, has sign bit clear, so its unsigned value is its
    signed value and lies below 32000. -/
theorem toNat_lt_of_signed_range (x : BitVec 32) (h0 : IntOp.cmpi .sge x 0#32 = 1#1)
    (h1 : IntOp.cmpi .slt x 32000#32 = 1#1) : x.toNat < 32000 := by
  unfold IntOp.cmpi at h0 h1
  simp only [StableHlo.Predicate.ofBool_eq_one_iff, BitVec.sle, BitVec.slt, decide_eq_true_eq] at h0 h1
  have e0 : (0#32 : BitVec 32).toInt = 0 := by decide
  have e1 : (32000#32 : BitVec 32).toInt = 32000 := by decide
  rw [e0] at h0
  rw [e1] at h1
  rw [BitVec.toInt_eq_toNat_cond] at h0 h1
  have := x.isLt
  split at h0 <;> omega

/-- The precondition being 1 says: every entry of the two float arrays is a real, and every entry of the two integer
    arrays has value below 32000. -/
theorem pre_decode [Cert.Pre_finite_inputs.Facts]
    (a0 : FVec Ideal Cert.Pre_finite_inputs.S1x2048x32000 .f32) (a1 a2 : IVec Cert.Pre_finite_inputs.S1x2048 32)
    (a3 : FVec Ideal Cert.Pre_finite_inputs.S1x2048 .f32)
    (h : Cert.Pre_finite_inputs.fn (F := Ideal) a0 a1 a2 a3 = fun _ => 1#1) :
    (∀ i, ∃ r : ℝ, a0 i = (r : EReal)) ∧ (∀ i, ∃ r : ℝ, a3 i = (r : EReal)) ∧ (∀ i, (a2 i).toNat < 32000)
      ∧ (∀ i, (a1 i).toNat < 32000) := by
  -- the predicate at its one index, as a conjunction of six reductions
  have h' := congrFun h (fun a => a.elim0)
  dsimp only [Cert.Pre_finite_inputs.fn, Cert.Pre_finite_inputs.fn_part1] at h'
  simp only [andi, IntOp.andi_eq_one] at h'
  obtain ⟨⟨⟨⟨⟨hf0, hf3⟩, hge2⟩, hlt2⟩, hge1⟩, hlt1⟩ := h'
  refine ⟨fun i => ?_, fun i => ?_, fun i => ?_, fun i => ?_⟩
  · exact real_of_abs_lt_top (a0 i) (Host.reduce_andi_all _ _ _ _ _ hf0 i)
  · exact real_of_abs_lt_top (a3 i) (Host.reduce_andi_all _ _ _ _ _ hf3 i)
  · exact toNat_lt_of_signed_range (a2 i) (Host.reduce_andi_all _ _ _ _ _ hge2 i)
      (Host.reduce_andi_all _ _ _ _ _ hlt2 i)
  · exact toNat_lt_of_signed_range (a1 i) (Host.reduce_andi_all _ _ _ _ _ hge1 i)
      (Host.reduce_andi_all _ _ _ _ _ hlt1 i)

end Cert.PreDecode
-- ==== Proof.MathRow.lean ====
/-
  The arithmetic of one row, over the extended reals.

  Every quantity the per-row specification builds from a row of real logits and a real log signal-to-noise ratio is a
  real number: the mixing weight lies strictly between 0 and 1, the masked row's maximum over its (nonempty) set of
  columns is real, the shifted exponentials and their sum are positive, the softmax is nonnegative, and so the argument
  of every logarithm of the model's distribution is a positive real. Two further facts are purely combinatorial: a sum
  against the indicator of one column reads the row at that column, and the logarithm of the label's distribution at a
  token, spelled with two comparisons of the token, is the row of such logarithms read at the token.
-/
import proofs.«412391_j58377195487468_2_alg».proof.Proof.Spec
import Idealize.ShloMosaic.PureOps.Ideal
import Mathlib.Data.EReal.Basic
import Mathlib.Data.EReal.Operations
import Mathlib.Data.Finset.Fold
import Mathlib.Algebra.BigOperators.Group.Finset.Basic
import Mathlib.Analysis.SpecialFunctions.Exp
import Mathlib.Analysis.SpecialFunctions.Log.Basic

noncomputable section

namespace Cert.Spec

open Idealize.ShloMosaic

/-! ## The constants -/

theorem one_eq : Ideal.ofBits .f32 0x3F800000#32 = (1 : EReal) := by
  simp [Ideal.ofBits, Ideal.ieee, -EReal.coe_mul]; norm_num

theorem zero_eq : Ideal.ofBits .f32 0x00000000#32 = (0 : EReal) := by
  simp [Ideal.ofBits, Ideal.ieee]

theorem negInf_eq : Ideal.ofBits .f32 0xFF800000#32 = (⊥ : EReal) := by
  simp [Ideal.ofBits, Ideal.ieee]

theorem k31998_eq : k31998 = ((31998 : ℝ) : EReal) := by
  simp [Ideal.ofBits, Ideal.ieee, -EReal.coe_mul]; norm_num

theorem k31999_eq : k31999 = ((31999 : ℝ) : EReal) := by
  simp [Ideal.ofBits, Ideal.ieee, -EReal.coe_mul]; norm_num

/-- `13743895 · 2⁻⁴³`. -/
theorem kU_val : kU = ((13743895 * (2 : ℝ) ^ (-43 : ℤ) : ℝ) : EReal) := by
  simp [Ideal.ofBits, Ideal.ieee, -EReal.coe_mul]

/-- `15938355 · 2⁻²⁴`. -/
theorem kM_val : kM = ((15938355 * (2 : ℝ) ^ (-24 : ℤ) : ℝ) : EReal) := by
  simp [Ideal.ofBits, Ideal.ieee, -EReal.coe_mul]

/-- `9223372 · 2⁻⁶³`. -/
theorem eps_val : eps = ((9223372 * (2 : ℝ) ^ (-63 : ℤ) : ℝ) : EReal) := by
  simp [Ideal.ofBits, Ideal.ieee, -EReal.coe_mul]

/-- `-10⁶`. -/
theorem negBig_val : negBig = (((-1000000 : ℝ)) : EReal) := by
  simp [Ideal.ofBits, Ideal.ieee, -EReal.coe_mul]; norm_num

/-- `10³`. -/
theorem kClip_val : kClip = ((1000 : ℝ) : EReal) := by
  simp [Ideal.ofBits, Ideal.ieee, -EReal.coe_mul]; norm_num

theorem kU_pos : ∃ r : ℝ, 0 < r ∧ kU = (r : EReal) := ⟨_, by positivity, kU_val⟩
theorem kM_pos : ∃ r : ℝ, 0 < r ∧ kM = (r : EReal) := ⟨_, by positivity, kM_val⟩
theorem eps_pos : ∃ r : ℝ, 0 < r ∧ eps = (r : EReal) := ⟨_, by positivity, eps_val⟩
theorem negBig_real : ∃ r : ℝ, negBig = (r : EReal) := ⟨_, negBig_val⟩
theorem kClip_real : ∃ r : ℝ, kClip = (r : EReal) := ⟨_, kClip_val⟩

/-! ## The mixing weight and the two coefficients made from it -/

/-- At a real argument the logistic function is `(1 + e^{-r})⁻¹`, strictly between 0 and 1. -/
theorem alpha_real (s : EReal) (hs : ∃ r : ℝ, s = r) : ∃ a : ℝ, 0 < a ∧ a < 1 ∧ alpha s = (a : EReal) := by
  obtain ⟨r, rfl⟩ := hs
  have h1 : (1 : ℝ) < 1 + Real.exp (-r) := by linarith [Real.exp_pos (-r)]
  exact ⟨(1 + Real.exp (-r))⁻¹, inv_pos.mpr (by linarith), inv_lt_one_of_one_lt₀ h1,
    by rw [alpha, Ideal.logistic_coe]⟩

/-- `(1 - α)·u` is a positive real. -/
theorem cU_real (s : EReal) (hs : ∃ r : ℝ, s = r) : ∃ c : ℝ, 0 < c ∧ cU s = (c : EReal) := by
  obtain ⟨a, _, ha1, ha⟩ := alpha_real s hs
  obtain ⟨u, hu0, hu⟩ := kU_pos
  refine ⟨(1 - a) * u, mul_pos (by linarith) hu0, ?_⟩
  rw [cU, ha, hu]; norm_cast

/-- `(1 - α)·k` is a positive real. -/
theorem cM_real (s : EReal) (hs : ∃ r : ℝ, s = r) : ∃ m : ℝ, 0 < m ∧ cM s = (m : EReal) := by
  obtain ⟨a, _, ha1, ha⟩ := alpha_real s hs
  obtain ⟨k, hk0, hk⟩ := kM_pos
  refine ⟨(1 - a) * k, mul_pos (by linarith) hk0, ?_⟩
  rw [cM, ha, hk]; norm_cast

/-! ## Sums and maxima of finitely many reals -/

/-- A finite sum of reals, taken in the extended reals, is the real sum. -/
theorem sum_coe {ι : Type*} (t : Finset ι) (g : ι → ℝ) :
    ∑ i ∈ t, (g i : EReal) = ((∑ i ∈ t, g i : ℝ) : EReal) := by
  classical
  induction t using Finset.induction_on with
  | empty => simp
  | insert a t ha ih => rw [Finset.sum_insert ha, Finset.sum_insert ha, ih, EReal.coe_add]

/-- The maximum, folded from `⊥`, of a nonempty finite family of reals is a real. -/
theorem fold_max_real {ι : Type*} (t : Finset ι) (ht : t.Nonempty) (g : ι → ℝ) :
    ∃ M : ℝ, t.fold max (⊥ : EReal) (fun i => (g i : EReal)) = (M : EReal) := by
  induction ht using Finset.Nonempty.cons_induction with
  | singleton a => exact ⟨g a, by simp⟩
  | cons a t ha _ ih =>
    obtain ⟨M, hM⟩ := ih
    exact ⟨max (g a) M, by rw [Finset.fold_cons, hM]; exact (EReal.coe_strictMono.monotone.map_max).symm⟩

/-! ## The row of the model's distribution -/

section Row

variable (x : Fin V → EReal) (hx : ∀ v, ∃ r : ℝ, x v = r)
include hx

/-- The masked row is a row of reals. -/
theorem ym_real : ∃ y : Fin V → ℝ, ∀ v, ym x v = (y v : EReal) := by
  choose xr hxr using hx
  obtain ⟨nb, hnb⟩ := negBig_real
  refine ⟨fun v => if v.val = 31999 then nb else xr v, fun v => ?_⟩
  show ym x v = ((if v.val = 31999 then nb else xr v : ℝ) : EReal)
  unfold ym
  split_ifs
  · exact hnb
  · exact hxr v

/-- Its maximum is a real: there are columns. -/
theorem rmax_real : ∃ M : ℝ, rmax x = (M : EReal) := by
  obtain ⟨y, hy⟩ := ym_real x hx
  have hfun : ym x = fun v => (y v : EReal) := funext hy
  rw [rmax, hfun]
  exact fold_max_real _ ⟨⟨0, by decide⟩, Finset.mem_univ _⟩ y

/-- Each shifted exponential is a positive real. -/
theorem ex_real (v : Fin V) : ∃ e : ℝ, 0 < e ∧ ex x v = (e : EReal) := by
  obtain ⟨y, hy⟩ := ym_real x hx
  obtain ⟨M, hM⟩ := rmax_real x hx
  exact ⟨Real.exp (y v - M), Real.exp_pos _, by rw [ex, hy, hM, ← EReal.coe_sub, Ideal.exp_coe]⟩

/-- Their sum is a positive real. -/
theorem zsum_real : ∃ Z : ℝ, 0 < Z ∧ zsum x = (Z : EReal) := by
  choose e he0 he using ex_real x hx
  refine ⟨∑ v : Fin V, e v, Finset.sum_pos (fun v _ => he0 v) ⟨⟨0, by decide⟩, Finset.mem_univ _⟩, ?_⟩
  rw [zsum, ← sum_coe]
  exact Finset.sum_congr rfl (fun v _ => he v)

/-- The softmax is a nonnegative real. -/
theorem xhat_real (v : Fin V) : ∃ h : ℝ, 0 ≤ h ∧ xhat x v = (h : EReal) := by
  obtain ⟨e, he0, he⟩ := ex_real x hx v
  obtain ⟨Z, hZ0, hZ⟩ := zsum_real x hx
  refine ⟨e * (1 / Z), mul_nonneg he0.le (by positivity), ?_⟩
  rw [xhat, he, hZ, Ideal.div_coe hZ0.ne', ← EReal.coe_mul]

/-- The logarithm of the model's probability plus `ε` is a real: its argument is a positive real. -/
theorem logp_real (s : EReal) (hs : ∃ r : ℝ, s = r) : ∀ v, ∃ r : ℝ, logp x s v = (r : EReal) := by
  intro v
  obtain ⟨a, ha0, _, ha⟩ := alpha_real s hs
  obtain ⟨c, hc0, hc⟩ := cU_real s hs
  obtain ⟨m, hm0, hm⟩ := cM_real s hs
  obtain ⟨e, he0, he⟩ := eps_pos
  obtain ⟨h, hh0, hh⟩ := xhat_real x hx v
  have key : ((cU s + alpha s * xhat x v) + (if v.val = 31999 then cM s else 0)) + eps
      = (((c + a * h) + (if v.val = 31999 then m else 0) + e : ℝ) : EReal) := by
    rw [hc, ha, hh, hm, he]
    by_cases hv : v.val = 31999
    · rw [if_pos hv, if_pos hv, EReal.coe_add, EReal.coe_add, EReal.coe_add, EReal.coe_mul]
    · rw [if_neg hv, if_neg hv, EReal.coe_add, EReal.coe_add, EReal.coe_add, EReal.coe_mul, EReal.coe_zero]
  have hpos : 0 < (c + a * h) + (if v.val = 31999 then m else 0) + e := by
    have h1 : 0 ≤ (if v.val = 31999 then m else 0) := by
      split_ifs
      · exact hm0.le
      · exact le_rfl
    have h2 := mul_nonneg ha0.le hh0
    linarith
  exact ⟨Real.log ((c + a * h) + (if v.val = 31999 then m else 0) + e),
    by rw [logp, key, Ideal.log_coe, if_neg (not_le.mpr hpos)]⟩

end Row

/-! ## Reading a row at a word -/

/-- A column's number, as a word, is the word `k` exactly when it is `k`'s value: column numbers fit in a word. -/
theorem ofNat_eq_iff (v : Fin V) (k : BitVec 32) : BitVec.ofNat 32 v.val = k ↔ v.val = k.toNat := by
  have hv : v.val < 32000 := v.isLt
  constructor
  · intro h
    rw [← h, BitVec.toNat_ofNat]
    omega
  · intro h
    apply BitVec.eq_of_toNat_eq
    rw [BitVec.toNat_ofNat, h]
    have := k.isLt
    omega

/-- The sum against the indicator of one column is the row at that column. -/
theorem pick_eq_sel (L : Fin V → EReal) (k : BitVec 32) (hk : k.toNat < 32000) : pick L k = sel L k := by
  have hmod : k.toNat % V = k.toNat := Nat.mod_eq_of_lt hk
  unfold pick sel
  rw [Finset.sum_eq_single (⟨k.toNat % V, Nat.mod_lt _ (by decide)⟩ : Fin V)]
  · rw [if_pos]
    exact (ofNat_eq_iff _ _).mpr hmod
  · intro b _ hb
    rw [if_neg]
    intro h
    apply hb
    apply Fin.ext
    rw [(ofNat_eq_iff b k).mp h]
    exact hmod.symm
  · intro h
    exact absurd (Finset.mem_univ _) h

/-- The label distribution's logarithm at a token, from the two comparisons of the token. -/
theorem lqz_eq (s : EReal) (l z : BitVec 32) (hz : z.toNat < 32000) : lqz s l z = sel (logq s l) z := by
  have hmod : z.toNat % V = z.toNat := Nat.mod_eq_of_lt hz
  have hof : BitVec.ofNat 32 (z.toNat % V) = z :=
    (ofNat_eq_iff ⟨z.toNat % V, Nat.mod_lt _ (by decide)⟩ z).mpr hmod
  have hlast : z = lastW ↔ z.toNat % V = 31999 := by
    rw [hmod]
    constructor
    · intro h; rw [h]; rfl
    · intro h; apply BitVec.eq_of_toNat_eq; rw [h]; rfl
  have e1 : alpha s * (if z = l then 1 else 0) = alpha s * (if l = z then 1 else 0) := by
    by_cases h : z = l
    · rw [if_pos h, if_pos h.symm]
    · rw [if_neg h, if_neg (fun h' => h h'.symm)]
  have e2 : cM s * (if z = lastW then 1 else 0) = if z.toNat % V = 31999 then cM s else 0 := by
    by_cases h : z = lastW
    · rw [if_pos h, if_pos (hlast.mp h), mul_one]
    · rw [if_neg h, if_neg (fun h' => h (hlast.mpr h')), mul_zero]
  simp only [lqz, sel, logq, hof]
  rw [e1, e2, add_comm (cU s)]

end Cert.Spec

end
-- ==== Proof.MathKL.lean ====
/-
  The divergence between the noised label distribution and the model's distribution on one row: the closed
  form and the sum over the columns are one extended real.

  With `a = α(s)` in `(0,1)`, `c = (1-a)·u > 0`, `m = (1-a)·k > 0` and `ε > 0`, the row
  `q_v + ε = ((a·[v = l] + c) + m·[v = last]) + ε` takes the value `c+ε` off the label's column and the last
  column, `c+a+ε` at the label's column, `c+m+ε` at the last column, and `c+a+m+ε` where the two coincide.
  All four are positive reals, so `exp (log (q_v+ε)) = q_v+ε` and every term of the sum is the coercion of a real
  number. Over the reals `Σ_v (q_v+ε)·(log(q_v+ε) - L_v) = Σ_v (q_v+ε)·log(q_v+ε) - Σ_v (q_v+ε)·L_v`; the first sum
  is that of a function with at most three values, and the second is `(c+ε)·Σ_v L_v + a·L_l + m·L_last`.
-/
import proofs.«412391_j58377195487468_2_alg».proof.Proof.Spec
import Mathlib.Analysis.SpecialFunctions.Log.Basic
import Mathlib.Algebra.BigOperators.Group.Finset.Basic
import Mathlib.Algebra.BigOperators.Ring.Finset
import Mathlib.Data.EReal.Operations
import Mathlib.Tactic.Ring
import Mathlib.Tactic.Positivity

noncomputable section

namespace Cert.Spec

open Idealize.ShloMosaic

/-! ## The identity over the reals, on any finite set of columns -/

section RealIdentity

variable {ι : Type*} [Fintype ι] [DecidableEq ι]

/-- The sum of a function that is constant off one point. -/
theorem sum_const_off_one (i₀ : ι) (g0 gC : ℝ) :
    ∑ v : ι, (if v = i₀ then gC else g0) = ((Fintype.card ι : ℝ) - 1) * g0 + gC := by
  have h : ∀ v : ι, (if v = i₀ then gC else g0) = g0 + (if v = i₀ then gC - g0 else 0) := by
    intro v; split_ifs <;> ring
  simp only [h, Finset.sum_add_distrib, Finset.sum_const, Finset.card_univ, nsmul_eq_mul,
    Finset.sum_ite_eq', Finset.mem_univ, if_true]
  ring

/-- The sum of a function that is constant off two distinct points. -/
theorem sum_const_off_two {i₀ i₁ : ι} (h : i₀ ≠ i₁) (g0 gL gM : ℝ) :
    ∑ v : ι, (if v = i₀ then gL else if v = i₁ then gM else g0)
      = (((Fintype.card ι : ℝ) - 2) * g0 + gL) + gM := by
  have hv : ∀ v : ι, (if v = i₀ then gL else if v = i₁ then gM else g0)
      = (g0 + (if v = i₀ then gL - g0 else 0)) + (if v = i₁ then gM - g0 else 0) := by
    intro v
    by_cases h0 : v = i₀
    · have h1 : ¬ v = i₁ := fun e => h (h0.symm.trans e)
      rw [if_pos h0, if_pos h0, if_neg h1]; ring
    · by_cases h1 : v = i₁
      · rw [if_neg h0, if_pos h1, if_neg h0, if_pos h1]; ring
      · rw [if_neg h0, if_neg h1, if_neg h0, if_neg h1]; ring
  simp only [hv, Finset.sum_add_distrib, Finset.sum_const, Finset.card_univ, nsmul_eq_mul,
    Finset.sum_ite_eq', Finset.mem_univ, if_true]
  ring

/-- The row `q_v + ε` over the reals, with the label's column `i₀` and the last column `i₁`. -/
def qrow (i₀ i₁ : ι) (a c m e : ℝ) (v : ι) : ℝ :=
  ((a * (if v = i₀ then 1 else 0) + c) + (if v = i₁ then m else 0)) + e

/-- Its four values. -/
theorem qrow_eq (i₀ i₁ : ι) (a c m e : ℝ) (v : ι) :
    qrow i₀ i₁ a c m e v
      = if v = i₀ then (if v = i₁ then ((c + a) + m) + e else (c + a) + e)
        else (if v = i₁ then (c + m) + e else c + e) := by
  unfold qrow; split_ifs <;> ring

theorem qrow_pos (i₀ i₁ : ι) {a c m e : ℝ} (ha : 0 < a) (hc : 0 < c) (hm : 0 < m) (he : 0 < e) (v : ι) :
    0 < qrow i₀ i₁ a c m e v := by
  rw [qrow_eq]; split_ifs <;> positivity

/-- The sum over the columns, over the reals, in closed form. -/
theorem kl_real (i₀ i₁ : ι) (f : ι → ℝ) (a c m e : ℝ) :
    ∑ v : ι, qrow i₀ i₁ a c m e v * (Real.log (qrow i₀ i₁ a c m e v) - f v)
      = (if i₀ = i₁ then
          (((Fintype.card ι : ℝ) - 1) * (c + e)) * Real.log (c + e)
            + (((c + a) + m) + e) * Real.log (((c + a) + m) + e)
         else
          ((((Fintype.card ι : ℝ) - 2) * (c + e)) * Real.log (c + e) + ((c + a) + e) * Real.log ((c + a) + e))
            + ((c + m) + e) * Real.log ((c + m) + e))
        - (((c + e) * ∑ v : ι, f v + a * f i₀) + m * f i₁) := by
  -- the part against the row `f`
  have hf : ∑ v : ι, qrow i₀ i₁ a c m e v * f v = ((c + e) * ∑ v : ι, f v + a * f i₀) + m * f i₁ := by
    have h : ∀ v : ι, qrow i₀ i₁ a c m e v * f v
        = ((c + e) * f v + (if v = i₀ then a * f v else 0)) + (if v = i₁ then m * f v else 0) := by
      intro v; unfold qrow; split_ifs <;> ring
    simp only [h, Finset.sum_add_distrib, ← Finset.mul_sum, Finset.sum_ite_eq', Finset.mem_univ, if_true]
  -- the entropy part: a function with at most three values
  have hg : ∑ v : ι, qrow i₀ i₁ a c m e v * Real.log (qrow i₀ i₁ a c m e v)
      = if i₀ = i₁ then
          (((Fintype.card ι : ℝ) - 1) * (c + e)) * Real.log (c + e)
            + (((c + a) + m) + e) * Real.log (((c + a) + m) + e)
         else
          ((((Fintype.card ι : ℝ) - 2) * (c + e)) * Real.log (c + e) + ((c + a) + e) * Real.log ((c + a) + e))
            + ((c + m) + e) * Real.log ((c + m) + e) := by
    have h : ∀ v : ι, qrow i₀ i₁ a c m e v * Real.log (qrow i₀ i₁ a c m e v)
        = if v = i₀ then
            (if v = i₁ then (((c + a) + m) + e) * Real.log (((c + a) + m) + e)
              else ((c + a) + e) * Real.log ((c + a) + e))
          else (if v = i₁ then ((c + m) + e) * Real.log ((c + m) + e) else (c + e) * Real.log (c + e)) := by
      intro v; rw [qrow_eq]; split_ifs <;> rfl
    by_cases h01 : i₀ = i₁
    · subst h01
      rw [if_pos rfl]
      have h' : ∀ v : ι, qrow i₀ i₀ a c m e v * Real.log (qrow i₀ i₀ a c m e v)
          = if v = i₀ then (((c + a) + m) + e) * Real.log (((c + a) + m) + e) else (c + e) * Real.log (c + e) := by
        intro v; rw [h v]; split_ifs <;> rfl
      simp only [h']
      rw [sum_const_off_one]; ring
    · rw [if_neg h01]
      have h' : ∀ v : ι, qrow i₀ i₁ a c m e v * Real.log (qrow i₀ i₁ a c m e v)
          = if v = i₀ then ((c + a) + e) * Real.log ((c + a) + e)
            else if v = i₁ then ((c + m) + e) * Real.log ((c + m) + e) else (c + e) * Real.log (c + e) := by
        intro v; rw [h v]
        by_cases h0 : v = i₀
        · have h1 : ¬ v = i₁ := fun e' => h01 (h0.symm.trans e')
          rw [if_pos h0, if_neg h1, if_pos h0]
        · rw [if_neg h0, if_neg h0]
      simp only [h']
      rw [sum_const_off_two h01]; ring
  simp only [mul_sub, Finset.sum_sub_distrib]
  rw [hf, hg]

end RealIdentity

/-! ## Coercions from the reals -/

/-- The coercion of a finite sum of reals is the sum of the coercions. -/
theorem coe_sum {κ : Type*} (t : Finset κ) (f : κ → ℝ) :
    ((∑ v ∈ t, f v : ℝ) : EReal) = ∑ v ∈ t, (f v : EReal) := by
  classical
  refine Finset.induction_on t (by simp) ?_
  intro i t hi ih
  rw [Finset.sum_insert hi, Finset.sum_insert hi, EReal.coe_add, ih]

/-- The logarithm of a positive real. -/
theorem log_coe_pos {r : ℝ} (h : 0 < r) : Ideal.log (r : EReal) = (Real.log r : EReal) := by
  rw [Ideal.log_coe, if_neg (not_le.mpr h)]

/-! ## Columns and words -/

/-- A column's number, as a word, is the word `k` exactly at the column `k` names. -/
theorem word_eq_iff (k : BitVec 32) (h : k.toNat < V) (v : Fin V) :
    BitVec.ofNat 32 v.val = k ↔ v = ⟨k.toNat, h⟩ := by
  constructor
  · intro e
    apply Fin.ext
    have h1 := congrArg BitVec.toNat e
    rw [BitVec.toNat_ofNat] at h1
    have hv : v.val < 32000 := v.isLt
    show v.val = k.toNat
    omega
  · intro e
    subst e
    apply BitVec.eq_of_toNat_eq
    rw [BitVec.toNat_ofNat]
    exact Nat.mod_eq_of_lt k.isLt

/-- The sum against the indicator of a word's column reads the row there. -/
theorem pick_eq (L : Fin V → EReal) (k : BitVec 32) (h : k.toNat < V) : pick L k = L ⟨k.toNat, h⟩ := by
  unfold pick
  simp only [word_eq_iff k h, Finset.sum_ite_eq', Finset.mem_univ, if_true]

/-! ## The two forms agree -/

/-- The statement once `α`, `c`, `m`, `ε` and the row are known to be (positive) reals. -/
theorem kl_eq_of_reals (Lr : Fin V → ℝ) (s : EReal) (l : BitVec 32) (hl : l.toNat < V)
    {a c m e : ℝ} (ha : 0 < a) (hc : 0 < c) (hm : 0 < m) (he : 0 < e)
    (hα : alpha s = (a : EReal)) (hcU : cU s = (c : EReal)) (hcM : cM s = (m : EReal))
    (heps : eps = (e : EReal))
    (h98 : k31998 = ((31998 : ℝ) : EReal)) (h99 : k31999 = ((31999 : ℝ) : EReal)) :
    klClosed (fun v => (Lr v : EReal)) s l = klSum (fun v => (Lr v : EReal)) s l := by
  have hlast : lastW.toNat < V := by decide
  -- the label's column and the last column
  let i₀ : Fin V := ⟨l.toNat, hl⟩
  let i₁ : Fin V := ⟨lastW.toNat, hlast⟩
  have hcol0 : ∀ v : Fin V, l = BitVec.ofNat 32 v.val ↔ v = i₀ :=
    fun v => eq_comm.trans (word_eq_iff l hl v)
  have hcol1 : ∀ v : Fin V, v.val = 31999 ↔ v = i₁ :=
    fun v => ⟨fun h => Fin.ext h, fun h => by rw [h]; rfl⟩
  -- the row `q_v + ε` is the coercion of the real row
  have hq : ∀ v : Fin V,
      (((a : EReal) * (if l = BitVec.ofNat 32 v.val then 1 else 0) + (c : EReal))
        + (if v.val = 31999 then (m : EReal) else 0)) + (e : EReal)
        = ((qrow i₀ i₁ a c m e v : ℝ) : EReal) := by
    intro v
    unfold qrow
    simp only [hcol0 v, hcol1 v]
    split_ifs <;> push_cast <;> rfl
  have hlogq : ∀ v : Fin V, logq s l v = ((Real.log (qrow i₀ i₁ a c m e v) : ℝ) : EReal) := by
    intro v
    unfold logq
    rw [hα, hcU, hcM, heps, hq v, log_coe_pos (qrow_pos i₀ i₁ ha hc hm he v)]
  -- the sum over the columns is the coercion of the real sum
  have hsum : klSum (fun v => (Lr v : EReal)) s l
      = ((∑ v : Fin V, qrow i₀ i₁ a c m e v * (Real.log (qrow i₀ i₁ a c m e v) - Lr v) : ℝ) : EReal) := by
    unfold klSum
    rw [zero_add, coe_sum]
    refine Finset.sum_congr rfl (fun v _ => ?_)
    rw [hlogq v, Ideal.exp_coe, Real.exp_log (qrow_pos i₀ i₁ ha hc hm he v), ← EReal.coe_sub,
      ← EReal.coe_mul]
  have hpick0 : pick (fun v => (Lr v : EReal)) l = (Lr i₀ : EReal) := pick_eq _ l hl
  have hpick1 : pick (fun v => (Lr v : EReal)) lastW = (Lr i₁ : EReal) := pick_eq _ lastW hlast
  have hcard : (Fintype.card (Fin V) : ℝ) = 32000 := by simp
  rw [hsum, kl_real]
  unfold klClosed sqqSame sqqDistinct q0 qL qM qC
  rw [hα, hcU, hcM, heps, h98, h99, hpick0, hpick1, ← coe_sum]
  simp only [← EReal.coe_add]
  rw [log_coe_pos (show 0 < c + e by positivity), log_coe_pos (show 0 < c + a + e by positivity),
    log_coe_pos (show 0 < c + m + e by positivity), log_coe_pos (show 0 < c + a + m + e by positivity)]
  by_cases hll : l = lastW
  · have h01 : i₀ = i₁ := by subst hll; rfl
    rw [if_pos hll, if_pos h01, hcard]
    simp only [← EReal.coe_mul, ← EReal.coe_add, ← EReal.coe_sub]
    norm_num
  · have h01 : i₀ ≠ i₁ := by
      intro h
      apply hll
      apply BitVec.eq_of_toNat_eq
      have h2 : i₀.val = i₁.val := congrArg Fin.val h
      exact h2
    rw [if_neg hll, if_neg h01, hcard]
    simp only [← EReal.coe_mul, ← EReal.coe_add, ← EReal.coe_sub]
    norm_num

/-- The divergence by the closed forms is the divergence by the sum over the columns. -/
theorem kl_eq (L : Fin V → EReal) (s : EReal) (l : BitVec 32) (hL : ∀ v, ∃ r : ℝ, L v = (r : EReal))
    (hs : ∃ r : ℝ, s = (r : EReal)) (hl : l.toNat < 32000)
    (h98 : k31998 = ((31998 : ℝ) : EReal)) (h99 : k31999 = ((31999 : ℝ) : EReal))
    (hU : ∃ r : ℝ, 0 < r ∧ kU = (r : EReal)) (hM : ∃ r : ℝ, 0 < r ∧ kM = (r : EReal))
    (hE : ∃ r : ℝ, 0 < r ∧ eps = (r : EReal)) :
    klClosed L s l = klSum L s l := by
  obtain ⟨sr, rfl⟩ := hs
  obtain ⟨u, hu, hkU⟩ := hU
  obtain ⟨k, hk, hkM⟩ := hM
  obtain ⟨e, he, heps⟩ := hE
  choose Lr hLr using hL
  obtain rfl : L = fun v => (Lr v : EReal) := funext hLr
  -- `α(s)` is a real number strictly between 0 and 1
  have hexp : 0 < Real.exp (-sr) := Real.exp_pos _
  have ha : 0 < (1 + Real.exp (-sr))⁻¹ := inv_pos.mpr (by linarith)
  have ha1 : (1 + Real.exp (-sr))⁻¹ < 1 := inv_lt_one_of_one_lt₀ (by linarith)
  have hα : alpha (sr : EReal) = (((1 + Real.exp (-sr))⁻¹ : ℝ) : EReal) := by
    unfold alpha; exact Ideal.logistic_coe sr
  have h1a : (1 : EReal) - (((1 + Real.exp (-sr))⁻¹ : ℝ) : EReal)
      = ((1 - (1 + Real.exp (-sr))⁻¹ : ℝ) : EReal) := by
    rw [← EReal.coe_one, ← EReal.coe_sub]
  have hcU : cU (sr : EReal) = (((1 - (1 + Real.exp (-sr))⁻¹) * u : ℝ) : EReal) := by
    unfold cU; rw [hα, h1a, hkU, ← EReal.coe_mul]
  have hcM : cM (sr : EReal) = (((1 - (1 + Real.exp (-sr))⁻¹) * k : ℝ) : EReal) := by
    unfold cM; rw [hα, h1a, hkM, ← EReal.coe_mul]
  exact kl_eq_of_reals Lr _ l hl ha (mul_pos (by linarith) hu) (mul_pos (by linarith) hk) he hα hcU hcM
    heps h98 h99

end Cert.Spec

end
-- ==== Proof.Bridge.lean ====
/-
  The two forms of the loss agree on every position whose logits and log signal-to-noise ratio are finite and whose
  label and observed token are columns of the vocabulary: the divergence's closed forms are the sum over the columns,
  the sum against a column's indicator is the row at that column, and the logarithm the first program's host side
  computes from the token's two comparisons is the label distribution's row at the token.
-/
import proofs.«412391_j58377195487468_2_alg».proof.Proof.MathRow
import proofs.«412391_j58377195487468_2_alg».proof.Proof.MathKL

noncomputable section

namespace Cert.Spec

open Idealize.ShloMosaic Idealize.ShloMosaic.ValueIdx

/-- One position. -/
theorem loss_eq (x : Fin V → EReal) (s : EReal) (l z : BitVec 32)
    (hx : ∀ v, ∃ r : ℝ, x v = (r : EReal)) (hs : ∃ r : ℝ, s = (r : EReal)) (hl : l.toNat < 32000) (hz : z.toNat < 32000) :
    lossClosed x s l z = lossSum x s l z := by
  unfold lossClosed lossSum
  rw [kl_eq (logp x s) s l (logp_real x hx s hs) hs hl k31998_eq k31999_eq kU_pos kM_pos eps_pos,
    lqz_eq s l z hz, pick_eq_sel (logp x s) z hz]

/-- The whole arrays. -/
theorem out_eq (a0 : SLogits.Idx → EReal) (ids labels : SRow.Idx → BitVec 32) (snr : SRow.Idx → EReal)
    (h0 : ∀ i, ∃ r : ℝ, a0 i = (r : EReal)) (h3 : ∀ i, ∃ r : ℝ, snr i = (r : EReal))
    (hl : ∀ i, (labels i).toNat < 32000) (hz : ∀ i, (ids i).toNat < 32000) :
    outClosed a0 ids labels snr = outSum a0 ids labels snr := by
  funext i
  exact loss_eq _ _ _ _ (fun v => h0 _) (h3 i) (hl i) (hz i)

end Cert.Spec

end
-- ==== Proof.lean ====
/-
  The certificate of the fused diffusion-loss kernel against its reference, over the extended reals.

  For every sequence position the loss is `w·KL + w·D`: `w` the clipped weight `σ(s)·σ(-s)`, `KL` the divergence
  between the noised label distribution `q` and the noised model distribution `p` (both with a small `ε` added), and
  `D` the importance-sampling divergence of the two at the observed token. The reference sums
  `(q_v+ε)·(log(q_v+ε) − log(p_v+ε))` over the 32000 columns. The kernel uses that `q` is constant on a row off the
  label's column and the last column: `Σ_v (q_v+ε)·log(q_v+ε)` is a closed form in three (or, when the two columns
  coincide, two) values, and `Σ_v (q_v+ε)·log(p_v+ε)` is the generic value times the row sum of `log(p_v+ε)` plus the
  two corrections at the special columns; it reads the row at a column as the sum against that column's indicator.
  On finite logits and log signal-to-noise ratios, and labels and tokens that are columns of the vocabulary, every
  quantity is a real number, `exp(log(q_v+ε)) = q_v+ε`, and the two forms are one number.

  The frames: the kernel's run around its one region, at both instances, and the reference's straight-line run.
  Nothing was rewritten by the ideal pass, so the idealization's conjunct is `True`.
-/
import proofs.«412391_j58377195487468_2_alg».proof.Defs
import proofs.«412391_j58377195487468_2_alg».proof.Proof.Gen.Kernel
import proofs.«412391_j58377195487468_2_alg».proof.Proof.Gen.KernelIdeal
import proofs.«412391_j58377195487468_2_alg».proof.Proof.Gen.ReferenceIdeal
import proofs.«412391_j58377195487468_2_alg».proof.Proof.Gen.Pre_finite_inputs
import proofs.«412391_j58377195487468_2_alg».proof.Proof.KFrame
import proofs.«412391_j58377195487468_2_alg».proof.Proof.KIFrame
import proofs.«412391_j58377195487468_2_alg».proof.Proof.KIValue
import proofs.«412391_j58377195487468_2_alg».proof.Proof.RefRows
import proofs.«412391_j58377195487468_2_alg».proof.Proof.RefTail
import proofs.«412391_j58377195487468_2_alg».proof.Proof.PreDecode
import proofs.«412391_j58377195487468_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_k : Cert.frame_Kernel := fun m ρ _ => Cert.Kernel.Fr.frame m ρ

/-- The idealized kernel runs and keeps its arguments. -/
theorem frame_ki : Cert.frame_KernelIdeal := fun m ρ _ => Cert.KernelIdeal.Fr.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the four arguments, under the precondition, both programs end with the closed-form
    loss of every position: the kernel by its run and the reading of its result buffer, the reference by its run, the
    reading of its result term as the column-sum loss, and the equality of the two forms. -/
theorem algebraic : Cert.algebraic_KernelIdeal_ReferenceIdeal := by
  intro m ρ m' ρ' hpre hagree
  refine ⟨fun c => Spec.outClosed (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨Cert.KernelIdeal.Fr.value_of_post m r h c, ?_, ?_, ?_, ?_⟩)
      (Cert.KernelIdeal.Fr.run_main (F := Ideal) m ρ)
    · exact ((h c).2 Cert.KernelIdeal.main_arg0 (Pipeline.mem_restRefs_of _ (by decide) (by decide))).trans
        (Cert.KernelIdeal.Fr.W_main_arg0 m (Cert.KernelIdeal.Fr.dats m) c)
    · exact ((h c).2 Cert.KernelIdeal.main_arg1 (Pipeline.mem_restRefs_of _ (by decide) (by decide))).trans
        (Cert.KernelIdeal.Fr.W_main_arg1 m (Cert.KernelIdeal.Fr.dats m) c)
    · exact ((h c).2 Cert.KernelIdeal.main_arg2 (Pipeline.mem_restRefs_of _ (by decide) (by decide))).trans
        (Cert.KernelIdeal.Fr.W_main_arg2 m (Cert.KernelIdeal.Fr.dats m) c)
    · exact ((h c).2 Cert.KernelIdeal.main_arg3 (Pipeline.mem_restRefs_of _ (by decide) (by decide))).trans
        (Cert.KernelIdeal.Fr.W_main_arg3 m (Cert.KernelIdeal.Fr.dats m) c)
  · refine (θ_run Cert.ReferenceIdeal.defs _ _).mono (fun _ h c => ⟨(h c).1.trans ?_, (h c).2⟩)
      (Cert.ReferenceIdeal.Value.run (F := Ideal) m' ρ')
    obtain ⟨h0, h3, hl, hz⟩ := Cert.PreDecode.pre_decode _ _ _ _ (hpre c)
    rw [Cert.ReferenceIdeal.Read.val_main_v104_eq, (hagree c).1, (hagree c).2.1, (hagree c).2.2.1, (hagree c).2.2.2]
    rw [Cert.ReferenceIdeal.Tail.ref_value _ _ _ _ (fun r v => Cert.ReferenceIdeal.Rows.logp_apply _ _ r v)
      (fun r v => Cert.ReferenceIdeal.Rows.logq_apply _ _ r v) hz]
    exact (Spec.out_eq _ _ _ _ h0 h3 hl hz).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
